-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1024x20000 : Shape := ⟨2, ![1024, 20000]⟩
abbrev S1024x40000 : Shape := ⟨2, ![1024, 40000]⟩
abbrev S20000 : Shape := ⟨1, ![20000]⟩
abbrev S40000x2 : Shape := ⟨2, ![40000, 2]⟩
abbrev S40000 : Shape := ⟨1, ![40000]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1024x20000 : S_.BroadcastsInDim S1024x20000 (![] : Fin 0 → Fin S1024x20000.rank)
  reducesTo_S1024x20000_S_d0_1 : S1024x20000.ReducesTo [0, 1] S_
  bcast_S_S1024x40000 : S_.BroadcastsInDim S1024x40000 (![] : Fin 0 → Fin S1024x40000.rank)
  reducesTo_S1024x40000_S_d0_1 : S1024x40000.ReducesTo [0, 1] S_
  bcast_S_S20000 : S_.BroadcastsInDim S20000 (![] : Fin 0 → Fin S20000.rank)
  reducesTo_S20000_S_d0 : S20000.ReducesTo [0] S_
  bcast_S_S40000x2 : S_.BroadcastsInDim S40000x2 (![] : Fin 0 → Fin S40000x2.rank)
  reducesTo_S40000x2_S_d0_1 : S40000x2.ReducesTo [0, 1] S_
  bcast_S_S40000 : S_.BroadcastsInDim S40000 (![] : Fin 0 → Fin S40000.rank)
  reducesTo_S40000_S_d0 : S40000.ReducesTo [0] S_

variable [Facts]

def fn_part2 {F : FTy → Type} [FloatOps F] (main_arg6 : IVec S40000 32) (main_v27 : IVec S_ 1) (main_v32 : IVec S40000x2 1) (main_c_12 : IVec S_ 1) : IVec S_ 1 :=
  let main_v33 : IVec S_ 1 := (fun x v => Host.reduce IntOp.andi x v reducesTo_S40000x2_S_d0_1 h_S_) main_v32 main_c_12
  let main_v34 : IVec S_ 1 := andi main_v27 main_v33
  let main_c_13 : IVec S_ 32 := constantI S_ 32 0#32
  let main_v35 : IVec S40000 32 := broadcastInDim S40000 ![] bcast_S_S40000 main_c_13
  let main_v36 : IVec S40000 1 := cmpi .sge main_arg6 main_v35
  let main_c_14 : IVec S_ 32 := constantI S_ 32 2048#32
  let main_v37 : IVec S40000 32 := broadcastInDim S40000 ![] bcast_S_S40000 main_c_14
  let main_v38 : IVec S40000 1 := cmpi .slt main_arg6 main_v37
  let main_v39 : IVec S40000 1 := andi main_v36 main_v38
  let main_c_15 : IVec S_ 1 := constantI S_ 1 1#1
  let main_v40 : IVec S_ 1 := (fun x v => Host.reduce IntOp.andi x v reducesTo_S40000_S_d0 h_S_) main_v39 main_c_15
  let main_v41 : IVec S_ 1 := andi main_v34 main_v40
  main_v41

def fn_part1 {F : FTy → Type} [FloatOps F] (main_arg3 : IVec S20000 32) (main_arg4 : IVec S20000 32) (main_arg5 : IVec S40000x2 32) (main_arg6 : IVec S40000 32) (main_v13 : IVec S_ 1) (main_v15 : IVec S20000 1) (main_c_5 : IVec S_ 32) : IVec S_ 1 :=
  let main_v16 : IVec S20000 32 := broadcastInDim S20000 ![] bcast_S_S20000 main_c_5
  let main_v17 : IVec S20000 1 := cmpi .slt main_arg3 main_v16
  let main_v18 : IVec S20000 1 := andi main_v15 main_v17
  let main_c_6 : IVec S_ 1 := constantI S_ 1 1#1
  let main_v19 : IVec S_ 1 := (fun x v => Host.reduce IntOp.andi x v reducesTo_S20000_S_d0 h_S_) main_v18 main_c_6
  let main_v20 : IVec S_ 1 := andi main_v13 main_v19
  let main_c_7 : IVec S_ 32 := constantI S_ 32 0#32
  let main_v21 : IVec S20000 32 := broadcastInDim S20000 ![] bcast_S_S20000 main_c_7
  let main_v22 : IVec S20000 1 := cmpi .sge main_arg4 main_v21
  let main_c_8 : IVec S_ 32 := constantI S_ 32 2048#32
  let main_v23 : IVec S20000 32 := broadcastInDim S20000 ![] bcast_S_S20000 main_c_8
  let main_v24 : IVec S20000 1 := cmpi .slt main_arg4 main_v23
  let main_v25 : IVec S20000 1 := andi main_v22 main_v24
  let main_c_9 : IVec S_ 1 := constantI S_ 1 1#1
  let main_v26 : IVec S_ 1 := (fun x v => Host.reduce IntOp.andi x v reducesTo_S20000_S_d0 h_S_) main_v25 main_c_9
  let main_v27 : IVec S_ 1 := andi main_v20 main_v26
  let main_c_10 : IVec S_ 32 := constantI S_ 32 0#32
  let main_v28 : IVec S40000x2 32 := broadcastInDim S40000x2 ![] bcast_S_S40000x2 main_c_10
  let main_v29 : IVec S40000x2 1 := cmpi .sge main_arg5 main_v28
  let main_c_11 : IVec S_ 32 := constantI S_ 32 2048#32
  let main_v30 : IVec S40000x2 32 := broadcastInDim S40000x2 ![] bcast_S_S40000x2 main_c_11
  let main_v31 : IVec S40000x2 1 := cmpi .slt main_arg5 main_v30
  let main_v32 : IVec S40000x2 1 := andi main_v29 main_v31
  let main_c_12 : IVec S_ 1 := constantI S_ 1 1#1
  fn_part2 (F := F) main_arg6 main_v27 main_v32 main_c_12

def fn {F : FTy → Type} [FloatOps F] (main_arg0 : FVec F S1024x2048 .f32) (main_arg1 : FVec F S1024x20000 .f32) (main_arg2 : FVec F S1024x40000 .f32) (main_arg3 : IVec S20000 32) (main_arg4 : IVec S20000 32) (main_arg5 : IVec S40000x2 32) (main_arg6 : IVec S40000 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x20000 .f32 := Host.absf main_arg1
  let main_cst_0 : FVec F S_ .f32 := constant S_ .f32 0x7F800000#32
  let main_v5 : FVec F S1024x20000 .f32 := broadcastInDim S1024x20000 ![] bcast_S_S1024x20000 main_cst_0
  let main_v6 : IVec S1024x20000 1 := cmpf .olt main_v4 main_v5
  let main_c_1 : IVec S_ 1 := constantI S_ 1 1#1
  let main_v7 : IVec S_ 1 := (fun x v => Host.reduce IntOp.andi x v reducesTo_S1024x20000_S_d0_1 h_S_) main_v6 main_c_1
  let main_v8 : IVec S_ 1 := andi main_v3 main_v7
  let main_v9 : FVec F S1024x40000 .f32 := Host.absf main_arg2
  let main_cst_2 : FVec F S_ .f32 := constant S_ .f32 0x7F800000#32
  let main_v10 : FVec F S1024x40000 .f32 := broadcastInDim S1024x40000 ![] bcast_S_S1024x40000 main_cst_2
  let main_v11 : IVec S1024x40000 1 := cmpf .olt main_v9 main_v10
  let main_c_3 : IVec S_ 1 := constantI S_ 1 1#1
  let main_v12 : IVec S_ 1 := (fun x v => Host.reduce IntOp.andi x v reducesTo_S1024x40000_S_d0_1 h_S_) main_v11 main_c_3
  let main_v13 : IVec S_ 1 := andi main_v8 main_v12
  let main_c_4 : IVec S_ 32 := constantI S_ 32 0#32
  let main_v14 : IVec S20000 32 := broadcastInDim S20000 ![] bcast_S_S20000 main_c_4
  let main_v15 : IVec S20000 1 := cmpi .sge main_arg3 main_v14
  let main_c_5 : IVec S_ 32 := constantI S_ 32 2048#32
  fn_part1 (F := F) main_arg3 main_arg4 main_arg5 main_arg6 main_v13 main_v15 main_c_5
-- ==== Kernel.lean ====
abbrev S1024x2048 : Shape := ⟨2, ![1024, 2048]⟩
abbrev S1024x20000 : Shape := ⟨2, ![1024, 20000]⟩
abbrev S1024x40000 : Shape := ⟨2, ![1024, 40000]⟩
abbrev S20000 : Shape := ⟨1, ![20000]⟩
abbrev S40000x2 : Shape := ⟨2, ![40000, 2]⟩
abbrev S40000 : Shape := ⟨1, ![40000]⟩
abbrev S_ : Shape := ⟨0, ![]⟩
abbrev S1024x20480 : Shape := ⟨2, ![1024, 20480]⟩
abbrev S20480 : Shape := ⟨1, ![20480]⟩
abbrev S1x20480 : Shape := ⟨2, ![1, 20480]⟩
abbrev S1024x40448 : Shape := ⟨2, ![1024, 40448]⟩
abbrev S40000x1 : Shape := ⟨2, ![40000, 1]⟩
abbrev S40448 : Shape := ⟨1, ![40448]⟩
abbrev S1x40448 : Shape := ⟨2, ![1, 40448]⟩
abbrev S512x2048 : Shape := ⟨2, ![512, 2048]⟩
abbrev S512x1024 : Shape := ⟨2, ![512, 1024]⟩
abbrev S1x1024 : Shape := ⟨2, ![1, 1024]⟩
abbrev S1024 : Shape := ⟨1, ![1024]⟩
abbrev S2048x1024 : Shape := ⟨2, ![2048, 1024]⟩
abbrev S1024x1 : Shape := ⟨2, ![1024, 1]⟩
abbrev S512x512 : Shape := ⟨2, ![512, 512]⟩
abbrev S1x512 : Shape := ⟨2, ![1, 512]⟩
abbrev S512 : Shape := ⟨1, ![512]⟩
abbrev S2048x512 : Shape := ⟨2, ![2048, 512]⟩
abbrev S512x1 : Shape := ⟨2, ![512, 1]⟩

abbrev nBuf : Space → Nat
  | .hbm => 40
  | .vmem => 26
  | .smem => 0
  | _ => 0

abbrev bufTy : (tb : Table) → Fin (tcTables nBuf tb) → BufTy
  | .hbm, ⟨0, _⟩ => ⟨S1024x2048, .f32⟩
  | .hbm, ⟨1, _⟩ => ⟨S1024x20000, .f32⟩
  | .hbm, ⟨2, _⟩ => ⟨S1024x40000, .f32⟩
  | .hbm, ⟨3, _⟩ => ⟨S20000, .i32⟩
  | .hbm, ⟨4, _⟩ => ⟨S20000, .i32⟩
  | .hbm, ⟨5, _⟩ => ⟨S40000x2, .i32⟩
  | .hbm, ⟨6, _⟩ => ⟨S40000, .i32⟩
  | .hbm, ⟨7, _⟩ => ⟨S1024x2048, .bf16⟩
  | .hbm, ⟨8, _⟩ => ⟨S_, .i32⟩
  | .hbm, ⟨9, _⟩ => ⟨S_, .f32⟩
  | .hbm, ⟨10, _⟩ => ⟨S1024x20480, .f32⟩
  | .hbm, ⟨11, _⟩ => ⟨S_, .i32⟩
  | .hbm, ⟨12, _⟩ => ⟨S_, .i32⟩
  | .hbm, ⟨13, _⟩ => ⟨S20480, .i32⟩
  | .hbm, ⟨14, _⟩ => ⟨S1x20480, .i32⟩
  | .hbm, ⟨15, _⟩ => ⟨S_, .i32⟩
  | .hbm, ⟨16, _⟩ => ⟨S_, .i32⟩
  | .hbm, ⟨17, _⟩ => ⟨S20480, .i32⟩
  | .hbm, ⟨18, _⟩ => ⟨S1x20480, .i32⟩
  | .hbm, ⟨19, _⟩ => ⟨S_, .i32⟩
  | .hbm, ⟨20, _⟩ => ⟨S_, .f32⟩
  | .hbm, ⟨21, _⟩ => ⟨S1024x40448, .f32⟩
  | .hbm, ⟨22, _⟩ => ⟨S40000x1, .i32⟩
  | .hbm, ⟨23, _⟩ => ⟨S40000, .i32⟩
  | .hbm, ⟨24, _⟩ => ⟨S_, .i32⟩
  | .hbm, ⟨25, _⟩ => ⟨S_, .i32⟩
  | .hbm, ⟨26, _⟩ => ⟨S40448, .i32⟩
  | .hbm, ⟨27, _⟩ => ⟨S1x40448, .i32⟩
  | .hbm, ⟨28, _⟩ => ⟨S40000x1, .i32⟩
  | .hbm, ⟨29, _⟩ => ⟨S40000, .i32⟩
  | .hbm, ⟨30, _⟩ => ⟨S_, .i32⟩
  | .hbm, ⟨31, _⟩ => ⟨S_, .i32⟩
  | .hbm, ⟨32, _⟩ => ⟨S40448, .i32⟩
  | .hbm, ⟨33, _⟩ => ⟨S1x40448, .i32⟩
  | .hbm, ⟨34, _⟩ => ⟨S_, .i32⟩
  | .hbm, ⟨35, _⟩ => ⟨S_, .i32⟩
  | .hbm, ⟨36, _⟩ => ⟨S40448, .i32⟩
  | .hbm, ⟨37, _⟩ => ⟨S1x40448, .i32⟩
  | .hbm, ⟨38, _⟩ => ⟨S1024x2048, .f32⟩
  | .hbm, ⟨39, _⟩ => ⟨S1024x2048, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S1x1024, .i32⟩
  | .local _ .vmem, ⟨5, _⟩ => ⟨S1x1024, .i32⟩
  | .local _ .vmem, ⟨6, _⟩ => ⟨S1x1024, .i32⟩
  | .local _ .vmem, ⟨7, _⟩ => ⟨S1x1024, .i32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x512, .f32⟩
  | .local _ .vmem, ⟨14, _⟩ => ⟨S512x512, .f32⟩
  | .local _ .vmem, ⟨15, _⟩ => ⟨S1x512, .i32⟩
  | .local _ .vmem, ⟨16, _⟩ => ⟨S1x512, .i32⟩
  | .local _ .vmem, ⟨17, _⟩ => ⟨S1x512, .i32⟩
  | .local _ .vmem, ⟨18, _⟩ => ⟨S1x512, .i32⟩
  | .local _ .vmem, ⟨19, _⟩ => ⟨S1x512, .i32⟩
  | .local _ .vmem, ⟨20, _⟩ => ⟨S1x512, .i32⟩
  | .local _ .vmem, ⟨21, _⟩ => ⟨S512x2048, .f32⟩
  | .local _ .vmem, ⟨22, _⟩ => ⟨S512x2048, .f32⟩
  | .local _ .vmem, ⟨23, _⟩ => ⟨S512x2048, .f32⟩
  | .local _ .vmem, ⟨24, _⟩ => ⟨S512x2048, .f32⟩
  | .local _ .vmem, ⟨25, _⟩ => ⟨S512x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_call2_v0 : Ref sig .tc := ⟨.hbm, 16, rfl⟩
abbrev main_v4 : Ref sig .tc := ⟨.hbm, 17, rfl⟩
abbrev main_v5 : Ref sig .tc := ⟨.hbm, 18, rfl⟩
abbrev main_c_2 : Ref sig .tc := ⟨.hbm, 19, rfl⟩
abbrev main_call3_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_call4_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_4 : Ref sig .tc := ⟨.hbm, 30, rfl⟩
abbrev main_call5_v0 : Ref sig .tc := ⟨.hbm, 31, rfl⟩
abbrev main_v13 : Ref sig .tc := ⟨.hbm, 32, rfl⟩
abbrev main_v14 : Ref sig .tc := ⟨.hbm, 33, rfl⟩
abbrev main_c_5 : Ref sig .tc := ⟨.hbm, 34, rfl⟩
abbrev main_call6_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v34 : BitVec 1 := Scalar.cmpi .eq arg1 c19_i32
  let v35 : BitVec 32 := Scalar.extui v34
  let c0_i32_13 : BitVec 32 := 0#32
  let v36 : BitVec 1 := Scalar.cmpi .ne v35 c0_i32_13
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 79], ![false, false]⟩

def k1_cond2 (i : grid1.Coords) : BitVec 1 :=
  let arg1 : BitVec 32 := BitVec.ofNat 32 (i 1).val
  let c78_i32 : BitVec 32 := 78#32
  let v44 : BitVec 1 := Scalar.cmpi .eq arg1 c78_i32
  let v45 : BitVec 32 := Scalar.extui v44
  let c0_i32_16 : BitVec 32 := 0#32
  let v46 : BitVec 1 := Scalar.cmpi .ne v45 c0_i32_16
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  bitsLt_bf16_f32 : FTy.bits .bf16 < FTy.bits .f32
  pads_S1024x20000_S1024x20480_000_04800 : S1024x20000.Pads (![0, 0] : Fin 2 → Nat) ![0, 480] ![0, 0] S1024x20480
  h_S_ : 0 < S_.numel
  pads_S20000_S20480_04800 : S20000.Pads (![0] : Fin 1 → Nat) ![480] ![0] S20480
  shapeCasts_S20480_S1x20480 : S20480.ShapeCasts S1x20480
  pads_S1024x40000_S1024x40448_000_04480 : S1024x40000.Pads (![0, 0] : Fin 2 → Nat) ![0, 448] ![0, 0] S1024x40448
  slices_S40000x2_S40000x1_0_0 : S40000x2.Slices ![0, 0] S40000x1
  shapeCasts_S40000x1_S40000 : S40000x1.ShapeCasts S40000
  pads_S40000_S40448_04480 : S40000.Pads (![0] : Fin 1 → Nat) ![448] ![0] S40448
  shapeCasts_S40448_S1x40448 : S40448.ShapeCasts S1x40448
  slices_S40000x2_S40000x1_0_1 : S40000x2.Slices ![0, 1] S40000x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  iota_S2048x1024_d0_w32 : S2048x1024.Iotas .tc 32 [0]
  shapeCasts_S1024_S1x1024 : S1024.ShapeCasts S1x1024
  broadcasts_S1x1024_S2048x1024 : S1x1024.Broadcasts S2048x1024
  natLt_1_32 : 1 < 32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  iota_S1024x2048_d1_w32 : S1024x2048.Iotas .tc 32 [1]
  shapeCasts_S1024_S1024x1 : S1024.ShapeCasts S1024x1
  broadcasts_S1024x1_S1024x2048 : S1024x1.Broadcasts S1024x2048
  inb_S1x512_S1x512_0_0 : ∀ a, (![0, 0] : Fin 2 → Nat) a + S1x512.size a ≤ S1x512.size a
  h_S1x512 : 0 < S1x512.numel
  shapeCasts_S1x512_S512 : S1x512.ShapeCasts S512
  iota_S2048x512_d0_w32 : S2048x512.Iotas .tc 32 [0]
  shapeCasts_S512_S1x512 : S512.ShapeCasts S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x2048_d1_w32 : S512x2048.Iotas .tc 32 [1]
  shapeCasts_S512_S512x1 : S512.ShapeCasts S512x1
  broadcasts_S512x1_S512x2048 : S512x1.Broadcasts S512x2048
  dot_S512x2048_S2048x1024_S512x1024_1_0_0_1_n_n_wf : DotDims.WF S512x2048 S2048x1024 S512x1024 [1] [0] [0] [1] [] []
  dot_S512x1024_S1024x2048_S512x2048_1_0_0_1_n_n_wf : DotDims.WF S512x1024 S1024x2048 S512x2048 [1] [0] [0] [1] [] []
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S1024x2048.size a
  hwx0_0 : ∀ i : grid0.Coords, EltTy.bits .bf16 = 32 ∨ (Rect.block (s := S1024x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S1024x20480.size a
  hwx0_1 : ∀ i : grid0.Coords, EltTy.bits .f32 = 32 ∨ (Rect.block (s := S1024x20480) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x20480.size a
  hwx0_2 : ∀ i : grid0.Coords, EltTy.bits .i32 = 32 ∨ (Rect.block (s := S1x20480) S1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x20480.size a
  hwx0_3 : ∀ i : grid0.Coords, EltTy.bits .i32 = 32 ∨ (Rect.block (s := S1x20480) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S1024x2048.size a
  hwx0_4 : ∀ i : grid0.Coords, EltTy.bits .f32 = 32 ∨ (Rect.block (s := S1024x2048) S512x2048.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S1024x2048.size a
  hwx1_0 : ∀ i : grid1.Coords, EltTy.bits .bf16 = 32 ∨ (Rect.block (s := S1024x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S1024x40448.size a
  hwx1_1 : ∀ i : grid1.Coords, EltTy.bits .f32 = 32 ∨ (Rect.block (s := S1024x40448) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x40448.size a
  hwx1_2 : ∀ i : grid1.Coords, EltTy.bits .i32 = 32 ∨ (Rect.block (s := S1x40448) S1x512.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x40448.size a
  hwx1_3 : ∀ i : grid1.Coords, EltTy.bits .i32 = 32 ∨ (Rect.block (s := S1x40448) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x40448.size a
  hwx1_4 : ∀ i : grid1.Coords, EltTy.bits .i32 = 32 ∨ (Rect.block (s := S1x40448) S1x512.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x2048.size a ≤ S1024x2048.size a
  hwx1_5 : ∀ i : grid1.Coords, EltTy.bits .f32 = 32 ∨ (Rect.block (s := S1024x2048) S512x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x2048.size a ≤ S1024x2048.size a
  hwx1_6 : ∀ i : grid1.Coords, EltTy.bits .f32 = 32 ∨ (Rect.block (s := S1024x2048) S512x2048.size (cc1_transform_6 i) (hinb1_6 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17) S512x2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v18) S512x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S1024x2048 : Shape := ⟨2, ![1024, 2048]⟩
abbrev S1024x20000 : Shape := ⟨2, ![1024, 20000]⟩
abbrev S1024x40000 : Shape := ⟨2, ![1024, 40000]⟩
abbrev S20000 : Shape := ⟨1, ![20000]⟩
abbrev S40000x2 : Shape := ⟨2, ![40000, 2]⟩
abbrev S40000 : Shape := ⟨1, ![40000]⟩
abbrev S_ : Shape := ⟨0, ![]⟩
abbrev S20000x1 : Shape := ⟨2, ![20000, 1]⟩
abbrev S40000x1 : Shape := ⟨2, ![40000, 1]⟩

abbrev nBuf : Space → Nat
  | .hbm => 61
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x20000, .f32⟩
  | .hbm, ⟨2, _⟩ => ⟨S1024x40000, .f32⟩
  | .hbm, ⟨3, _⟩ => ⟨S20000, .i32⟩
  | .hbm, ⟨4, _⟩ => ⟨S20000, .i32⟩
  | .hbm, ⟨5, _⟩ => ⟨S40000x2, .i32⟩
  | .hbm, ⟨6, _⟩ => ⟨S40000, .i32⟩
  | .hbm, ⟨7, _⟩ => ⟨S_, .i32⟩
  | .hbm, ⟨8, _⟩ => ⟨S20000, .i32⟩
  | .hbm, ⟨9, _⟩ => ⟨S20000, .i1⟩
  | .hbm, ⟨10, _⟩ => ⟨S_, .i32⟩
  | .hbm, ⟨11, _⟩ => ⟨S20000, .i32⟩
  | .hbm, ⟨12, _⟩ => ⟨S20000, .i32⟩
  | .hbm, ⟨13, _⟩ => ⟨S20000, .i32⟩
  | .hbm, ⟨14, _⟩ => ⟨S20000x1, .i32⟩
  | .hbm, ⟨15, _⟩ => ⟨S1024x20000, .f32⟩
  | .hbm, ⟨16, _⟩ => ⟨S1024x20000, .f32⟩
  | .hbm, ⟨17, _⟩ => ⟨S40000x1, .i32⟩
  | .hbm, ⟨18, _⟩ => ⟨S40000, .i32⟩
  | .hbm, ⟨19, _⟩ => ⟨S_, .i32⟩
  | .hbm, ⟨20, _⟩ => ⟨S40000, .i32⟩
  | .hbm, ⟨21, _⟩ => ⟨S40000, .i1⟩
  | .hbm, ⟨22, _⟩ => ⟨S_, .i32⟩
  | .hbm, ⟨23, _⟩ => ⟨S40000, .i32⟩
  | .hbm, ⟨24, _⟩ => ⟨S40000, .i32⟩
  | .hbm, ⟨25, _⟩ => ⟨S40000, .i32⟩
  | .hbm, ⟨26, _⟩ => ⟨S40000x1, .i32⟩
  | .hbm, ⟨27, _⟩ => ⟨S1024x40000, .f32⟩
  | .hbm, ⟨28, _⟩ => ⟨S40000x1, .i32⟩
  | .hbm, ⟨29, _⟩ => ⟨S40000, .i32⟩
  | .hbm, ⟨30, _⟩ => ⟨S_, .i32⟩
  | .hbm, ⟨31, _⟩ => ⟨S40000, .i32⟩
  | .hbm, ⟨32, _⟩ => ⟨S40000, .i1⟩
  | .hbm, ⟨33, _⟩ => ⟨S_, .i32⟩
  | .hbm, ⟨34, _⟩ => ⟨S40000, .i32⟩
  | .hbm, ⟨35, _⟩ => ⟨S40000, .i32⟩
  | .hbm, ⟨36, _⟩ => ⟨S40000, .i32⟩
  | .hbm, ⟨37, _⟩ => ⟨S40000x1, .i32⟩
  | .hbm, ⟨38, _⟩ => ⟨S1024x40000, .f32⟩
  | .hbm, ⟨39, _⟩ => ⟨S1024x40000, .f32⟩
  | .hbm, ⟨40, _⟩ => ⟨S1024x40000, .f32⟩
  | .hbm, ⟨41, _⟩ => ⟨S_, .f32⟩
  | .hbm, ⟨42, _⟩ => ⟨S1024x2048, .f32⟩
  | .hbm, ⟨43, _⟩ => ⟨S_, .i32⟩
  | .hbm, ⟨44, _⟩ => ⟨S20000, .i32⟩
  | .hbm, ⟨45, _⟩ => ⟨S20000, .i1⟩
  | .hbm, ⟨46, _⟩ => ⟨S_, .i32⟩
  | .hbm, ⟨47, _⟩ => ⟨S20000, .i32⟩
  | .hbm, ⟨48, _⟩ => ⟨S20000, .i32⟩
  | .hbm, ⟨49, _⟩ => ⟨S20000, .i32⟩
  | .hbm, ⟨50, _⟩ => ⟨S20000x1, .i32⟩
  | .hbm, ⟨51, _⟩ => ⟨S1024x2048, .f32⟩
  | .hbm, ⟨52, _⟩ => ⟨S_, .i32⟩
  | .hbm, ⟨53, _⟩ => ⟨S40000, .i32⟩
  | .hbm, ⟨54, _⟩ => ⟨S40000, .i1⟩
  | .hbm, ⟨55, _⟩ => ⟨S_, .i32⟩
  | .hbm, ⟨56, _⟩ => ⟨S40000, .i32⟩
  | .hbm, ⟨57, _⟩ => ⟨S40000, .i32⟩
  | .hbm, ⟨58, _⟩ => ⟨S40000, .i32⟩
  | .hbm, ⟨59, _⟩ => ⟨S40000x1, .i32⟩
  | .hbm, ⟨60, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  slices_S40000x2_S40000x1_0_0 : S40000x2.Slices ![0, 0] S40000x1
  shapeCasts_S40000x1_S40000 : S40000x1.ShapeCasts S40000
  bcast_S_S40000 : S_.BroadcastsInDim S40000 (![] : Fin 0 → Fin S40000.rank)
  bcast_S40000_S40000x1_0 : S40000.BroadcastsInDim S40000x1 (![0] : Fin 1 → Fin S40000x1.rank)
  slices_S40000x2_S40000x1_0_1 : S40000x2.Slices ![0, 1] S40000x1
  bcast_S_S1024x2048 : S_.BroadcastsInDim S1024x2048 (![] : Fin 0 → Fin S1024x2048.rank)
  gather_S1024x2048_S20000x1_S1024x20000_0_1_n_n_1_1_10241_wf : GatherDims.WF S1024x2048 S20000x1 S1024x20000 [0] [1] [] [1] [] 1 ![1024, 1]
  gather_S1024x2048_S40000x1_S1024x40000_0_1_n_n_1_1_10241_wf : GatherDims.WF S1024x2048 S40000x1 S1024x40000 [0] [1] [] [1] [] 1 ![1024, 1]
  scatter_S1024x2048_S20000x1_S1024x20000_0_1_1_1_wf : ScatterDims.WF S1024x2048 S20000x1 S1024x20000 [0] [1] [1] 1
  scatter_S1024x2048_S40000x1_S1024x40000_0_1_1_1_wf : ScatterDims.WF S1024x2048 S40000x1 S1024x40000 [0] [1] [1] 1

variable [Facts₀]

def gather_S1024x2048_S20000x1_S1024x20000_0_1_n_n_1_1_10241 : GatherDims S1024x2048 S20000x1 S1024x20000 where
  offsetDims := [0]
  collapsedSliceDims := [1]
  operandBatchingDims := []
  startIndicesBatchingDims := []
  startIndexMap := [1]
  indexVectorDim := 1
  sliceSizes := ![1024, 1]
  wf := gather_S1024x2048_S20000x1_S1024x20000_0_1_n_n_1_1_10241_wf
def gather_S1024x2048_S40000x1_S1024x40000_0_1_n_n_1_1_10241 : GatherDims S1024x2048 S40000x1 S1024x40000 where
  offsetDims := [0]
  collapsedSliceDims := [1]
  operandBatchingDims := []
  startIndicesBatchingDims := []
  startIndexMap := [1]
  indexVectorDim := 1
  sliceSizes := ![1024, 1]
  wf := gather_S1024x2048_S40000x1_S1024x40000_0_1_n_n_1_1_10241_wf
def scatter_S1024x2048_S20000x1_S1024x20000_0_1_1_1 : ScatterDims S1024x2048 S20000x1 S1024x20000 where
  updateWindowDims := [0]
  insertedWindowDims := [1]
  scatterDimsToOperandDims := [1]
  indexVectorDim := 1
  wf := scatter_S1024x2048_S20000x1_S1024x20000_0_1_1_1_wf
def scatter_S1024x2048_S40000x1_S1024x40000_0_1_1_1 : ScatterDims S1024x2048 S40000x1 S1024x40000 where
  updateWindowDims := [0]
  insertedWindowDims := [1]
  scatterDimsToOperandDims := [1]
  indexVectorDim := 1
  wf := scatter_S1024x2048_S40000x1_S1024x40000_0_1_1_1_wf

class Facts : Prop extends Facts₀ where

variable [Facts]
-- ==== Proof.K.R0Shared.lean ====
/- Region 0 (the first-order reaction kernel): what the three control cases' runs and the frame share.
   The windows' blocks read off an arbitrary region-entry valuation, each input window's buffer at its block, the two
   branch conditions in closed form over the grid, where the result window is idle, the staging memrefs and the
   accumulator scratch, and the region invariant with the accumulator owned. -/
import proofs.«420563_j88390426951972_1_alg».proof.Proof.Gen.Kernel.Launch
import proofs.«420563_j88390426951972_1_alg».proof.Proof.Gen.Kernel.Skeleton
import proofs.«420563_j88390426951972_1_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: arbitrary
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry valuation's and whose body leaves the block in place: unfetched, the block index has not
    moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the entry valuation's and whose body leaves the block in place: unfetched, the block index has not
    moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the entry valuation's and whose body leaves the block in place: unfetched, the block index has not
    moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the entry valuation's and whose body leaves the block in place: unfetched, the block index has not
    moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branch conditions, over the grid coordinates -/

/-- The accumulator is reset: the reaction tile is the first (`r = 0`). -/
abbrev cond0_0 (i : grid0.Coords) : Prop := (Scalar.cmpi .ne (Scalar.extui (Scalar.cmpi .eq (BitVec.ofNat 32 (i 1).val) 0#32)) 0#32) = 1#1
/-- It holds exactly at the points whose reaction tile is 0. -/
theorem hcond0_0 : ∀ t : Fin cfg0.N, cond0_0 (grid0.coords t) ↔ t.val % 20 = 0 :=
  (by decide +kernel : ∀ t : Fin grid0.N, cond0_0 (grid0.coords t) ↔ t.val % 20 = 0)

/-- The accumulator is copied to the result: the reaction tile is the last (`r = 19`). -/
abbrev cond0_1 (i : grid0.Coords) : Prop := k0_cond2 i = 1#1
/-- It holds exactly at the points whose reaction tile is 19. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the reaction tile is the first, nothing is stored into the result window: it is idle, -/
theorem idleAt0_4_A : ∀ t : Fin cfg0.N, cond0_0 (grid0.coords t) → ¬cond0_1 (grid0.coords t) → cfg0.idle 4 (grid0.coords t) = true := by decide +kernel
/-- and its block is not written back. -/
theorem noFlush0_4_A : ∀ t : Fin cfg0.N, cond0_0 (grid0.coords t) → ¬cond0_1 (grid0.coords t) → (cfg0.win 4).flush t = false := by decide +kernel
/-- The same where the reaction tile is neither the first nor the last. -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- Where the reaction tile is the last the result window is stored into: it is live. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the result window, through which its contents are stated (the choice does not matter). -/
abbrev VO0_4 : View sig .tc .vmem S512x2048 .f32 := (Memref.whole cc0_stg4_0 : Memref sig .tc .vmem S512x2048 .f32).view
/-- Each window's current staging memref at point `t`, spelt as the pipeline passes it, and its wholeness. -/
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
/-- The accumulator: a whole scoped buffer of the kernel's own, passed beside the windows and carried between points. -/
abbrev scM0_0 : Memref sig .tc .vmem S512x2048 .f32 := Memref.whole cc0_scratch0
/-- The accumulator as a view: what it holds is stated through it. -/
abbrev VS0_0 : View sig .tc .vmem S512x2048 .f32 := scM0_0.view

/-! ## The region invariant with the accumulator owned -/

/-- The core's scoped buffers that are neither a staging buffer of this region nor its accumulator (the other
    region's staging buffers and accumulator), each whole at some contents: the body never touches them. -/
def scopedOthers0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_scratch0), ((c : Thread nD τ).loc cc1_scratch0) ↦{fullShare} f))

/-- The class's invariant is the accumulator owned at some contents, the other scoped buffers, and the generator
    register at some state. -/
theorem PhiA0_eq (c : Dev nD) :
    (Pipeline.ΦA spec0 c : sProp 𝕄)
      = iprop(iprop((∃ d, owns (c : Thread nD τ) scM0_0 fullShare d) ∗ scopedOthers0 (F := F) c) ∗ (∃ r, prngReg c r)) := by
  unfold Pipeline.ΦA; rw [scopedRest0_eq]; unfold scopedOthers0; simp only [scM0_0, owns_whole]; try rfl

end Cert.Kernel.Hand

end
-- ==== Proof.K.R0RunA.lean ====
/- Region 0, the body's run where the reaction tile is the first (the accumulator is reset, then added to; nothing stored into the result window): the body's triple on whole memrefs, the pieces its stores leave in the
   result window's buffer and in the accumulator found by the run. -/
import proofs.«420563_j88390426951972_1_alg».proof.Proof.K.R0Shared

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- one step per memory operation of the body: a long term
set_option maxHeartbeats 1000000 in
/-- What the body's stores leave, as pieces (last first), where the reaction tile is the first (the accumulator is reset, then added to; nothing stored into the result window) — with the proof that on whole memrefs, the
    inputs' at their contents, the body runs to the continuation holding the inputs' as they were, the accumulator with its
    pieces written and the result window's buffer handed back untouched: each branch is decided by the case's hypotheses;
    the pieces are the witness the run finds. -/
noncomputable def kernelRun0_A (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S512x1024 .f32) (x2 : Vec F S1x1024 .i32) (x3 : Vec F S1x1024 .i32) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__order1_kernel i arg2 harg2 arg3 harg3 arg4 harg4 arg5 harg5 arg6 harg6 arg7 harg7) K } := by
  refine ⟨[], ?_, fun xi4 E K => ?run⟩
  case run =>
    simp only [cc0__order1_kernel_eq_skeleton]; unfold cc0__order1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R0RunB.lean ====
/- Region 0, the body's run where the reaction tile is neither the first nor the last (the accumulator, at what the point before left, is added to; nothing stored into the result window): the body's triple on whole memrefs, the pieces its stores leave in the
   result window's buffer and in the accumulator found by the run. -/
import proofs.«420563_j88390426951972_1_alg».proof.Proof.K.R0RunA

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- one step per memory operation of the body: a long term
set_option maxHeartbeats 1000000 in
/-- What the body's stores leave, as pieces (last first), where the reaction tile is neither the first nor the last (the accumulator, at what the point before left, is added to; nothing stored into the result window) — with the proof that on whole memrefs, the
    inputs' at their contents, the body runs to the continuation holding the inputs' as they were, the accumulator with its
    pieces written and the result window's buffer handed back untouched: each branch is decided by the case's hypotheses;
    the pieces are the witness the run finds. -/
noncomputable def kernelRun0_B (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S512x1024 .f32) (x2 : Vec F S1x1024 .i32) (x3 : Vec F S1x1024 .i32) (xs0 : Vec F S512x2048 .f32) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__order1_kernel i arg2 harg2 arg3 harg3 arg4 harg4 arg5 harg5 arg6 harg6 arg7 harg7) K } := by
  refine ⟨[], ?_, fun xi4 E K => ?run⟩
  case run =>
    simp only [cc0__order1_kernel_eq_skeleton]; unfold cc0__order1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R0RunC.lean ====
/- Region 0, the body's run where the reaction tile is the last (the accumulator, at what the point before left, is added to and copied into the result window): the body's triple on whole memrefs, the pieces its stores leave in the
   result window's buffer and in the accumulator found by the run. -/
import proofs.«420563_j88390426951972_1_alg».proof.Proof.K.R0RunB

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- one step per memory operation of the body: a long term
set_option maxHeartbeats 1000000 in
/-- What the body's stores leave, as pieces (last first), where the reaction tile is the last (the accumulator, at what the point before left, is added to and copied into the result window) — with the proof that on whole memrefs, the
    inputs' at their contents, the body runs to the continuation holding the inputs' as they were, the accumulator with its
    pieces written and the result window's buffer with its pieces written: each branch is decided by the case's hypotheses;
    the pieces are the witness the run finds. -/
noncomputable def kernelRun0_C (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x1024 .f32) (x2 : Vec F S1x1024 .i32) (x3 : Vec F S1x1024 .i32) (xs0 : Vec F S512x2048 .f32) :
    Σ' (L4 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__order1_kernel i arg2 harg2 arg3 harg3 arg4 harg4 arg5 harg5 arg6 harg6 arg7 harg7) K } := by
  refine ⟨?_, ?_, fun E K => ?run⟩
  case run =>
    simp only [cc0__order1_kernel_eq_skeleton]; unfold cc0__order1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.R0Frame.lean ====
/- Region 0 (the first-order reaction kernel), its frame: what each control case leaves in the accumulator and in the
   result window's buffer, what they hold point by point, the region invariant, the proof data, the body obligation,
   and the accumulator's and the result's value equations over the windows' blocks. -/
import proofs.«420563_j88390426951972_1_alg».proof.Proof.K.R0RunC
import Idealize.ShloMosaic.Lib.Pipeline.Value

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A stores nothing into the result window (idle there, and not written back): no pieces — a placeholder
    that nothing consults, since at these points the window is neither written back nor read at the next point. -/
def out0_A_4 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S512x1024 .f32) (x2 : Vec F S1x1024 .i32) (x3 : Vec F S1x1024 .i32) : Vec F S512x2048 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the accumulator cover it (whole stores). -/
theorem scover0_A_0 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S512x1024 .f32) (x2 : Vec F S1x1024 .i32) (x3 : Vec F S1x1024 .i32) (y : S512x2048.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S512x2048.size (by sl_kernel_rfl) y

/-- What case A leaves in the accumulator: its pieces read back. -/
def sout0_A_0 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S512x1024 .f32) (x2 : Vec F S1x1024 .i32) (x3 : Vec F S1x1024 .i32) : Vec F S512x2048 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B stores nothing into the result window (idle there, and not written back): no pieces — a placeholder
    that nothing consults, since at these points the window is neither written back nor read at the next point. -/
def out0_B_4 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S512x1024 .f32) (x2 : Vec F S1x1024 .i32) (x3 : Vec F S1x1024 .i32) (xs0 : Vec F S512x2048 .f32) : Vec F S512x2048 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the accumulator cover it (whole stores). -/
theorem scover0_B_0 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S512x1024 .f32) (x2 : Vec F S1x1024 .i32) (x3 : Vec F S1x1024 .i32) (xs0 : Vec F S512x2048 .f32) (y : S512x2048.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S512x2048.size (by sl_kernel_rfl) y

/-- What case B leaves in the accumulator: its pieces read back. -/
def sout0_B_0 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S512x1024 .f32) (x2 : Vec F S1x1024 .i32) (x3 : Vec F S1x1024 .i32) (xs0 : Vec F S512x2048 .f32) : Vec F S512x2048 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Where the reaction tile is the last, the pieces stored into the result window tile its block (one whole store), so they cover it. -/
theorem cover0_C_4 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x1024 .f32) (x2 : Vec F S1x1024 .i32) (x3 : Vec F S1x1024 .i32) (xs0 : Vec F S512x2048 .f32) (y : S512x2048.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S512x2048.size (by sl_kernel_rfl) y

/-- What that case leaves in the result window's staging buffer: its pieces read back. -/
def out0_C_4 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x1024 .f32) (x2 : Vec F S1x1024 .i32) (x3 : Vec F S1x1024 .i32) (xs0 : Vec F S512x2048 .f32) : Vec F S512x2048 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's pieces for the accumulator cover it (whole stores). -/
theorem scover0_C_0 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x1024 .f32) (x2 : Vec F S1x1024 .i32) (x3 : Vec F S1x1024 .i32) (xs0 : Vec F S512x2048 .f32) (y : S512x2048.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S512x2048.size (by sl_kernel_rfl) y

/-- What case C leaves in the accumulator: its pieces read back. -/
def sout0_C_0 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x1024 .f32) (x2 : Vec F S1x1024 .i32) (x3 : Vec F S1x1024 .i32) (xs0 : Vec F S512x2048 .f32) : Vec F S512x2048 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What each case leaves, over the windows' blocks -/

/-- The offsets of every access of the body: zero on both axes. -/
theorem zero_offsets2 : (![0, 0] : Fin 2 → ℕ) = fun _ => 0 := by funext a; fin_cases a <;> rfl

/-- Where the reaction tile is the first the accumulator ends at the point's update of the reset value: the reset, read back, is what the update adds to. -/
theorem sout0_A_0_eq (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S512x1024 .f32) (x2 : Vec F S1x1024 .i32) (x3 : Vec F S1x1024 .i32) :
    sout0_A_0 c i arg2 harg2 arg3 harg3 arg4 harg4 arg5 harg5 arg6 harg6 arg7 harg7 hc0 hc1 x0 x1 x2 x3 = k0_pay2 x0 x2 x1 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x2048) zero_offsets2]
  simp only [View.readAt_eq_ld, harg2.read_unread, harg3.read_unread, harg4.read_unread, harg5.read_unread, harg7.read_unread,
    View.ld_unit_zero (S := S512x2048) zero_offsets2, View.ld_unit_zero (S := S512x1024) zero_offsets2, View.ld_unit_zero (S := S1x1024) zero_offsets2,
    View.readCov_unit_zero (S := S512x2048) _ zero_offsets2]

/-- Where the reaction tile is neither the first nor the last the accumulator ends at the point's update of what it held. -/
theorem sout0_B_0_eq (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S512x1024 .f32) (x2 : Vec F S1x1024 .i32) (x3 : Vec F S1x1024 .i32) (xs0 : Vec F S512x2048 .f32) :
    sout0_B_0 c i arg2 harg2 arg3 harg3 arg4 harg4 arg5 harg5 arg6 harg6 arg7 harg7 hc0 hc1 x0 x1 x2 x3 xs0 = k0_pay2 x0 x2 x1 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S512x2048) zero_offsets2]
  simp only [View.readAt_eq_ld, harg2.read_unread, harg3.read_unread, harg4.read_unread, harg5.read_unread, harg7.read_unread,
    View.ld_unit_zero (S := S512x2048) zero_offsets2, View.ld_unit_zero (S := S512x1024) zero_offsets2, View.ld_unit_zero (S := S1x1024) zero_offsets2,
    View.readCov_unit_zero (S := S512x2048) _ zero_offsets2]

/-- Where the reaction tile is the last the accumulator ends at the point's update of what it held. -/
theorem sout0_C_0_eq (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x1024 .f32) (x2 : Vec F S1x1024 .i32) (x3 : Vec F S1x1024 .i32) (xs0 : Vec F S512x2048 .f32) :
    sout0_C_0 c i arg2 harg2 arg3 harg3 arg4 harg4 arg5 harg5 arg6 harg6 arg7 harg7 hc0 hc1 x0 x1 x2 x3 xs0 = k0_pay2 x0 x2 x1 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S512x2048) zero_offsets2]
  simp only [View.readAt_eq_ld, harg2.read_unread, harg3.read_unread, harg4.read_unread, harg5.read_unread, harg7.read_unread,
    View.ld_unit_zero (S := S512x2048) zero_offsets2, View.ld_unit_zero (S := S512x1024) zero_offsets2, View.ld_unit_zero (S := S1x1024) zero_offsets2,
    View.readCov_unit_zero (S := S512x2048) _ zero_offsets2]

/-- Where the reaction tile is the last the result window's buffer ends at the point's update of what the accumulator held:
    the accumulator, read back after the update, is what is stored. -/
theorem out0_C_4_eq (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x1024 .f32) (x2 : Vec F S1x1024 .i32) (x3 : Vec F S1x1024 .i32) (xs0 : Vec F S512x2048 .f32) :
    out0_C_4 c i arg2 harg2 arg3 harg3 arg4 harg4 arg5 harg5 arg6 harg6 arg7 harg7 hc0 hc1 x0 x1 x2 x3 xs0 = k0_pay2 x0 x2 x1 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S512x2048) zero_offsets2]
  simp only [View.readAt_eq_ld, harg2.read_unread, harg3.read_unread, harg4.read_unread, harg5.read_unread, harg7.read_unread,
    View.ld_unit_zero (S := S512x2048) zero_offsets2, View.ld_unit_zero (S := S512x1024) zero_offsets2, View.ld_unit_zero (S := S1x1024) zero_offsets2,
    View.readCov_unit_zero (S := S512x2048) _ zero_offsets2]

section Region0
-- the TensorCore's buffer contents when the region is entered: arbitrary
variable (V : (c : Dev nD) → (b : Ref sig .tc) → Buf (Elt F) ((c : Thread nD τ).loc b))

/-! ## What the result window's buffer and the accumulator hold after each point -/

/-- THE ACCUMULATION. After the body at position `n`: (the result window's staging buffer, the accumulator) — the case the
    closed forms select at `n`, run at the point's memrefs and input blocks, the accumulator (where it is not reset) at what
    this leaves at `n - 1`. Both conditions at once is no point of the grid. -/
def outsAt0 (c : Dev nD) : (n : ℕ) → n < cfg0.N → Vec F S512x2048 .f32 × Vec F S512x2048 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 20 = 0 then
      if h1 : (n + 1) % 20 = 19 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 20 = 19 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- `outsAt0` where the reaction tile is the first: that case's contents. -/
theorem outsAt0_A (c : Dev nD) (t : Fin cfg0.N) (h0 : t.val % 20 = 0) (h1 : ¬t.val % 20 = 19) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` where the reaction tile is neither the first nor the last: that case's contents, over what the point before left. -/
theorem outsAt0_B (c : Dev nD) (t : Fin cfg0.N) (h0 : ¬t.val % 20 = 0) (h1 : ¬t.val % 20 = 19) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` where the reaction tile is the last: that case's contents, over what the point before left. -/
theorem outsAt0_C (c : Dev nD) (t : Fin cfg0.N) (h0 : ¬t.val % 20 = 0) (h1 : t.val % 20 = 19) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The accumulator's and the result's values, point by point -/

/-- Where the reaction tile is the first the accumulator is the point's update of the reset value. -/
theorem acc0_first (c : Dev nD) (t : Fin cfg0.N) (h : t.val % 20 = 0) :
    (outsAt0 V c t.val t.isLt).2 = k0_pay2 (iblk0 V c 0 t) (iblk0 V c 2 t) (iblk0 V c 1 t) (iblk0 V c 3 t) (k0_pay1 (F := F)) := by
  have h1 : ¬t.val % 20 = 19 := by omega
  rw [outsAt0_A V c t h h1]; dsimp only
  exact sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h) (fun h' => h1 ((hcond0_1 t).mp h')) (iblk0 V c 0 t) (iblk0 V c 1 t) (iblk0 V c 2 t) (iblk0 V c 3 t)

/-- Elsewhere it is the point's update of what the point before left. -/
theorem acc0_next (c : Dev nD) (t : Fin cfg0.N) (h : t.val % 20 ≠ 0) :
    (outsAt0 V c t.val t.isLt).2 = k0_pay2 (iblk0 V c 0 t) (iblk0 V c 2 t) (iblk0 V c 1 t) (iblk0 V c 3 t) (outsAt0 V c (t.val - 1) (Nat.lt_of_le_of_lt (Nat.sub_le _ _) t.isLt)).2 := by
  by_cases h1 : t.val % 20 = 19
  · rw [outsAt0_C V c t h h1]; dsimp only
    exact sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) ((hcond0_1 t).mpr h1) (iblk0 V c 0 t) (iblk0 V c 1 t) (iblk0 V c 2 t) (iblk0 V c 3 t) (outsAt0 V c (t.val - 1) (Nat.lt_of_le_of_lt (Nat.sub_le _ _) t.isLt)).2
  · rw [outsAt0_B V c t h h1]; dsimp only
    exact sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) (fun h' => h1 ((hcond0_1 t).mp h')) (iblk0 V c 0 t) (iblk0 V c 1 t) (iblk0 V c 2 t) (iblk0 V c 3 t) (outsAt0 V c (t.val - 1) (Nat.lt_of_le_of_lt (Nat.sub_le _ _) t.isLt)).2

/-- Where the reaction tile is the last the result window's buffer holds the accumulator. -/
theorem out0_last (c : Dev nD) (t : Fin cfg0.N) (h : t.val % 20 = 19) :
    (outsAt0 V c t.val t.isLt).1 = (outsAt0 V c t.val t.isLt).2 := by
  have h0 : ¬t.val % 20 = 0 := by omega
  rw [outsAt0_C V c t h0 h]; dsimp only
  exact (out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h0 ((hcond0_0 t).mp h')) ((hcond0_1 t).mpr h) (iblk0 V c 0 t) (iblk0 V c 1 t) (iblk0 V c 2 t) (iblk0 V c 3 t) (outsAt0 V c (t.val - 1) (Nat.lt_of_le_of_lt (Nat.sub_le _ _) t.isLt)).2).trans
    (sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h0 ((hcond0_0 t).mp h')) ((hcond0_1 t).mpr h) (iblk0 V c 0 t) (iblk0 V c 1 t) (iblk0 V c 2 t) (iblk0 V c 3 t) (outsAt0 V c (t.val - 1) (Nat.lt_of_le_of_lt (Nat.sub_le _ _) t.isLt)).2).symm

/-! ## The region invariant, point by point -/

/-- The invariant before position `n`: before the first point the class's (the accumulator at anything); afterwards the
    accumulator at what the point before left in it, the other scoped buffers at anything, the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ scopedOthers0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ scopedOthers0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ scopedOthers0 (F := F) c) ∗ (∃ r, prngReg c r)) := by
  cases n with
  | zero => exact absurd rfl hz
  | succ n => rfl

/-! ## The pipeline's proof data -/

/-- The proof data of region 0 on core `c`: the arrays as the region finds them; after the body at point `t` each
    input's buffer at its block and the result window's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- An input window is never idle: the body hands its buffer back at what it leaves there, its block. -/
theorem leaves0_0 (c : Dev nD) (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) : (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leaves0_3 (c : Dev nD) (t : Fin cfg0.N) : (dat0 V c).leavesExact 3 t = owns (c : Thread nD τ) (ms0_3 t) fullShare (iblk0 V c 3 t) := by
  rw [show (dat0 V c).leavesExact 3 t = owns (c : Thread nD τ) (ms0_3 t) fullShare ((dat0 V c).after 3 t) from by
    unfold Dat.leavesExact; rw [liveAt0_3 t], after0_3]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which case the point is in; so that
    case's run applies. The invariant hands the body the accumulator at what the point before left (at anything at the first
    point) and takes it back at this point's contents; the other scoped buffers, the generator register and what the
    core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 40 := lt_of_lt_of_eq t.isLt (show cfg0.N = 40 from N_0)
  by_cases h0 : t.val % 20 = 0
  · by_cases h1 : t.val % 20 = 19
    · exfalso; omega
    · rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 20 = 19
    · rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 40 := N_0; omega)

end Region0

end Cert.Kernel.Hand

end
-- ==== Proof.K.R1Shared.lean ====
/- Region 1 (the second-order kernel, pallas_call 1) of the program: what the three runs of its body and its frame share.
   The windows' blocks read off an ARBITRARY region-entry valuation `V`; each input window found at its block at every
   point; the body's two branch conditions as propositions of the grid coordinates, in closed form over the grid
   (point t = batch tile · 79 + reaction tile, so the reaction tile is t mod 79); where the output window is idle and
   not written back; the staging memrefs at a point, the scratch accumulator as a memref and as a view; and the
   region invariant with the scratch owned apart from every other scoped buffer. -/
import proofs.«420563_j88390426951972_1_alg».proof.Proof.Gen.Kernel.Launch
import proofs.«420563_j88390426951972_1_alg».proof.Proof.Gen.Kernel.Skeleton
import proofs.«420563_j88390426951972_1_alg».proof.Proof.Gen.Kernel.Points
import Idealize.ShloMosaic.Lib.Pipeline.FrameBody
import Idealize.ShloMosaic.Lib.Ring
import Idealize.ShloMosaic.Lib.Tactic

-- membership in a rectangle of production extents: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: arbitrary
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents (`hA`) and whose body leaves the block in place (`hafter`): unfetched, the
    block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents (`hA`) and whose body leaves the block in place (`hafter`): unfetched, the
    block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents (`hA`) and whose body leaves the block in place (`hafter`): unfetched, the
    block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents (`hA`) and whose body leaves the block in place (`hafter`): unfetched, the
    block index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is the entry contents (`hA`) and whose body leaves the block in place (`hafter`): unfetched, the
    block index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is the entry contents (`hA`) and whose body leaves the block in place (`hafter`): unfetched, the
    block index has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the scratch is set to region 0's result): the reaction tile is 0. -/
abbrev cond1_0 (i : grid1.Coords) : Prop := (Scalar.cmpi .ne (Scalar.extui (Scalar.cmpi .eq (BitVec.ofNat 32 (i 1).val) 0#32)) 0#32) = 1#1
/-- It holds at the first reaction tile of each batch tile — decided over the grid. -/
theorem hcond1_0 : ∀ t : Fin cfg1.N, cond1_0 (grid1.coords t) ↔ t.val % 79 = 0 :=
  (by decide +kernel : ∀ t : Fin grid1.N, cond1_0 (grid1.coords t) ↔ t.val % 79 = 0)

/-- The condition of the body's second `scf.if` (the scratch is copied to the output block): the reaction tile is 78. -/
abbrev cond1_1 (i : grid1.Coords) : Prop := k1_cond2 i = 1#1
/-- It holds at the last reaction tile of each batch tile — decided over the grid. -/
theorem hcond1_1 : ∀ t : Fin cfg1.N, cond1_1 (grid1.coords t) ↔ t.val % 79 = 78 :=
  (by decide +kernel : ∀ t : Fin grid1.N, cond1_1 (grid1.coords t) ↔ t.val % 79 = 78)

/-! ## Where the windows are idle -/

/-- No input window is ever idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Where the reaction tile is not the last (cases A and B) the output window 6 is idle: the body stores nothing into it, -/
theorem idleAt1_6 : ∀ t : Fin cfg1.N, ¬cond1_1 (grid1.coords t) → cfg1.idle 6 (grid1.coords t) = true := by decide +kernel
/-- and the pipeline does not write its block back there. -/
theorem noFlush1_6 : ∀ t : Fin cfg1.N, ¬cond1_1 (grid1.coords t) → (cfg1.win 6).flush t = false := by decide +kernel
/-- At the last reaction tile (case C) the output window 6 is live: the body stores into it. -/
theorem liveAt1_6 : ∀ t : Fin cfg1.N, cond1_1 (grid1.coords t) → cfg1.idle 6 (grid1.coords t) = false := by decide +kernel

/-! ## The memrefs the body is called with -/

/-- One staging buffer of the output window 6, through which its contents are stated (the choice does not matter). -/
abbrev VO1_6 : View sig .tc .vmem S512x2048 .f32 := (Memref.whole cc1_stg6_0 : Memref sig .tc .vmem S512x2048 .f32).view
/-- Each window's current staging memref at point `t`, as the pipeline passes it, and its wholeness. -/
abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x2048 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x2048 .f32 := win1_6.stage (cfg1.slots t 6)
abbrev hs1_6 (t : Fin cfg1.N) : (ms1_6 t).IsWhole := hstage1_6 ((cfg1.slots t 6).cast nbuf1_6)
/-- The scratch accumulator: a whole scoped buffer of the kernel's own, passed beside the windows and carried between points. -/
abbrev scM1 : Memref sig .tc .vmem S512x2048 .f32 := Memref.whole cc1_scratch0
/-- The same as a view: what it holds is stated through it. -/
abbrev VS1 : View sig .tc .vmem S512x2048 .f32 := scM1.view

/-! ## The region invariant with the scratch owned -/

/-- The core's scoped buffers that are neither a staging buffer of this region nor its scratch — the other region's
    staging buffers and scratch —, each whole at some contents: never opened here. -/
abbrev scopedOther1 (c : Dev nD) : sProp 𝕄 :=
  Pipeline.scopedRestBut (Ix := Unit) (Name := ℕ) (U := UR sig nD τ) (Lvl := ℕ) (Val := Elt F) spec1 c [cc1_scratch0]

/-- The region invariant as the body uses it: the scratch as a memref owned at some contents, every other scoped
    buffer unopened, the generator register at some state. -/
theorem PhiA1_eq (c : Dev nD) :
    (Pipeline.ΦA spec1 c : sProp 𝕄)
      = iprop(iprop((∃ d, owns (c : Thread nD τ) scM1 fullShare d) ∗ scopedOther1 c) ∗ (∃ r, prngReg c r)) := by
  unfold Pipeline.ΦA
  rw [Pipeline.scopedRest_split_of_list spec1 c [cc1_scratch0] (by decide) (by decide)]
  simp only [bigSepL_singleton, scM1, owns_whole]; try rfl

end Cert.Kernel.Hand

end
-- ==== Proof.K.R1RunA.lean ====
/- Region 1's body in case A: the reaction tile is the first of its batch tile (the first conditional taken, the second not). The body's triple on whole memrefs — the six inputs'
   staging memrefs at their contents, the output's, which the case leaves idle, at contents `xi6` handed back untouched,
   the scratch at anything (the body sets it to region 0's block before reading it) — to the continuation holding the inputs' as they
   were, the output's as it was and the scratch with its pieces written (`LS`, last first). The printed functions are
   their skeletons; each conditional is decided by the case's hypotheses; the pieces are found by the run. -/
import proofs.«420563_j88390426951972_1_alg».proof.Proof.K.R1Shared

-- membership in a rectangle of production extents: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: arbitrary
variable (V : (c : Dev nD) → (b : Ref sig .tc) → Buf (Elt F) ((c : Thread nD τ).loc b))

set_option maxHeartbeats 1000000 in
/-- Case A of the body of region 1: the pieces its stores leave in the output's staging memref (`.1`) and in the scratch
    (`.2.1`), with the proof that the body runs to the continuation holding them written. -/
noncomputable def kernelRun1_A (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) :
    Σ' (L6 : List (View.Piece (Elt F) S512x2048 .f32)), { LS : List (View.Piece (Elt F) S512x2048 .f32) //
      ∀ (xi6 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__order2_kernel i arg2 harg2 arg3 harg3 arg4 harg4 arg5 harg5 arg6 harg6 arg7 harg7 arg8 harg8 arg9 harg9) K } := by
  refine ⟨[], ?_, fun xi6 E K => ?run⟩
  case run =>
    simp only [cc1__order2_kernel_eq_skeleton]; unfold cc1__order2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.Kernel.Hand

end
-- ==== Proof.K.R1RunB.lean ====
/- Region 1's body in case B: the reaction tile is neither the first nor the last of its batch tile (neither conditional taken). The body's triple on whole memrefs — the six inputs'
   staging memrefs at their contents, the output's, which the case leaves idle, at contents `xi6` handed back untouched,
   the scratch at the contents `xs` the point before left — to the continuation holding the inputs' as they
   were, the output's as it was and the scratch with its pieces written (`LS`, last first). The printed functions are
   their skeletons; each conditional is decided by the case's hypotheses; the pieces are found by the run. -/
import proofs.«420563_j88390426951972_1_alg».proof.Proof.K.R1RunA

-- membership in a rectangle of production extents: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: arbitrary
variable (V : (c : Dev nD) → (b : Ref sig .tc) → Buf (Elt F) ((c : Thread nD τ).loc b))

set_option maxHeartbeats 1000000 in
/-- Case B of the body of region 1: the pieces its stores leave in the output's staging memref (`.1`) and in the scratch
    (`.2.1`), with the proof that the body runs to the continuation holding them written. -/
noncomputable def kernelRun1_B (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) :
    Σ' (L6 : List (View.Piece (Elt F) S512x2048 .f32)), { LS : List (View.Piece (Elt F) S512x2048 .f32) //
      ∀ (xi6 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__order2_kernel i arg2 harg2 arg3 harg3 arg4 harg4 arg5 harg5 arg6 harg6 arg7 harg7 arg8 harg8 arg9 harg9) K } := by
  refine ⟨[], ?_, fun xi6 E K => ?run⟩
  case run =>
    simp only [cc1__order2_kernel_eq_skeleton]; unfold cc1__order2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.Kernel.Hand

end
-- ==== Proof.K.R1RunC.lean ====
/- Region 1's body in case C: the reaction tile is the last of its batch tile (the first conditional not taken, the second taken). The body's triple on whole memrefs — the six inputs'
   staging memrefs at their contents, the output's at anything,
   the scratch at the contents `xs` the point before left — to the continuation holding the inputs' as they
   were, the output's buffer with its pieces written (`L6`) and the scratch with its pieces written (`LS`, last first). The printed functions are
   their skeletons; each conditional is decided by the case's hypotheses; the pieces are found by the run. -/
import proofs.«420563_j88390426951972_1_alg».proof.Proof.K.R1RunB

-- membership in a rectangle of production extents: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: arbitrary
variable (V : (c : Dev nD) → (b : Ref sig .tc) → Buf (Elt F) ((c : Thread nD τ).loc b))

set_option maxHeartbeats 1000000 in
/-- Case C of the body of region 1: the pieces its stores leave in the output's staging memref (`.1`) and in the scratch
    (`.2.1`), with the proof that the body runs to the continuation holding them written. -/
noncomputable def kernelRun1_C (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) :
    Σ' (L6 : List (View.Piece (Elt F) S512x2048 .f32)), { LS : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc1__order2_kernel i arg2 harg2 arg3 harg3 arg4 harg4 arg5 harg5 arg6 harg6 arg7 harg7 arg8 harg8 arg9 harg9) K } := by
  refine ⟨?_, ?_, fun E K => ?run⟩
  case run =>
    simp only [cc1__order2_kernel_eq_skeleton]; unfold cc1__order2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.Kernel.Hand

end
-- ==== Proof.K.R1Frame.lean ====
/- Region 1 (the second-order kernel, pallas_call 1): its frame at an arbitrary region-entry valuation `V`. What each
   case of the body leaves in the output window's staging buffer and in the scratch accumulator (the pieces the runs
   found, read back; their covers); what both hold after each grid point, by recursion on the point (`outsAt1`: the
   scratch is set whole at the first reaction tile of each batch tile, added to at every point, and copied to the
   output's buffer at the last); the region invariant carrying the scratch at those contents; the proof data; the
   body obligation; the invariant's entry and exit; and the accumulator's value equations point by point. -/
import proofs.«420563_j88390426951972_1_alg».proof.Proof.K.R1RunC
import Idealize.ShloMosaic.Lib.Pipeline.Value

-- membership in a rectangle of production extents: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: arbitrary
variable (V : (c : Dev nD) → (b : Ref sig .tc) → Buf (Elt F) ((c : Thread nD τ).loc b))

/-! ## What each case leaves -/

/-- Case A stores nothing into the output window 6 (idle at its points and not written back there): no pieces — a
    placeholder that nothing consults, the window being neither written back there nor read at the next point. -/
def out1_A_6 (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) : Vec F S512x2048 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's pieces for the scratch tile it, so they cover it. -/
theorem scover1_A (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) (y : S512x2048.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S512x2048.size (by sl_kernel_rfl) y

/-- What case A leaves in the scratch: its pieces read back. -/
def sout1_A (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) : Vec F S512x2048 .f32 :=
  VS1.read (Elt F) (VS1.writes (Elt F) VS1.junk (kernelRun1_A c i arg2 harg2 arg3 harg3 arg4 harg4 arg5 harg5 arg6 harg6 arg7 harg7 arg8 harg8 arg9 harg9 hc0 hc1 x0 x1 x2 x3 x4 x5).2.1)

/-- Case B stores nothing into the output window 6 (idle at its points and not written back there): no pieces — a
    placeholder that nothing consults, the window being neither written back there nor read at the next point. -/
def out1_B_6 (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) : Vec F S512x2048 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs).1)

/-- Case B's pieces for the scratch tile it, so they cover it. -/
theorem scover1_B (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) (y : S512x2048.Idx) :
    ∃ pc ∈ (kernelRun1_B c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs).2.1 S512x2048.size (by sl_kernel_rfl) y

/-- What case B leaves in the scratch: its pieces read back. -/
def sout1_B (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) : Vec F S512x2048 .f32 :=
  VS1.read (Elt F) (VS1.writes (Elt F) VS1.junk (kernelRun1_B c i arg2 harg2 arg3 harg3 arg4 harg4 arg5 harg5 arg6 harg6 arg7 harg7 arg8 harg8 arg9 harg9 hc0 hc1 x0 x1 x2 x3 x4 x5 xs).2.1)

/-- Case C's pieces for the output window 6 tile its block, so they cover it. -/
theorem cover1_C_6 (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) (y : S512x2048.Idx) :
    ∃ pc ∈ (kernelRun1_C c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs).1 S512x2048.size (by sl_kernel_rfl) y

/-- What case C leaves in the output window 6's staging buffer: its pieces read back. -/
def out1_C_6 (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) : Vec F S512x2048 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs).1)

/-- Case C's pieces for the scratch tile it, so they cover it. -/
theorem scover1_C (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) (y : S512x2048.Idx) :
    ∃ pc ∈ (kernelRun1_C c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs).2.1 S512x2048.size (by sl_kernel_rfl) y

/-- What case C leaves in the scratch: its pieces read back. -/
def sout1_C (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) : Vec F S512x2048 .f32 :=
  VS1.read (Elt F) (VS1.writes (Elt F) VS1.junk (kernelRun1_C c i arg2 harg2 arg3 harg3 arg4 harg4 arg5 harg5 arg6 harg6 arg7 harg7 arg8 harg8 arg9 harg9 hc0 hc1 x0 x1 x2 x3 x4 x5 xs).2.1)

/-! ## What the output's buffer and the scratch hold after each point -/

/-- THE ACCUMULATION. What the output window's staging buffer (`.1`) and the scratch (`.2`) hold after the body at
    position `n`: the case the closed forms select at `n`, run at the point's memrefs and input blocks, the scratch —
    where the case reads it before covering it — at what this leaves at `n - 1`. Both conditions at once meet no point. -/
def outsAt1 (c : Dev nD) : (n : ℕ) → n < cfg1.N → Vec F S512x2048 .f32 × Vec F S512x2048 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 79 = 0 then
      if h1 : (n + 1) % 79 = 78 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 79 = 78 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point of case A: that case's contents. -/
theorem outsAt1_A (c : Dev nD) (t : Fin cfg1.N) (h0 : t.val % 79 = 0) (h1 : ¬t.val % 79 = 78) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left in the scratch. -/
theorem outsAt1_B (c : Dev nD) (t : Fin cfg1.N) (h0 : ¬t.val % 79 = 0) (h1 : ¬t.val % 79 = 78) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the scratch. -/
theorem outsAt1_C (c : Dev nD) (t : Fin cfg1.N) (h0 : ¬t.val % 79 = 0) (h1 : t.val % 79 = 78) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, carrying the scratch -/

/-- The region invariant before position `n`: before the first point the class's (every scoped buffer that is no
    staging buffer at anything, the generator register at some state); afterwards the same with the scratch at
    what the point before left in it. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ scopedOther1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(owns (c : Thread nD τ) scM1 fullShare ((outsAt1 V c n hn).2) ∗ scopedOther1 c) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ scopedOther1 c) ∗ (∃ r, prngReg c r)) := by
  cases n with
  | zero => exact absurd rfl hz
  | succ n => rfl

/-! ## The pipeline's proof data -/

/-- The proof data of region 1's pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the closed forms say which case the point is in;
    so that case's run applies. The invariant hands the body the scratch at what the point before left (at anything
    before the grid's first point, and at the first reaction tile of the second batch tile the body does not read
    it before setting it) and takes it back at this point's contents; every other scoped buffer, the generator
    register and the core's dues pass through unread; the output window, idle unless the reaction tile is the last,
    is handed back as found there. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 158 := lt_of_lt_of_eq t.isLt (show cfg1.N = 158 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 79 = 0
  · have h1 : ¬t.val % 79 = 78 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hoth Hg]
      · isplitl [HS Hoth]
        · isplitl [HS]
          · unfold owns; iexists _; isplitr
            swap; · iexact HS
            ipureintro; exact View.read_writes_of_cover _ _ _ _ _ (scover1_A c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS Hoth Hg]
      · isplitl [HS Hoth]
        · isplitl [HS]
          · unfold owns; iexists _; isplitr
            swap; · iexact HS
            ipureintro; exact View.read_writes_of_cover _ _ _ _ _ (scover1_A c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 79 = 78
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover1_C c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hoth Hg]
      · isplitl [HS Hoth]
        · isplitl [HS]
          · unfold owns; iexists _; isplitr
            swap; · iexact HS
            ipureintro; exact View.read_writes_of_cover _ _ _ _ _ (scover1_B c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hoth⟩, Hg⟩
  isplitl [HS Hoth]
  · isplitl [HS]
    · iexists _; iexact HS
    iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 158 := N_1; omega)

/-! ## The values: one lemma per found piece, then the accumulator point by point -/

/-- The zero offsets of a load or a store of a whole rank-2 buffer. -/
theorem hz2 : (![0, 0] : Fin 2 → Nat) = fun _ => 0 := funext fun a => by fin_cases a <;> rfl

/-- Case A's scratch: region 0's block (the reset, read back) plus the point's second-order term. -/
theorem sout1_A_eq (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) :
    sout1_A c i arg2 harg2 arg3 harg3 arg4 harg4 arg5 harg5 arg6 harg6 arg7 harg7 arg8 harg8 arg9 harg9 hc0 hc1 x0 x1 x2 x3 x4 x5 = k1_pay1 (k1_pay3 x0 x2 x3 x1 x4) (k1_pay2 x5) := by
  unfold sout1_A
  rw [View.read_writes_eq_canon _ _ _ (scover1_A c i arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S512x2048) hz2, View.readCov_unit_zero (S := S512x2048) _ hz2]
  simp only [View.readAt_eq_ld, harg2.read_unread, harg3.read_unread, harg4.read_unread, harg5.read_unread, harg6.read_unread, harg7.read_unread, View.ld_unit_zero (S := S512x2048) hz2, View.ld_unit_zero (S := S1x512) hz2, View.ld_unit_zero (S := S512x512) hz2]

/-- Case B's scratch: what the point before left plus the point's second-order term. -/
theorem sout1_B_eq (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) :
    sout1_B c i arg2 harg2 arg3 harg3 arg4 harg4 arg5 harg5 arg6 harg6 arg7 harg7 arg8 harg8 arg9 harg9 hc0 hc1 x0 x1 x2 x3 x4 x5 xs = k1_pay1 (k1_pay3 x0 x2 x3 x1 x4) xs := by
  unfold sout1_B
  rw [View.read_writes_eq_canon _ _ _ (scover1_B c i arg2 harg2 arg3 harg3 arg4 harg4 arg5 harg5 arg6 harg6 arg7 harg7 arg8 harg8 arg9 harg9 hc0 hc1 x0 x1 x2 x3 x4 x5 xs)]
  unfold kernelRun1_B
  dsimp only
  sl_unfold_words
  rw [View.canon_unit_zero (S := S512x2048) hz2]
  simp only [View.readAt_eq_ld, harg2.read_unread, harg3.read_unread, harg4.read_unread, harg5.read_unread, harg6.read_unread, harg7.read_unread, harg9.read_unread, View.ld_unit_zero (S := S512x2048) hz2, View.ld_unit_zero (S := S1x512) hz2, View.ld_unit_zero (S := S512x512) hz2]

/-- Case C's scratch: the same. -/
theorem sout1_C_eq (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) :
    sout1_C c i arg2 harg2 arg3 harg3 arg4 harg4 arg5 harg5 arg6 harg6 arg7 harg7 arg8 harg8 arg9 harg9 hc0 hc1 x0 x1 x2 x3 x4 x5 xs = k1_pay1 (k1_pay3 x0 x2 x3 x1 x4) xs := by
  unfold sout1_C
  rw [View.read_writes_eq_canon _ _ _ (scover1_C c i arg2 harg2 arg3 harg3 arg4 harg4 arg5 harg5 arg6 harg6 arg7 harg7 arg8 harg8 arg9 harg9 hc0 hc1 x0 x1 x2 x3 x4 x5 xs)]
  unfold kernelRun1_C
  dsimp only
  sl_unfold_words
  rw [View.canon_unit_zero (S := S512x2048) hz2]
  simp only [View.readAt_eq_ld, harg2.read_unread, harg3.read_unread, harg4.read_unread, harg5.read_unread, harg6.read_unread, harg7.read_unread, harg9.read_unread, View.ld_unit_zero (S := S512x2048) hz2, View.ld_unit_zero (S := S1x512) hz2, View.ld_unit_zero (S := S512x512) hz2]

/-- Case C's output block: the scratch as the point's update left it, read back. -/
theorem out1_C_6_eq (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) :
    out1_C_6 c i arg2 harg2 arg3 harg3 arg4 harg4 arg5 harg5 arg6 harg6 arg7 harg7 arg8 harg8 arg9 harg9 hc0 hc1 x0 x1 x2 x3 x4 x5 xs = k1_pay1 (k1_pay3 x0 x2 x3 x1 x4) xs := by
  unfold out1_C_6
  rw [View.read_writes_eq_canon _ _ _ (cover1_C_6 c i arg2 harg2 arg3 harg3 arg4 harg4 arg5 harg5 arg6 harg6 arg7 harg7 arg8 harg8 arg9 harg9 hc0 hc1 x0 x1 x2 x3 x4 x5 xs)]
  unfold kernelRun1_C
  dsimp only
  sl_unfold_words
  rw [View.canon_unit_zero (S := S512x2048) hz2, View.readCov_unit_zero (S := S512x2048) _ hz2]
  simp only [View.readAt_eq_ld, harg2.read_unread, harg3.read_unread, harg4.read_unread, harg5.read_unread, harg6.read_unread, harg7.read_unread, harg9.read_unread, View.ld_unit_zero (S := S512x2048) hz2, View.ld_unit_zero (S := S1x512) hz2, View.ld_unit_zero (S := S512x512) hz2]

/-- At the first reaction tile of a batch tile the scratch is set to region 0's block and the point's term added. -/
theorem acc1_first (c : Dev nD) (t : Fin cfg1.N) (h : t.val % 79 = 0) :
    (outsAt1 V c t.val t.isLt).2 = k1_pay1 (k1_pay3 (iblk1 V c 0 t) (iblk1 V c 2 t) (iblk1 V c 3 t) (iblk1 V c 1 t) (iblk1 V c 4 t)) (k1_pay2 (iblk1 V c 5 t)) := by
  have h1 : ¬t.val % 79 = 78 := by omega
  rw [outsAt1_A V c t h h1]; dsimp only
  exact sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h) (fun h' => h1 ((hcond1_1 t).mp h')) (iblk1 V c 0 t) (iblk1 V c 1 t) (iblk1 V c 2 t) (iblk1 V c 3 t) (iblk1 V c 4 t) (iblk1 V c 5 t)

/-- At every other reaction tile the point's term is added to what the point before left. -/
theorem acc1_next (c : Dev nD) (t : Fin cfg1.N) (h : t.val % 79 ≠ 0) :
    (outsAt1 V c t.val t.isLt).2 = k1_pay1 (k1_pay3 (iblk1 V c 0 t) (iblk1 V c 2 t) (iblk1 V c 3 t) (iblk1 V c 1 t) (iblk1 V c 4 t)) (outsAt1 V c (t.val - 1) (Nat.lt_of_le_of_lt (Nat.sub_le _ _) t.isLt)).2 := by
  by_cases h1 : t.val % 79 = 78
  · rw [outsAt1_C V c t h h1]; dsimp only
    exact sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h' => h ((hcond1_0 t).mp h')) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2
  · rw [outsAt1_B V c t h h1]; dsimp only
    exact sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h' => h ((hcond1_0 t).mp h')) (fun h' => h1 ((hcond1_1 t).mp h')) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

/-- At the last reaction tile of a batch tile the output's staging buffer is left at the scratch. -/
theorem out1_last (c : Dev nD) (t : Fin cfg1.N) (h : t.val % 79 = 78) :
    (outsAt1 V c t.val t.isLt).1 = (outsAt1 V c t.val t.isLt).2 := by
  have h0 : ¬t.val % 79 = 0 := by omega
  rw [outsAt1_C V c t h0 h]; dsimp only
  exact (out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h' => h0 ((hcond1_0 t).mp h')) ((hcond1_1 t).mpr h) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).trans
    (sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h' => h0 ((hcond1_0 t).mp h')) ((hcond1_1 t).mpr h) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).symm

end Cert.Kernel.Hand

end
-- ==== Proof.K.Assemble.lean ====
/-
  The whole program from its two regions. @main is fifteen stretches of host operations (casts, zero-padding,
  reshapes of the index vectors), then the first-order region, then the second-order region. Between two items a
  core holds every unscoped buffer at known contents: after the host stretches the folds of the host operations
  over the launch memory; after a region the same with that region's windows' arrays at what its write-backs
  leave (an input's array unchanged, the output's array the blocks written back). Each region is entered from the
  contents the item before left and hands back the next; the generator register and the (empty) debt ride along.
  The run ends with every unscoped buffer at the last contents, from which the arguments are read back unchanged
  (no host operation and no region writes one) and the result array is what the second region's write-backs leave.
-/
import proofs.«420563_j88390426951972_1_alg».proof.Proof.K.R0Frame
import proofs.«420563_j88390426951972_1_alg».proof.Proof.K.R1Frame
import proofs.«420563_j88390426951972_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents around the two regions -/

/-- What the first-order region is entered from, read at the TensorCore's references. -/
abbrev U15 : (c : Dev nD) → (b : Ref sig .tc) → Buf (Elt F) ((c : Thread nD τ).loc b) := fun c b => V15 m c b

/-- After the first-order region: its windows' arrays at what the pipeline leaves, every other buffer as entered. -/
def W16 (c : Dev nD) : Valuation τ sig (Elt F) :=
  Pipeline.withArrays spec0 c (V15 m c) fun w => (dat0 (U15 m) c).arrAt w cfg0.N
theorem W16_arr (c : Dev nD) (w : Fin cfg0.W) :
    W16 m c (Proc.devRef .tc (Pipeline.arrRef spec0 w)) = (dat0 (U15 m) c).arrAt w cfg0.N := by
  unfold W16; exact Pipeline.withArrays_arr spec0 launch0.win.arr_inj c _ _ w
theorem W16_of_ne (c : Dev nD) (b : Ref sig .tc) (hb : ∀ w, Pipeline.arrRef spec0 w ≠ b) :
    W16 m c (Proc.devRef .tc b) = V15 m c (Proc.devRef .tc b) := by
  unfold W16; exact Pipeline.withArrays_of_ne spec0 c _ _ b hb
/-- The same read at the TensorCore's references: what the second-order region is entered from. -/
abbrev U16 : (c : Dev nD) → (b : Ref sig .tc) → Buf (Elt F) ((c : Thread nD τ).loc b) := fun c b => W16 m c b
theorem hF0 (c : Dev nD) (w : Fin cfg0.W) : (dat0 (U15 m) c).arrAt w cfg0.N = U16 m c (Pipeline.arrRef spec0 w) :=
  (W16_arr m c w).symm
theorem hrest0 (c : Dev nD) : ∀ b, b ∉ Finset.univ.image (Pipeline.arrRef spec0) → U16 m c b = U15 m c b :=
  fun b hb => W16_of_ne m c b fun w e => hb (Finset.mem_image.mpr ⟨w, Finset.mem_univ _, e⟩)

/-- After the second-order region. -/
def W17 (c : Dev nD) : Valuation τ sig (Elt F) :=
  Pipeline.withArrays spec1 c (W16 m c) fun w => (dat1 (U16 m) c).arrAt w cfg1.N
theorem W17_arr (c : Dev nD) (w : Fin cfg1.W) :
    W17 m c (Proc.devRef .tc (Pipeline.arrRef spec1 w)) = (dat1 (U16 m) c).arrAt w cfg1.N := by
  unfold W17; exact Pipeline.withArrays_arr spec1 launch1.win.arr_inj c _ _ w
theorem W17_of_ne (c : Dev nD) (b : Ref sig .tc) (hb : ∀ w, Pipeline.arrRef spec1 w ≠ b) :
    W17 m c (Proc.devRef .tc b) = W16 m c (Proc.devRef .tc b) := by
  unfold W17; exact Pipeline.withArrays_of_ne spec1 c _ _ b hb
abbrev U17 : (c : Dev nD) → (b : Ref sig .tc) → Buf (Elt F) ((c : Thread nD τ).loc b) := fun c b => W17 m c b
theorem hF1 (c : Dev nD) (w : Fin cfg1.W) : (dat1 (U16 m) c).arrAt w cfg1.N = U17 m c (Pipeline.arrRef spec1 w) :=
  (W17_arr m c w).symm
theorem hrest1 (c : Dev nD) : ∀ b, b ∉ Finset.univ.image (Pipeline.arrRef spec1) → U17 m c b = U16 m c b :=
  fun b hb => W17_of_ne m c b fun w e => hb (Finset.mem_image.mpr ⟨w, Finset.mem_univ _, e⟩)

/-- A buffer no host stretch writes is, when the regions begin, what the launch memory holds. -/
theorem V15_kept (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) (h7 : r ∉ hostOps0_7_W)
    (h8 : r ∉ hostOps0_8_W) (h9 : r ∉ hostOps0_9_W) (h10 : r ∉ hostOps0_10_W) (h11 : r ∉ hostOps0_11_W) (h12 : r ∉ hostOps0_12_W)
    (h13 : r ∉ hostOps0_13_W) (h14 : r ∉ hostOps0_14_W) : V15 m c r = m ((c : Thread nD τ).loc r) :=
  (V15_of m c r h14).trans <| (V14_of m c r h13).trans <| (V13_of m c r h12).trans <| (V12_of m c r h11).trans <| (V11_of m c r h10).trans <|
    (V10_of m c r h9).trans <| (V9_of m c r h8).trans <| (V8_of m c r h7).trans <| (V7_of m c r h6).trans <| (V6_of m c r h5).trans <|
    (V5_of m c r h4).trans <| (V4_of m c r h3).trans <| (V3_of m c r h2).trans <| (V2_of m c r h1).trans <| (V1_of m c r h0).trans rfl

/-- An argument array is no window's array of either region, so it ends as launched. -/
theorem W17_arg (c : Dev nD) (r : Ref sig .tc) (hw1 : ∀ w, Pipeline.arrRef spec1 w ≠ r) (hw0 : ∀ w, Pipeline.arrRef spec0 w ≠ r)
    (hk : V15 m c r = m ((c : Thread nD τ).loc r)) : W17 m c (Proc.devRef .tc r) = m ((c : Thread nD τ).loc r) :=
  (W17_of_ne m c r hw1).trans ((W16_of_ne m c r hw0).trans hk)

theorem W17_main_arg0 (c : Dev nD) : W17 m c (Proc.devRef .tc main_arg0) = m ((c : Thread nD τ).loc main_arg0) :=
  W17_arg m c main_arg0 (by decide) (by decide) (V15_kept m c main_arg0 (by decide) (by decide) (by decide) (by decide) (by decide) (by decide) (by decide) (by decide) (by decide) (by decide) (by decide) (by decide) (by decide) (by decide) (by decide))
theorem W17_main_arg1 (c : Dev nD) : W17 m c (Proc.devRef .tc main_arg1) = m ((c : Thread nD τ).loc main_arg1) :=
  W17_arg m c main_arg1 (by decide) (by decide) (V15_kept m c main_arg1 (by decide) (by decide) (by decide) (by decide) (by decide) (by decide) (by decide) (by decide) (by decide) (by decide) (by decide) (by decide) (by decide) (by decide) (by decide))
theorem W17_main_arg2 (c : Dev nD) : W17 m c (Proc.devRef .tc main_arg2) = m ((c : Thread nD τ).loc main_arg2) :=
  W17_arg m c main_arg2 (by decide) (by decide) (V15_kept m c main_arg2 (by decide) (by decide) (by decide) (by decide) (by decide) (by decide) (by decide) (by decide) (by decide) (by decide) (by decide) (by decide) (by decide) (by decide) (by decide))
theorem W17_main_arg3 (c : Dev nD) : W17 m c (Proc.devRef .tc main_arg3) = m ((c : Thread nD τ).loc main_arg3) :=
  W17_arg m c main_arg3 (by decide) (by decide) (V15_kept m c main_arg3 (by decide) (by decide) (by decide) (by decide) (by decide) (by decide) (by decide) (by decide) (by decide) (by decide) (by decide) (by decide) (by decide) (by decide) (by decide))
theorem W17_main_arg4 (c : Dev nD) : W17 m c (Proc.devRef .tc main_arg4) = m ((c : Thread nD τ).loc main_arg4) :=
  W17_arg m c main_arg4 (by decide) (by decide) (V15_kept m c main_arg4 (by decide) (by decide) (by decide) (by decide) (by decide) (by decide) (by decide) (by decide) (by decide) (by decide) (by decide) (by decide) (by decide) (by decide) (by decide))
theorem W17_main_arg5 (c : Dev nD) : W17 m c (Proc.devRef .tc main_arg5) = m ((c : Thread nD τ).loc main_arg5) :=
  W17_arg m c main_arg5 (by decide) (by decide) (V15_kept m c main_arg5 (by decide) (by decide) (by decide) (by decide) (by decide) (by decide) (by decide) (by decide) (by decide) (by decide) (by decide) (by decide) (by decide) (by decide) (by decide))
theorem W17_main_arg6 (c : Dev nD) : W17 m c (Proc.devRef .tc main_arg6) = m ((c : Thread nD τ).loc main_arg6) :=
  W17_arg m c main_arg6 (by decide) (by decide) (V15_kept m c main_arg6 (by decide) (by decide) (by decide) (by decide) (by decide) (by decide) (by decide) (by decide) (by decide) (by decide) (by decide) (by decide) (by decide) (by decide) (by decide))

/-- The result array ends at what the second-order region's write-backs leave. -/
theorem W17_result (c : Dev nD) : W17 m c (Proc.devRef .tc main_v18) = (dat1 (U16 m) c).arrAt 6 cfg1.N :=
  W17_arr m c 6
/-- The second-order region reads the first-order region's result at what that region's write-backs leave. -/
theorem U16_first (c : Dev nD) : U16 m c main_v17 = (dat0 (U15 m) c).arrAt 4 cfg0.N :=
  W16_arr m c 4
/-- Every other buffer the second-order region reads is as the host stretches left it. -/
theorem U16_host (c : Dev nD) (b : Ref sig .tc) (hb : ∀ w, Pipeline.arrRef spec0 w ≠ b) : U16 m c b = U15 m c b :=
  W16_of_ne m c b hb

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U15 m) c
  | ⟨1, _⟩ => fun c => dat1 (U16 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's debt, at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The first-order region: entered from the host stretches' contents, left at `W16`. Its arrays are split out of the
    unscoped buffers and put back at the exit contents; the generator register goes into the region's invariant and
    comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U15 m) c).loose
  hwaits := Pipeline.hwaits_of_owed_zero _ _ _ _ L lv 0 fun _ _ => rfl
  pre c := iprop(StableHlo.held (c : Thread nD τ) (Pipeline.ucRefs τ sig) (V15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec0 c (U15 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (dat0 (U15 m) c).Φ 0 := by
      have h' := hin0 (U15 m) c; unfold Pipeline.ΦA at h'; exact h'
    rw [show (pdats m 0 c).Φ 0 = (dat0 (U15 m) c).Φ 0 from rfl]
    iintro ⟨Hp, -, Hr⟩
    iapply h
    isplitl [Hr]; · iexact Hr
    iexact Hp
  hout c := by
    have h : (dat0 (U15 m) c).Φ (Fin.last cfg0.N) ⊢ (iprop(Pipeline.scopedRest spec0 c ∗ ∃ r, prngReg c r) : sProp 𝕄) := by
      have h' := hout0 (U15 m) c; unfold Pipeline.ΦA at h'; exact h'
    rw [Pipeline.ownSems0_none, show (pdats m 0 c).Φ (Fin.last _) = (dat0 (U15 m) c).Φ (Fin.last cfg0.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U15 m c) (U16 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second-order region: entered from `W16`, left at `W17`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U16 m) c).loose
  hwaits := Pipeline.hwaits_of_owed_zero _ _ _ _ L lv 1 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec1 c (U16 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (dat1 (U16 m) c).Φ 0 := by
      have h' := hin1 (U16 m) c; unfold Pipeline.ΦA at h'; exact h'
    rw [show (pdats m 1 c).Φ 0 = (dat1 (U16 m) c).Φ 0 from rfl]
    iintro ⟨Hp, -, Hr⟩
    iapply h
    isplitl [Hr]; · iexact Hr
    iexact Hp
  hout c := by
    have h : (dat1 (U16 m) c).Φ (Fin.last cfg1.N) ⊢ (iprop(Pipeline.scopedRest spec1 c ∗ ∃ r, prngReg c r) : sProp 𝕄) := by
      have h' := hout1 (U16 m) c; unfold Pipeline.ΦA at h'; exact h'
    rw [Pipeline.ownSems0_none, show (pdats m 1 c).Φ (Fin.last _) = (dat1 (U16 m) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U16 m c) (U17 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- From any memory with zero counters every weakly fair execution of @main terminates, nothing faulting, and every
    final memory holds each unscoped buffer at the contents after the second-order region. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m c b) := by
  refine Pipeline.θ_run_regions_kit_dev (pcfgs (F := F)) adm (pdats m) () cellOf_inj emb₁ defs₀ 𝒱₀ L lv m ρ main
    (segs m 𝒱₀ L lv (E (F := F)) () (pdats m) (reg0 m) (reg1 m))
    (fun c Q => by
      rewrite [main_chain c, Seg.run_eq_chain,
        show (segs m 𝒱₀ L lv (E (F := F)) () (pdats m) (reg0 m) (reg1 m) c).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12, StableHlo.seq hostOps0_13, StableHlo.seq hostOps0_14,
          Prog.lift (.customCall (Pipeline.entry 0) ()), Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W17 m c) ∗ ∃ r, prngReg c r))
    (hch := fun c => ⟨.rfl, .rfl, .rfl, .rfl, .rfl, .rfl, .rfl, .rfl, .rfl, .rfl, .rfl, .rfl, .rfl, .rfl, .rfl, .rfl, .rfl,
      (show (iprop(StableHlo.held (c : Thread nD τ) (Pipeline.ucRefs τ sig) (W17 m c) ∗ R c) : sProp 𝕄)
          ⊢ iprop((StableHlo.held (c : Thread nD τ) (Pipeline.ucRefs τ sig) (W17 m c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := ?_)
    (QY := fun c s => ∀ b ∈ Pipeline.ucRefs τ sig, s.mem (((c : Thread nD τ)).1, b) = W17 m c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (W17 m c) s')
    isplitl [Hh] <;> iassumption

/-- The frame: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W17_main_arg0 m c),
    (h c _ (mem_uc main_arg1 (by decide))).trans (W17_main_arg1 m c),
    (h c _ (mem_uc main_arg2 (by decide))).trans (W17_main_arg2 m c),
    (h c _ (mem_uc main_arg3 (by decide))).trans (W17_main_arg3 m c),
    (h c _ (mem_uc main_arg4 (by decide))).trans (W17_main_arg4 m c),
    (h c _ (mem_uc main_arg5 (by decide))).trans (W17_main_arg5 m c),
    (h c _ (mem_uc main_arg6 (by decide))).trans (W17_main_arg6 m c)⟩) (run_all m ρ)

/-- The run with the result array named: what the second-order region's write-backs leave, beside the frame. -/
theorem run_result : θ_run defs (onTc (τ := τ) (main (F := F))) ⟨m, fun _ => 0, ρ⟩ (fun r => ∀ c : Dev nD,
      r.2.mem ((c.tc : Thread nD τ).loc main_v18) = (dat1 (U16 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v18 (by decide))).trans (W17_result m c),
    (h c _ (mem_uc main_arg0 (by decide))).trans (W17_main_arg0 m c),
    (h c _ (mem_uc main_arg1 (by decide))).trans (W17_main_arg1 m c),
    (h c _ (mem_uc main_arg2 (by decide))).trans (W17_main_arg2 m c),
    (h c _ (mem_uc main_arg3 (by decide))).trans (W17_main_arg3 m c),
    (h c _ (mem_uc main_arg4 (by decide))).trans (W17_main_arg4 m c),
    (h c _ (mem_uc main_arg5 (by decide))).trans (W17_main_arg5 m c),
    (h c _ (mem_uc main_arg6 (by decide))).trans (W17_main_arg6 m c)⟩) (run_all m ρ)

end Cert.Kernel.Hand

end
-- ==== Proof.KI.R0Shared.lean ====
/- Region 0 (the first-order reaction kernel): what the three control cases' runs and the frame share.
   The windows' blocks read off an arbitrary region-entry valuation, each input window's buffer at its block, the two
   branch conditions in closed form over the grid, where the result window is idle, the staging memrefs and the
   accumulator scratch, and the region invariant with the accumulator owned. -/
import proofs.«420563_j88390426951972_1_alg».proof.Proof.Gen.KernelIdeal.Launch
import proofs.«420563_j88390426951972_1_alg».proof.Proof.Gen.KernelIdeal.Skeleton
import proofs.«420563_j88390426951972_1_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: arbitrary
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry valuation's and whose body leaves the block in place: unfetched, the block index has not
    moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the entry valuation's and whose body leaves the block in place: unfetched, the block index has not
    moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the entry valuation's and whose body leaves the block in place: unfetched, the block index has not
    moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the entry valuation's and whose body leaves the block in place: unfetched, the block index has not
    moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branch conditions, over the grid coordinates -/

/-- The accumulator is reset: the reaction tile is the first (`r = 0`). -/
abbrev cond0_0 (i : grid0.Coords) : Prop := (Scalar.cmpi .ne (Scalar.extui (Scalar.cmpi .eq (BitVec.ofNat 32 (i 1).val) 0#32)) 0#32) = 1#1
/-- It holds exactly at the points whose reaction tile is 0. -/
theorem hcond0_0 : ∀ t : Fin cfg0.N, cond0_0 (grid0.coords t) ↔ t.val % 20 = 0 :=
  (by decide +kernel : ∀ t : Fin grid0.N, cond0_0 (grid0.coords t) ↔ t.val % 20 = 0)

/-- The accumulator is copied to the result: the reaction tile is the last (`r = 19`). -/
abbrev cond0_1 (i : grid0.Coords) : Prop := k0_cond2 i = 1#1
/-- It holds exactly at the points whose reaction tile is 19. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the reaction tile is the first, nothing is stored into the result window: it is idle, -/
theorem idleAt0_4_A : ∀ t : Fin cfg0.N, cond0_0 (grid0.coords t) → ¬cond0_1 (grid0.coords t) → cfg0.idle 4 (grid0.coords t) = true := by decide +kernel
/-- and its block is not written back. -/
theorem noFlush0_4_A : ∀ t : Fin cfg0.N, cond0_0 (grid0.coords t) → ¬cond0_1 (grid0.coords t) → (cfg0.win 4).flush t = false := by decide +kernel
/-- The same where the reaction tile is neither the first nor the last. -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- Where the reaction tile is the last the result window is stored into: it is live. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the result window, through which its contents are stated (the choice does not matter). -/
abbrev VO0_4 : View sig .tc .vmem S512x2048 .f32 := (Memref.whole cc0_stg4_0 : Memref sig .tc .vmem S512x2048 .f32).view
/-- Each window's current staging memref at point `t`, spelt as the pipeline passes it, and its wholeness. -/
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
/-- The accumulator: a whole scoped buffer of the kernel's own, passed beside the windows and carried between points. -/
abbrev scM0_0 : Memref sig .tc .vmem S512x2048 .f32 := Memref.whole cc0_scratch0
/-- The accumulator as a view: what it holds is stated through it. -/
abbrev VS0_0 : View sig .tc .vmem S512x2048 .f32 := scM0_0.view

/-! ## The region invariant with the accumulator owned -/

/-- The core's scoped buffers that are neither a staging buffer of this region nor its accumulator (the other
    region's staging buffers and accumulator), each whole at some contents: the body never touches them. -/
def scopedOthers0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_scratch0), ((c : Thread nD τ).loc cc1_scratch0) ↦{fullShare} f))

/-- The class's invariant is the accumulator owned at some contents, the other scoped buffers, and the generator
    register at some state. -/
theorem PhiA0_eq (c : Dev nD) :
    (Pipeline.ΦA spec0 c : sProp 𝕄)
      = iprop(iprop((∃ d, owns (c : Thread nD τ) scM0_0 fullShare d) ∗ scopedOthers0 (F := F) c) ∗ (∃ r, prngReg c r)) := by
  unfold Pipeline.ΦA; rw [scopedRest0_eq]; unfold scopedOthers0; simp only [scM0_0, owns_whole]; try rfl

end Cert.KernelIdeal.Hand

end
-- ==== Proof.KI.R0RunA.lean ====
/- Region 0, the body's run where the reaction tile is the first (the accumulator is reset, then added to; nothing stored into the result window): the body's triple on whole memrefs, the pieces its stores leave in the
   result window's buffer and in the accumulator found by the run. -/
import proofs.«420563_j88390426951972_1_alg».proof.Proof.KI.R0Shared

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- one step per memory operation of the body: a long term
set_option maxHeartbeats 1000000 in
/-- What the body's stores leave, as pieces (last first), where the reaction tile is the first (the accumulator is reset, then added to; nothing stored into the result window) — with the proof that on whole memrefs, the
    inputs' at their contents, the body runs to the continuation holding the inputs' as they were, the accumulator with its
    pieces written and the result window's buffer handed back untouched: each branch is decided by the case's hypotheses;
    the pieces are the witness the run finds. -/
noncomputable def kernelRun0_A (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S512x1024 .f32) (x2 : Vec F S1x1024 .i32) (x3 : Vec F S1x1024 .i32) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__order1_kernel i arg2 harg2 arg3 harg3 arg4 harg4 arg5 harg5 arg6 harg6 arg7 harg7) K } := by
  refine ⟨[], ?_, fun xi4 E K => ?run⟩
  case run =>
    simp only [cc0__order1_kernel_eq_skeleton]; unfold cc0__order1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R0RunB.lean ====
/- Region 0, the body's run where the reaction tile is neither the first nor the last (the accumulator, at what the point before left, is added to; nothing stored into the result window): the body's triple on whole memrefs, the pieces its stores leave in the
   result window's buffer and in the accumulator found by the run. -/
import proofs.«420563_j88390426951972_1_alg».proof.Proof.KI.R0RunA

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- one step per memory operation of the body: a long term
set_option maxHeartbeats 1000000 in
/-- What the body's stores leave, as pieces (last first), where the reaction tile is neither the first nor the last (the accumulator, at what the point before left, is added to; nothing stored into the result window) — with the proof that on whole memrefs, the
    inputs' at their contents, the body runs to the continuation holding the inputs' as they were, the accumulator with its
    pieces written and the result window's buffer handed back untouched: each branch is decided by the case's hypotheses;
    the pieces are the witness the run finds. -/
noncomputable def kernelRun0_B (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S512x1024 .f32) (x2 : Vec F S1x1024 .i32) (x3 : Vec F S1x1024 .i32) (xs0 : Vec F S512x2048 .f32) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__order1_kernel i arg2 harg2 arg3 harg3 arg4 harg4 arg5 harg5 arg6 harg6 arg7 harg7) K } := by
  refine ⟨[], ?_, fun xi4 E K => ?run⟩
  case run =>
    simp only [cc0__order1_kernel_eq_skeleton]; unfold cc0__order1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R0RunC.lean ====
/- Region 0, the body's run where the reaction tile is the last (the accumulator, at what the point before left, is added to and copied into the result window): the body's triple on whole memrefs, the pieces its stores leave in the
   result window's buffer and in the accumulator found by the run. -/
import proofs.«420563_j88390426951972_1_alg».proof.Proof.KI.R0RunB

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- one step per memory operation of the body: a long term
set_option maxHeartbeats 1000000 in
/-- What the body's stores leave, as pieces (last first), where the reaction tile is the last (the accumulator, at what the point before left, is added to and copied into the result window) — with the proof that on whole memrefs, the
    inputs' at their contents, the body runs to the continuation holding the inputs' as they were, the accumulator with its
    pieces written and the result window's buffer with its pieces written: each branch is decided by the case's hypotheses;
    the pieces are the witness the run finds. -/
noncomputable def kernelRun0_C (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x1024 .f32) (x2 : Vec F S1x1024 .i32) (x3 : Vec F S1x1024 .i32) (xs0 : Vec F S512x2048 .f32) :
    Σ' (L4 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__order1_kernel i arg2 harg2 arg3 harg3 arg4 harg4 arg5 harg5 arg6 harg6 arg7 harg7) K } := by
  refine ⟨?_, ?_, fun E K => ?run⟩
  case run =>
    simp only [cc0__order1_kernel_eq_skeleton]; unfold cc0__order1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.R0Frame.lean ====
/- Region 0 (the first-order reaction kernel), its frame: what each control case leaves in the accumulator and in the
   result window's buffer, what they hold point by point, the region invariant, the proof data, the body obligation,
   and the accumulator's and the result's value equations over the windows' blocks. -/
import proofs.«420563_j88390426951972_1_alg».proof.Proof.KI.R0RunC
import Idealize.ShloMosaic.Lib.Pipeline.Value

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A stores nothing into the result window (idle there, and not written back): no pieces — a placeholder
    that nothing consults, since at these points the window is neither written back nor read at the next point. -/
def out0_A_4 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S512x1024 .f32) (x2 : Vec F S1x1024 .i32) (x3 : Vec F S1x1024 .i32) : Vec F S512x2048 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the accumulator cover it (whole stores). -/
theorem scover0_A_0 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S512x1024 .f32) (x2 : Vec F S1x1024 .i32) (x3 : Vec F S1x1024 .i32) (y : S512x2048.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S512x2048.size (by sl_kernel_rfl) y

/-- What case A leaves in the accumulator: its pieces read back. -/
def sout0_A_0 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S512x1024 .f32) (x2 : Vec F S1x1024 .i32) (x3 : Vec F S1x1024 .i32) : Vec F S512x2048 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B stores nothing into the result window (idle there, and not written back): no pieces — a placeholder
    that nothing consults, since at these points the window is neither written back nor read at the next point. -/
def out0_B_4 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S512x1024 .f32) (x2 : Vec F S1x1024 .i32) (x3 : Vec F S1x1024 .i32) (xs0 : Vec F S512x2048 .f32) : Vec F S512x2048 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the accumulator cover it (whole stores). -/
theorem scover0_B_0 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S512x1024 .f32) (x2 : Vec F S1x1024 .i32) (x3 : Vec F S1x1024 .i32) (xs0 : Vec F S512x2048 .f32) (y : S512x2048.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S512x2048.size (by sl_kernel_rfl) y

/-- What case B leaves in the accumulator: its pieces read back. -/
def sout0_B_0 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S512x1024 .f32) (x2 : Vec F S1x1024 .i32) (x3 : Vec F S1x1024 .i32) (xs0 : Vec F S512x2048 .f32) : Vec F S512x2048 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Where the reaction tile is the last, the pieces stored into the result window tile its block (one whole store), so they cover it. -/
theorem cover0_C_4 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x1024 .f32) (x2 : Vec F S1x1024 .i32) (x3 : Vec F S1x1024 .i32) (xs0 : Vec F S512x2048 .f32) (y : S512x2048.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S512x2048.size (by sl_kernel_rfl) y

/-- What that case leaves in the result window's staging buffer: its pieces read back. -/
def out0_C_4 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x1024 .f32) (x2 : Vec F S1x1024 .i32) (x3 : Vec F S1x1024 .i32) (xs0 : Vec F S512x2048 .f32) : Vec F S512x2048 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's pieces for the accumulator cover it (whole stores). -/
theorem scover0_C_0 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x1024 .f32) (x2 : Vec F S1x1024 .i32) (x3 : Vec F S1x1024 .i32) (xs0 : Vec F S512x2048 .f32) (y : S512x2048.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S512x2048.size (by sl_kernel_rfl) y

/-- What case C leaves in the accumulator: its pieces read back. -/
def sout0_C_0 (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x1024 .f32) (x2 : Vec F S1x1024 .i32) (x3 : Vec F S1x1024 .i32) (xs0 : Vec F S512x2048 .f32) : Vec F S512x2048 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What each case leaves, over the windows' blocks -/

/-- The offsets of every access of the body: zero on both axes. -/
theorem zero_offsets2 : (![0, 0] : Fin 2 → ℕ) = fun _ => 0 := by funext a; fin_cases a <;> rfl

/-- Where the reaction tile is the first the accumulator ends at the point's update of the reset value: the reset, read back, is what the update adds to. -/
theorem sout0_A_0_eq (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S512x1024 .f32) (x2 : Vec F S1x1024 .i32) (x3 : Vec F S1x1024 .i32) :
    sout0_A_0 c i arg2 harg2 arg3 harg3 arg4 harg4 arg5 harg5 arg6 harg6 arg7 harg7 hc0 hc1 x0 x1 x2 x3 = k0_pay2 x0 x2 x1 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x2048) zero_offsets2]
  simp only [View.readAt_eq_ld, harg2.read_unread, harg3.read_unread, harg4.read_unread, harg5.read_unread, harg7.read_unread,
    View.ld_unit_zero (S := S512x2048) zero_offsets2, View.ld_unit_zero (S := S512x1024) zero_offsets2, View.ld_unit_zero (S := S1x1024) zero_offsets2,
    View.readCov_unit_zero (S := S512x2048) _ zero_offsets2]

/-- Where the reaction tile is neither the first nor the last the accumulator ends at the point's update of what it held. -/
theorem sout0_B_0_eq (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S512x1024 .f32) (x2 : Vec F S1x1024 .i32) (x3 : Vec F S1x1024 .i32) (xs0 : Vec F S512x2048 .f32) :
    sout0_B_0 c i arg2 harg2 arg3 harg3 arg4 harg4 arg5 harg5 arg6 harg6 arg7 harg7 hc0 hc1 x0 x1 x2 x3 xs0 = k0_pay2 x0 x2 x1 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S512x2048) zero_offsets2]
  simp only [View.readAt_eq_ld, harg2.read_unread, harg3.read_unread, harg4.read_unread, harg5.read_unread, harg7.read_unread,
    View.ld_unit_zero (S := S512x2048) zero_offsets2, View.ld_unit_zero (S := S512x1024) zero_offsets2, View.ld_unit_zero (S := S1x1024) zero_offsets2,
    View.readCov_unit_zero (S := S512x2048) _ zero_offsets2]

/-- Where the reaction tile is the last the accumulator ends at the point's update of what it held. -/
theorem sout0_C_0_eq (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x1024 .f32) (x2 : Vec F S1x1024 .i32) (x3 : Vec F S1x1024 .i32) (xs0 : Vec F S512x2048 .f32) :
    sout0_C_0 c i arg2 harg2 arg3 harg3 arg4 harg4 arg5 harg5 arg6 harg6 arg7 harg7 hc0 hc1 x0 x1 x2 x3 xs0 = k0_pay2 x0 x2 x1 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S512x2048) zero_offsets2]
  simp only [View.readAt_eq_ld, harg2.read_unread, harg3.read_unread, harg4.read_unread, harg5.read_unread, harg7.read_unread,
    View.ld_unit_zero (S := S512x2048) zero_offsets2, View.ld_unit_zero (S := S512x1024) zero_offsets2, View.ld_unit_zero (S := S1x1024) zero_offsets2,
    View.readCov_unit_zero (S := S512x2048) _ zero_offsets2]

/-- Where the reaction tile is the last the result window's buffer ends at the point's update of what the accumulator held:
    the accumulator, read back after the update, is what is stored. -/
theorem out0_C_4_eq (c : Dev nD) (i : grid0.Coords) (arg2 : Memref sig .tc .vmem S512x2048 .bf16) (harg2 : arg2.IsWhole) (arg3 : Memref sig .tc .vmem S512x1024 .f32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x1024 .f32) (x2 : Vec F S1x1024 .i32) (x3 : Vec F S1x1024 .i32) (xs0 : Vec F S512x2048 .f32) :
    out0_C_4 c i arg2 harg2 arg3 harg3 arg4 harg4 arg5 harg5 arg6 harg6 arg7 harg7 hc0 hc1 x0 x1 x2 x3 xs0 = k0_pay2 x0 x2 x1 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S512x2048) zero_offsets2]
  simp only [View.readAt_eq_ld, harg2.read_unread, harg3.read_unread, harg4.read_unread, harg5.read_unread, harg7.read_unread,
    View.ld_unit_zero (S := S512x2048) zero_offsets2, View.ld_unit_zero (S := S512x1024) zero_offsets2, View.ld_unit_zero (S := S1x1024) zero_offsets2,
    View.readCov_unit_zero (S := S512x2048) _ zero_offsets2]

section Region0
-- the TensorCore's buffer contents when the region is entered: arbitrary
variable (V : (c : Dev nD) → (b : Ref sig .tc) → Buf (Elt F) ((c : Thread nD τ).loc b))

/-! ## What the result window's buffer and the accumulator hold after each point -/

/-- THE ACCUMULATION. After the body at position `n`: (the result window's staging buffer, the accumulator) — the case the
    closed forms select at `n`, run at the point's memrefs and input blocks, the accumulator (where it is not reset) at what
    this leaves at `n - 1`. Both conditions at once is no point of the grid. -/
def outsAt0 (c : Dev nD) : (n : ℕ) → n < cfg0.N → Vec F S512x2048 .f32 × Vec F S512x2048 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 20 = 0 then
      if h1 : (n + 1) % 20 = 19 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 20 = 19 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- `outsAt0` where the reaction tile is the first: that case's contents. -/
theorem outsAt0_A (c : Dev nD) (t : Fin cfg0.N) (h0 : t.val % 20 = 0) (h1 : ¬t.val % 20 = 19) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` where the reaction tile is neither the first nor the last: that case's contents, over what the point before left. -/
theorem outsAt0_B (c : Dev nD) (t : Fin cfg0.N) (h0 : ¬t.val % 20 = 0) (h1 : ¬t.val % 20 = 19) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` where the reaction tile is the last: that case's contents, over what the point before left. -/
theorem outsAt0_C (c : Dev nD) (t : Fin cfg0.N) (h0 : ¬t.val % 20 = 0) (h1 : t.val % 20 = 19) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The accumulator's and the result's values, point by point -/

/-- Where the reaction tile is the first the accumulator is the point's update of the reset value. -/
theorem acc0_first (c : Dev nD) (t : Fin cfg0.N) (h : t.val % 20 = 0) :
    (outsAt0 V c t.val t.isLt).2 = k0_pay2 (iblk0 V c 0 t) (iblk0 V c 2 t) (iblk0 V c 1 t) (iblk0 V c 3 t) (k0_pay1 (F := F)) := by
  have h1 : ¬t.val % 20 = 19 := by omega
  rw [outsAt0_A V c t h h1]; dsimp only
  exact sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h) (fun h' => h1 ((hcond0_1 t).mp h')) (iblk0 V c 0 t) (iblk0 V c 1 t) (iblk0 V c 2 t) (iblk0 V c 3 t)

/-- Elsewhere it is the point's update of what the point before left. -/
theorem acc0_next (c : Dev nD) (t : Fin cfg0.N) (h : t.val % 20 ≠ 0) :
    (outsAt0 V c t.val t.isLt).2 = k0_pay2 (iblk0 V c 0 t) (iblk0 V c 2 t) (iblk0 V c 1 t) (iblk0 V c 3 t) (outsAt0 V c (t.val - 1) (Nat.lt_of_le_of_lt (Nat.sub_le _ _) t.isLt)).2 := by
  by_cases h1 : t.val % 20 = 19
  · rw [outsAt0_C V c t h h1]; dsimp only
    exact sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) ((hcond0_1 t).mpr h1) (iblk0 V c 0 t) (iblk0 V c 1 t) (iblk0 V c 2 t) (iblk0 V c 3 t) (outsAt0 V c (t.val - 1) (Nat.lt_of_le_of_lt (Nat.sub_le _ _) t.isLt)).2
  · rw [outsAt0_B V c t h h1]; dsimp only
    exact sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) (fun h' => h1 ((hcond0_1 t).mp h')) (iblk0 V c 0 t) (iblk0 V c 1 t) (iblk0 V c 2 t) (iblk0 V c 3 t) (outsAt0 V c (t.val - 1) (Nat.lt_of_le_of_lt (Nat.sub_le _ _) t.isLt)).2

/-- Where the reaction tile is the last the result window's buffer holds the accumulator. -/
theorem out0_last (c : Dev nD) (t : Fin cfg0.N) (h : t.val % 20 = 19) :
    (outsAt0 V c t.val t.isLt).1 = (outsAt0 V c t.val t.isLt).2 := by
  have h0 : ¬t.val % 20 = 0 := by omega
  rw [outsAt0_C V c t h0 h]; dsimp only
  exact (out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h0 ((hcond0_0 t).mp h')) ((hcond0_1 t).mpr h) (iblk0 V c 0 t) (iblk0 V c 1 t) (iblk0 V c 2 t) (iblk0 V c 3 t) (outsAt0 V c (t.val - 1) (Nat.lt_of_le_of_lt (Nat.sub_le _ _) t.isLt)).2).trans
    (sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h0 ((hcond0_0 t).mp h')) ((hcond0_1 t).mpr h) (iblk0 V c 0 t) (iblk0 V c 1 t) (iblk0 V c 2 t) (iblk0 V c 3 t) (outsAt0 V c (t.val - 1) (Nat.lt_of_le_of_lt (Nat.sub_le _ _) t.isLt)).2).symm

/-! ## The region invariant, point by point -/

/-- The invariant before position `n`: before the first point the class's (the accumulator at anything); afterwards the
    accumulator at what the point before left in it, the other scoped buffers at anything, the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ scopedOthers0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ scopedOthers0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ scopedOthers0 (F := F) c) ∗ (∃ r, prngReg c r)) := by
  cases n with
  | zero => exact absurd rfl hz
  | succ n => rfl

/-! ## The pipeline's proof data -/

/-- The proof data of region 0 on core `c`: the arrays as the region finds them; after the body at point `t` each
    input's buffer at its block and the result window's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- An input window is never idle: the body hands its buffer back at what it leaves there, its block. -/
theorem leaves0_0 (c : Dev nD) (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) : (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leaves0_3 (c : Dev nD) (t : Fin cfg0.N) : (dat0 V c).leavesExact 3 t = owns (c : Thread nD τ) (ms0_3 t) fullShare (iblk0 V c 3 t) := by
  rw [show (dat0 V c).leavesExact 3 t = owns (c : Thread nD τ) (ms0_3 t) fullShare ((dat0 V c).after 3 t) from by
    unfold Dat.leavesExact; rw [liveAt0_3 t], after0_3]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which case the point is in; so that
    case's run applies. The invariant hands the body the accumulator at what the point before left (at anything at the first
    point) and takes it back at this point's contents; the other scoped buffers, the generator register and what the
    core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 40 := lt_of_lt_of_eq t.isLt (show cfg0.N = 40 from N_0)
  by_cases h0 : t.val % 20 = 0
  · by_cases h1 : t.val % 20 = 19
    · exfalso; omega
    · rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 20 = 19
    · rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 40 := N_0; omega)

end Region0

end Cert.KernelIdeal.Hand

end
-- ==== Proof.KI.R1Shared.lean ====
/- Region 1 (the second-order kernel, pallas_call 1) of the program: what the three runs of its body and its frame share.
   The windows' blocks read off an ARBITRARY region-entry valuation `V`; each input window found at its block at every
   point; the body's two branch conditions as propositions of the grid coordinates, in closed form over the grid
   (point t = batch tile · 79 + reaction tile, so the reaction tile is t mod 79); where the output window is idle and
   not written back; the staging memrefs at a point, the scratch accumulator as a memref and as a view; and the
   region invariant with the scratch owned apart from every other scoped buffer. -/
import proofs.«420563_j88390426951972_1_alg».proof.Proof.Gen.KernelIdeal.Launch
import proofs.«420563_j88390426951972_1_alg».proof.Proof.Gen.KernelIdeal.Skeleton
import proofs.«420563_j88390426951972_1_alg».proof.Proof.Gen.KernelIdeal.Points
import Idealize.ShloMosaic.Lib.Pipeline.FrameBody
import Idealize.ShloMosaic.Lib.Ring
import Idealize.ShloMosaic.Lib.Tactic

-- membership in a rectangle of production extents: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: arbitrary
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents (`hA`) and whose body leaves the block in place (`hafter`): unfetched, the
    block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents (`hA`) and whose body leaves the block in place (`hafter`): unfetched, the
    block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents (`hA`) and whose body leaves the block in place (`hafter`): unfetched, the
    block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents (`hA`) and whose body leaves the block in place (`hafter`): unfetched, the
    block index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is the entry contents (`hA`) and whose body leaves the block in place (`hafter`): unfetched, the
    block index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is the entry contents (`hA`) and whose body leaves the block in place (`hafter`): unfetched, the
    block index has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the scratch is set to region 0's result): the reaction tile is 0. -/
abbrev cond1_0 (i : grid1.Coords) : Prop := (Scalar.cmpi .ne (Scalar.extui (Scalar.cmpi .eq (BitVec.ofNat 32 (i 1).val) 0#32)) 0#32) = 1#1
/-- It holds at the first reaction tile of each batch tile — decided over the grid. -/
theorem hcond1_0 : ∀ t : Fin cfg1.N, cond1_0 (grid1.coords t) ↔ t.val % 79 = 0 :=
  (by decide +kernel : ∀ t : Fin grid1.N, cond1_0 (grid1.coords t) ↔ t.val % 79 = 0)

/-- The condition of the body's second `scf.if` (the scratch is copied to the output block): the reaction tile is 78. -/
abbrev cond1_1 (i : grid1.Coords) : Prop := k1_cond2 i = 1#1
/-- It holds at the last reaction tile of each batch tile — decided over the grid. -/
theorem hcond1_1 : ∀ t : Fin cfg1.N, cond1_1 (grid1.coords t) ↔ t.val % 79 = 78 :=
  (by decide +kernel : ∀ t : Fin grid1.N, cond1_1 (grid1.coords t) ↔ t.val % 79 = 78)

/-! ## Where the windows are idle -/

/-- No input window is ever idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Where the reaction tile is not the last (cases A and B) the output window 6 is idle: the body stores nothing into it, -/
theorem idleAt1_6 : ∀ t : Fin cfg1.N, ¬cond1_1 (grid1.coords t) → cfg1.idle 6 (grid1.coords t) = true := by decide +kernel
/-- and the pipeline does not write its block back there. -/
theorem noFlush1_6 : ∀ t : Fin cfg1.N, ¬cond1_1 (grid1.coords t) → (cfg1.win 6).flush t = false := by decide +kernel
/-- At the last reaction tile (case C) the output window 6 is live: the body stores into it. -/
theorem liveAt1_6 : ∀ t : Fin cfg1.N, cond1_1 (grid1.coords t) → cfg1.idle 6 (grid1.coords t) = false := by decide +kernel

/-! ## The memrefs the body is called with -/

/-- One staging buffer of the output window 6, through which its contents are stated (the choice does not matter). -/
abbrev VO1_6 : View sig .tc .vmem S512x2048 .f32 := (Memref.whole cc1_stg6_0 : Memref sig .tc .vmem S512x2048 .f32).view
/-- Each window's current staging memref at point `t`, as the pipeline passes it, and its wholeness. -/
abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x2048 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x2048 .f32 := win1_6.stage (cfg1.slots t 6)
abbrev hs1_6 (t : Fin cfg1.N) : (ms1_6 t).IsWhole := hstage1_6 ((cfg1.slots t 6).cast nbuf1_6)
/-- The scratch accumulator: a whole scoped buffer of the kernel's own, passed beside the windows and carried between points. -/
abbrev scM1 : Memref sig .tc .vmem S512x2048 .f32 := Memref.whole cc1_scratch0
/-- The same as a view: what it holds is stated through it. -/
abbrev VS1 : View sig .tc .vmem S512x2048 .f32 := scM1.view

/-! ## The region invariant with the scratch owned -/

/-- The core's scoped buffers that are neither a staging buffer of this region nor its scratch — the other region's
    staging buffers and scratch —, each whole at some contents: never opened here. -/
abbrev scopedOther1 (c : Dev nD) : sProp 𝕄 :=
  Pipeline.scopedRestBut (Ix := Unit) (Name := ℕ) (U := UR sig nD τ) (Lvl := ℕ) (Val := Elt F) spec1 c [cc1_scratch0]

/-- The region invariant as the body uses it: the scratch as a memref owned at some contents, every other scoped
    buffer unopened, the generator register at some state. -/
theorem PhiA1_eq (c : Dev nD) :
    (Pipeline.ΦA spec1 c : sProp 𝕄)
      = iprop(iprop((∃ d, owns (c : Thread nD τ) scM1 fullShare d) ∗ scopedOther1 c) ∗ (∃ r, prngReg c r)) := by
  unfold Pipeline.ΦA
  rw [Pipeline.scopedRest_split_of_list spec1 c [cc1_scratch0] (by decide) (by decide)]
  simp only [bigSepL_singleton, scM1, owns_whole]; try rfl

end Cert.KernelIdeal.Hand

end
-- ==== Proof.KI.R1RunA.lean ====
/- Region 1's body in case A: the reaction tile is the first of its batch tile (the first conditional taken, the second not). The body's triple on whole memrefs — the six inputs'
   staging memrefs at their contents, the output's, which the case leaves idle, at contents `xi6` handed back untouched,
   the scratch at anything (the body sets it to region 0's block before reading it) — to the continuation holding the inputs' as they
   were, the output's as it was and the scratch with its pieces written (`LS`, last first). The printed functions are
   their skeletons; each conditional is decided by the case's hypotheses; the pieces are found by the run. -/
import proofs.«420563_j88390426951972_1_alg».proof.Proof.KI.R1Shared

-- membership in a rectangle of production extents: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: arbitrary
variable (V : (c : Dev nD) → (b : Ref sig .tc) → Buf (Elt F) ((c : Thread nD τ).loc b))

set_option maxHeartbeats 1000000 in
/-- Case A of the body of region 1: the pieces its stores leave in the output's staging memref (`.1`) and in the scratch
    (`.2.1`), with the proof that the body runs to the continuation holding them written. -/
noncomputable def kernelRun1_A (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) :
    Σ' (L6 : List (View.Piece (Elt F) S512x2048 .f32)), { LS : List (View.Piece (Elt F) S512x2048 .f32) //
      ∀ (xi6 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__order2_kernel i arg2 harg2 arg3 harg3 arg4 harg4 arg5 harg5 arg6 harg6 arg7 harg7 arg8 harg8 arg9 harg9) K } := by
  refine ⟨[], ?_, fun xi6 E K => ?run⟩
  case run =>
    simp only [cc1__order2_kernel_eq_skeleton]; unfold cc1__order2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.KernelIdeal.Hand

end
-- ==== Proof.KI.R1RunB.lean ====
/- Region 1's body in case B: the reaction tile is neither the first nor the last of its batch tile (neither conditional taken). The body's triple on whole memrefs — the six inputs'
   staging memrefs at their contents, the output's, which the case leaves idle, at contents `xi6` handed back untouched,
   the scratch at the contents `xs` the point before left — to the continuation holding the inputs' as they
   were, the output's as it was and the scratch with its pieces written (`LS`, last first). The printed functions are
   their skeletons; each conditional is decided by the case's hypotheses; the pieces are found by the run. -/
import proofs.«420563_j88390426951972_1_alg».proof.Proof.KI.R1RunA

-- membership in a rectangle of production extents: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: arbitrary
variable (V : (c : Dev nD) → (b : Ref sig .tc) → Buf (Elt F) ((c : Thread nD τ).loc b))

set_option maxHeartbeats 1000000 in
/-- Case B of the body of region 1: the pieces its stores leave in the output's staging memref (`.1`) and in the scratch
    (`.2.1`), with the proof that the body runs to the continuation holding them written. -/
noncomputable def kernelRun1_B (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) :
    Σ' (L6 : List (View.Piece (Elt F) S512x2048 .f32)), { LS : List (View.Piece (Elt F) S512x2048 .f32) //
      ∀ (xi6 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__order2_kernel i arg2 harg2 arg3 harg3 arg4 harg4 arg5 harg5 arg6 harg6 arg7 harg7 arg8 harg8 arg9 harg9) K } := by
  refine ⟨[], ?_, fun xi6 E K => ?run⟩
  case run =>
    simp only [cc1__order2_kernel_eq_skeleton]; unfold cc1__order2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.KernelIdeal.Hand

end
-- ==== Proof.KI.R1RunC.lean ====
/- Region 1's body in case C: the reaction tile is the last of its batch tile (the first conditional not taken, the second taken). The body's triple on whole memrefs — the six inputs'
   staging memrefs at their contents, the output's at anything,
   the scratch at the contents `xs` the point before left — to the continuation holding the inputs' as they
   were, the output's buffer with its pieces written (`L6`) and the scratch with its pieces written (`LS`, last first). The printed functions are
   their skeletons; each conditional is decided by the case's hypotheses; the pieces are found by the run. -/
import proofs.«420563_j88390426951972_1_alg».proof.Proof.KI.R1RunB

-- membership in a rectangle of production extents: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: arbitrary
variable (V : (c : Dev nD) → (b : Ref sig .tc) → Buf (Elt F) ((c : Thread nD τ).loc b))

set_option maxHeartbeats 1000000 in
/-- Case C of the body of region 1: the pieces its stores leave in the output's staging memref (`.1`) and in the scratch
    (`.2.1`), with the proof that the body runs to the continuation holding them written. -/
noncomputable def kernelRun1_C (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) :
    Σ' (L6 : List (View.Piece (Elt F) S512x2048 .f32)), { LS : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc1__order2_kernel i arg2 harg2 arg3 harg3 arg4 harg4 arg5 harg5 arg6 harg6 arg7 harg7 arg8 harg8 arg9 harg9) K } := by
  refine ⟨?_, ?_, fun E K => ?run⟩
  case run =>
    simp only [cc1__order2_kernel_eq_skeleton]; unfold cc1__order2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.KernelIdeal.Hand

end
-- ==== Proof.KI.R1Frame.lean ====
/- Region 1 (the second-order kernel, pallas_call 1): its frame at an arbitrary region-entry valuation `V`. What each
   case of the body leaves in the output window's staging buffer and in the scratch accumulator (the pieces the runs
   found, read back; their covers); what both hold after each grid point, by recursion on the point (`outsAt1`: the
   scratch is set whole at the first reaction tile of each batch tile, added to at every point, and copied to the
   output's buffer at the last); the region invariant carrying the scratch at those contents; the proof data; the
   body obligation; the invariant's entry and exit; and the accumulator's value equations point by point. -/
import proofs.«420563_j88390426951972_1_alg».proof.Proof.KI.R1RunC
import Idealize.ShloMosaic.Lib.Pipeline.Value

-- membership in a rectangle of production extents: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: arbitrary
variable (V : (c : Dev nD) → (b : Ref sig .tc) → Buf (Elt F) ((c : Thread nD τ).loc b))

/-! ## What each case leaves -/

/-- Case A stores nothing into the output window 6 (idle at its points and not written back there): no pieces — a
    placeholder that nothing consults, the window being neither written back there nor read at the next point. -/
def out1_A_6 (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) : Vec F S512x2048 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's pieces for the scratch tile it, so they cover it. -/
theorem scover1_A (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) (y : S512x2048.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S512x2048.size (by sl_kernel_rfl) y

/-- What case A leaves in the scratch: its pieces read back. -/
def sout1_A (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) : Vec F S512x2048 .f32 :=
  VS1.read (Elt F) (VS1.writes (Elt F) VS1.junk (kernelRun1_A c i arg2 harg2 arg3 harg3 arg4 harg4 arg5 harg5 arg6 harg6 arg7 harg7 arg8 harg8 arg9 harg9 hc0 hc1 x0 x1 x2 x3 x4 x5).2.1)

/-- Case B stores nothing into the output window 6 (idle at its points and not written back there): no pieces — a
    placeholder that nothing consults, the window being neither written back there nor read at the next point. -/
def out1_B_6 (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) : Vec F S512x2048 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs).1)

/-- Case B's pieces for the scratch tile it, so they cover it. -/
theorem scover1_B (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) (y : S512x2048.Idx) :
    ∃ pc ∈ (kernelRun1_B c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs).2.1 S512x2048.size (by sl_kernel_rfl) y

/-- What case B leaves in the scratch: its pieces read back. -/
def sout1_B (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) : Vec F S512x2048 .f32 :=
  VS1.read (Elt F) (VS1.writes (Elt F) VS1.junk (kernelRun1_B c i arg2 harg2 arg3 harg3 arg4 harg4 arg5 harg5 arg6 harg6 arg7 harg7 arg8 harg8 arg9 harg9 hc0 hc1 x0 x1 x2 x3 x4 x5 xs).2.1)

/-- Case C's pieces for the output window 6 tile its block, so they cover it. -/
theorem cover1_C_6 (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) (y : S512x2048.Idx) :
    ∃ pc ∈ (kernelRun1_C c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs).1 S512x2048.size (by sl_kernel_rfl) y

/-- What case C leaves in the output window 6's staging buffer: its pieces read back. -/
def out1_C_6 (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) : Vec F S512x2048 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs).1)

/-- Case C's pieces for the scratch tile it, so they cover it. -/
theorem scover1_C (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) (y : S512x2048.Idx) :
    ∃ pc ∈ (kernelRun1_C c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs).2.1 S512x2048.size (by sl_kernel_rfl) y

/-- What case C leaves in the scratch: its pieces read back. -/
def sout1_C (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) : Vec F S512x2048 .f32 :=
  VS1.read (Elt F) (VS1.writes (Elt F) VS1.junk (kernelRun1_C c i arg2 harg2 arg3 harg3 arg4 harg4 arg5 harg5 arg6 harg6 arg7 harg7 arg8 harg8 arg9 harg9 hc0 hc1 x0 x1 x2 x3 x4 x5 xs).2.1)

/-! ## What the output's buffer and the scratch hold after each point -/

/-- THE ACCUMULATION. What the output window's staging buffer (`.1`) and the scratch (`.2`) hold after the body at
    position `n`: the case the closed forms select at `n`, run at the point's memrefs and input blocks, the scratch —
    where the case reads it before covering it — at what this leaves at `n - 1`. Both conditions at once meet no point. -/
def outsAt1 (c : Dev nD) : (n : ℕ) → n < cfg1.N → Vec F S512x2048 .f32 × Vec F S512x2048 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 79 = 0 then
      if h1 : (n + 1) % 79 = 78 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 79 = 78 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point of case A: that case's contents. -/
theorem outsAt1_A (c : Dev nD) (t : Fin cfg1.N) (h0 : t.val % 79 = 0) (h1 : ¬t.val % 79 = 78) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left in the scratch. -/
theorem outsAt1_B (c : Dev nD) (t : Fin cfg1.N) (h0 : ¬t.val % 79 = 0) (h1 : ¬t.val % 79 = 78) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the scratch. -/
theorem outsAt1_C (c : Dev nD) (t : Fin cfg1.N) (h0 : ¬t.val % 79 = 0) (h1 : t.val % 79 = 78) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, carrying the scratch -/

/-- The region invariant before position `n`: before the first point the class's (every scoped buffer that is no
    staging buffer at anything, the generator register at some state); afterwards the same with the scratch at
    what the point before left in it. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ scopedOther1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(owns (c : Thread nD τ) scM1 fullShare ((outsAt1 V c n hn).2) ∗ scopedOther1 c) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ scopedOther1 c) ∗ (∃ r, prngReg c r)) := by
  cases n with
  | zero => exact absurd rfl hz
  | succ n => rfl

/-! ## The pipeline's proof data -/

/-- The proof data of region 1's pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the closed forms say which case the point is in;
    so that case's run applies. The invariant hands the body the scratch at what the point before left (at anything
    before the grid's first point, and at the first reaction tile of the second batch tile the body does not read
    it before setting it) and takes it back at this point's contents; every other scoped buffer, the generator
    register and the core's dues pass through unread; the output window, idle unless the reaction tile is the last,
    is handed back as found there. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 158 := lt_of_lt_of_eq t.isLt (show cfg1.N = 158 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 79 = 0
  · have h1 : ¬t.val % 79 = 78 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hoth Hg]
      · isplitl [HS Hoth]
        · isplitl [HS]
          · unfold owns; iexists _; isplitr
            swap; · iexact HS
            ipureintro; exact View.read_writes_of_cover _ _ _ _ _ (scover1_A c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS Hoth Hg]
      · isplitl [HS Hoth]
        · isplitl [HS]
          · unfold owns; iexists _; isplitr
            swap; · iexact HS
            ipureintro; exact View.read_writes_of_cover _ _ _ _ _ (scover1_A c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 79 = 78
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover1_C c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hoth Hg]
      · isplitl [HS Hoth]
        · isplitl [HS]
          · unfold owns; iexists _; isplitr
            swap; · iexact HS
            ipureintro; exact View.read_writes_of_cover _ _ _ _ _ (scover1_B c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hoth⟩, Hg⟩
  isplitl [HS Hoth]
  · isplitl [HS]
    · iexists _; iexact HS
    iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 158 := N_1; omega)

/-! ## The values: one lemma per found piece, then the accumulator point by point -/

/-- The zero offsets of a load or a store of a whole rank-2 buffer. -/
theorem hz2 : (![0, 0] : Fin 2 → Nat) = fun _ => 0 := funext fun a => by fin_cases a <;> rfl

/-- Case A's scratch: region 0's block (the reset, read back) plus the point's second-order term. -/
theorem sout1_A_eq (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) :
    sout1_A c i arg2 harg2 arg3 harg3 arg4 harg4 arg5 harg5 arg6 harg6 arg7 harg7 arg8 harg8 arg9 harg9 hc0 hc1 x0 x1 x2 x3 x4 x5 = k1_pay1 (k1_pay3 x0 x2 x3 x1 x4) (k1_pay2 x5) := by
  unfold sout1_A
  rw [View.read_writes_eq_canon _ _ _ (scover1_A c i arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S512x2048) hz2, View.readCov_unit_zero (S := S512x2048) _ hz2]
  simp only [View.readAt_eq_ld, harg2.read_unread, harg3.read_unread, harg4.read_unread, harg5.read_unread, harg6.read_unread, harg7.read_unread, View.ld_unit_zero (S := S512x2048) hz2, View.ld_unit_zero (S := S1x512) hz2, View.ld_unit_zero (S := S512x512) hz2]

/-- Case B's scratch: what the point before left plus the point's second-order term. -/
theorem sout1_B_eq (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : ¬cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) :
    sout1_B c i arg2 harg2 arg3 harg3 arg4 harg4 arg5 harg5 arg6 harg6 arg7 harg7 arg8 harg8 arg9 harg9 hc0 hc1 x0 x1 x2 x3 x4 x5 xs = k1_pay1 (k1_pay3 x0 x2 x3 x1 x4) xs := by
  unfold sout1_B
  rw [View.read_writes_eq_canon _ _ _ (scover1_B c i arg2 harg2 arg3 harg3 arg4 harg4 arg5 harg5 arg6 harg6 arg7 harg7 arg8 harg8 arg9 harg9 hc0 hc1 x0 x1 x2 x3 x4 x5 xs)]
  unfold kernelRun1_B
  dsimp only
  sl_unfold_words
  rw [View.canon_unit_zero (S := S512x2048) hz2]
  simp only [View.readAt_eq_ld, harg2.read_unread, harg3.read_unread, harg4.read_unread, harg5.read_unread, harg6.read_unread, harg7.read_unread, harg9.read_unread, View.ld_unit_zero (S := S512x2048) hz2, View.ld_unit_zero (S := S1x512) hz2, View.ld_unit_zero (S := S512x512) hz2]

/-- Case C's scratch: the same. -/
theorem sout1_C_eq (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) :
    sout1_C c i arg2 harg2 arg3 harg3 arg4 harg4 arg5 harg5 arg6 harg6 arg7 harg7 arg8 harg8 arg9 harg9 hc0 hc1 x0 x1 x2 x3 x4 x5 xs = k1_pay1 (k1_pay3 x0 x2 x3 x1 x4) xs := by
  unfold sout1_C
  rw [View.read_writes_eq_canon _ _ _ (scover1_C c i arg2 harg2 arg3 harg3 arg4 harg4 arg5 harg5 arg6 harg6 arg7 harg7 arg8 harg8 arg9 harg9 hc0 hc1 x0 x1 x2 x3 x4 x5 xs)]
  unfold kernelRun1_C
  dsimp only
  sl_unfold_words
  rw [View.canon_unit_zero (S := S512x2048) hz2]
  simp only [View.readAt_eq_ld, harg2.read_unread, harg3.read_unread, harg4.read_unread, harg5.read_unread, harg6.read_unread, harg7.read_unread, harg9.read_unread, View.ld_unit_zero (S := S512x2048) hz2, View.ld_unit_zero (S := S1x512) hz2, View.ld_unit_zero (S := S512x512) hz2]

/-- Case C's output block: the scratch as the point's update left it, read back. -/
theorem out1_C_6_eq (c : Dev nD) (i : grid1.Coords) (arg2 : Memref sig .tc .vmem S512x2048 .bf16) (harg2 : arg2.IsWhole) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond1_0 i) (hc1 : cond1_1 i)
    (x0 : Vec F S512x2048 .bf16) (x1 : Vec F S512x512 .f32) (x2 : Vec F S1x512 .i32) (x3 : Vec F S1x512 .i32) (x4 : Vec F S1x512 .i32) (x5 : Vec F S512x2048 .f32) (xs : Vec F S512x2048 .f32) :
    out1_C_6 c i arg2 harg2 arg3 harg3 arg4 harg4 arg5 harg5 arg6 harg6 arg7 harg7 arg8 harg8 arg9 harg9 hc0 hc1 x0 x1 x2 x3 x4 x5 xs = k1_pay1 (k1_pay3 x0 x2 x3 x1 x4) xs := by
  unfold out1_C_6
  rw [View.read_writes_eq_canon _ _ _ (cover1_C_6 c i arg2 harg2 arg3 harg3 arg4 harg4 arg5 harg5 arg6 harg6 arg7 harg7 arg8 harg8 arg9 harg9 hc0 hc1 x0 x1 x2 x3 x4 x5 xs)]
  unfold kernelRun1_C
  dsimp only
  sl_unfold_words
  rw [View.canon_unit_zero (S := S512x2048) hz2, View.readCov_unit_zero (S := S512x2048) _ hz2]
  simp only [View.readAt_eq_ld, harg2.read_unread, harg3.read_unread, harg4.read_unread, harg5.read_unread, harg6.read_unread, harg7.read_unread, harg9.read_unread, View.ld_unit_zero (S := S512x2048) hz2, View.ld_unit_zero (S := S1x512) hz2, View.ld_unit_zero (S := S512x512) hz2]

/-- At the first reaction tile of a batch tile the scratch is set to region 0's block and the point's term added. -/
theorem acc1_first (c : Dev nD) (t : Fin cfg1.N) (h : t.val % 79 = 0) :
    (outsAt1 V c t.val t.isLt).2 = k1_pay1 (k1_pay3 (iblk1 V c 0 t) (iblk1 V c 2 t) (iblk1 V c 3 t) (iblk1 V c 1 t) (iblk1 V c 4 t)) (k1_pay2 (iblk1 V c 5 t)) := by
  have h1 : ¬t.val % 79 = 78 := by omega
  rw [outsAt1_A V c t h h1]; dsimp only
  exact sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h) (fun h' => h1 ((hcond1_1 t).mp h')) (iblk1 V c 0 t) (iblk1 V c 1 t) (iblk1 V c 2 t) (iblk1 V c 3 t) (iblk1 V c 4 t) (iblk1 V c 5 t)

/-- At every other reaction tile the point's term is added to what the point before left. -/
theorem acc1_next (c : Dev nD) (t : Fin cfg1.N) (h : t.val % 79 ≠ 0) :
    (outsAt1 V c t.val t.isLt).2 = k1_pay1 (k1_pay3 (iblk1 V c 0 t) (iblk1 V c 2 t) (iblk1 V c 3 t) (iblk1 V c 1 t) (iblk1 V c 4 t)) (outsAt1 V c (t.val - 1) (Nat.lt_of_le_of_lt (Nat.sub_le _ _) t.isLt)).2 := by
  by_cases h1 : t.val % 79 = 78
  · rw [outsAt1_C V c t h h1]; dsimp only
    exact sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h' => h ((hcond1_0 t).mp h')) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2
  · rw [outsAt1_B V c t h h1]; dsimp only
    exact sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h' => h ((hcond1_0 t).mp h')) (fun h' => h1 ((hcond1_1 t).mp h')) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

/-- At the last reaction tile of a batch tile the output's staging buffer is left at the scratch. -/
theorem out1_last (c : Dev nD) (t : Fin cfg1.N) (h : t.val % 79 = 78) :
    (outsAt1 V c t.val t.isLt).1 = (outsAt1 V c t.val t.isLt).2 := by
  have h0 : ¬t.val % 79 = 0 := by omega
  rw [outsAt1_C V c t h0 h]; dsimp only
  exact (out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h' => h0 ((hcond1_0 t).mp h')) ((hcond1_1 t).mpr h) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).trans
    (sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h' => h0 ((hcond1_0 t).mp h')) ((hcond1_1 t).mpr h) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).symm

end Cert.KernelIdeal.Hand

end
-- ==== Proof.KI.Assemble.lean ====
/-
  The whole program from its two regions. @main is fifteen stretches of host operations (casts, zero-padding,
  reshapes of the index vectors), then the first-order region, then the second-order region. Between two items a
  core holds every unscoped buffer at known contents: after the host stretches the folds of the host operations
  over the launch memory; after a region the same with that region's windows' arrays at what its write-backs
  leave (an input's array unchanged, the output's array the blocks written back). Each region is entered from the
  contents the item before left and hands back the next; the generator register and the (empty) debt ride along.
  The run ends with every unscoped buffer at the last contents, from which the arguments are read back unchanged
  (no host operation and no region writes one) and the result array is what the second region's write-backs leave.
-/
import proofs.«420563_j88390426951972_1_alg».proof.Proof.KI.R0Frame
import proofs.«420563_j88390426951972_1_alg».proof.Proof.KI.R1Frame
import proofs.«420563_j88390426951972_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents around the two regions -/

/-- What the first-order region is entered from, read at the TensorCore's references. -/
abbrev U15 : (c : Dev nD) → (b : Ref sig .tc) → Buf (Elt F) ((c : Thread nD τ).loc b) := fun c b => V15 m c b

/-- After the first-order region: its windows' arrays at what the pipeline leaves, every other buffer as entered. -/
def W16 (c : Dev nD) : Valuation τ sig (Elt F) :=
  Pipeline.withArrays spec0 c (V15 m c) fun w => (dat0 (U15 m) c).arrAt w cfg0.N
theorem W16_arr (c : Dev nD) (w : Fin cfg0.W) :
    W16 m c (Proc.devRef .tc (Pipeline.arrRef spec0 w)) = (dat0 (U15 m) c).arrAt w cfg0.N := by
  unfold W16; exact Pipeline.withArrays_arr spec0 launch0.win.arr_inj c _ _ w
theorem W16_of_ne (c : Dev nD) (b : Ref sig .tc) (hb : ∀ w, Pipeline.arrRef spec0 w ≠ b) :
    W16 m c (Proc.devRef .tc b) = V15 m c (Proc.devRef .tc b) := by
  unfold W16; exact Pipeline.withArrays_of_ne spec0 c _ _ b hb
/-- The same read at the TensorCore's references: what the second-order region is entered from. -/
abbrev U16 : (c : Dev nD) → (b : Ref sig .tc) → Buf (Elt F) ((c : Thread nD τ).loc b) := fun c b => W16 m c b
theorem hF0 (c : Dev nD) (w : Fin cfg0.W) : (dat0 (U15 m) c).arrAt w cfg0.N = U16 m c (Pipeline.arrRef spec0 w) :=
  (W16_arr m c w).symm
theorem hrest0 (c : Dev nD) : ∀ b, b ∉ Finset.univ.image (Pipeline.arrRef spec0) → U16 m c b = U15 m c b :=
  fun b hb => W16_of_ne m c b fun w e => hb (Finset.mem_image.mpr ⟨w, Finset.mem_univ _, e⟩)

/-- After the second-order region. -/
def W17 (c : Dev nD) : Valuation τ sig (Elt F) :=
  Pipeline.withArrays spec1 c (W16 m c) fun w => (dat1 (U16 m) c).arrAt w cfg1.N
theorem W17_arr (c : Dev nD) (w : Fin cfg1.W) :
    W17 m c (Proc.devRef .tc (Pipeline.arrRef spec1 w)) = (dat1 (U16 m) c).arrAt w cfg1.N := by
  unfold W17; exact Pipeline.withArrays_arr spec1 launch1.win.arr_inj c _ _ w
theorem W17_of_ne (c : Dev nD) (b : Ref sig .tc) (hb : ∀ w, Pipeline.arrRef spec1 w ≠ b) :
    W17 m c (Proc.devRef .tc b) = W16 m c (Proc.devRef .tc b) := by
  unfold W17; exact Pipeline.withArrays_of_ne spec1 c _ _ b hb
abbrev U17 : (c : Dev nD) → (b : Ref sig .tc) → Buf (Elt F) ((c : Thread nD τ).loc b) := fun c b => W17 m c b
theorem hF1 (c : Dev nD) (w : Fin cfg1.W) : (dat1 (U16 m) c).arrAt w cfg1.N = U17 m c (Pipeline.arrRef spec1 w) :=
  (W17_arr m c w).symm
theorem hrest1 (c : Dev nD) : ∀ b, b ∉ Finset.univ.image (Pipeline.arrRef spec1) → U17 m c b = U16 m c b :=
  fun b hb => W17_of_ne m c b fun w e => hb (Finset.mem_image.mpr ⟨w, Finset.mem_univ _, e⟩)

/-- A buffer no host stretch writes is, when the regions begin, what the launch memory holds. -/
theorem V15_kept (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) (h7 : r ∉ hostOps0_7_W)
    (h8 : r ∉ hostOps0_8_W) (h9 : r ∉ hostOps0_9_W) (h10 : r ∉ hostOps0_10_W) (h11 : r ∉ hostOps0_11_W) (h12 : r ∉ hostOps0_12_W)
    (h13 : r ∉ hostOps0_13_W) (h14 : r ∉ hostOps0_14_W) : V15 m c r = m ((c : Thread nD τ).loc r) :=
  (V15_of m c r h14).trans <| (V14_of m c r h13).trans <| (V13_of m c r h12).trans <| (V12_of m c r h11).trans <| (V11_of m c r h10).trans <|
    (V10_of m c r h9).trans <| (V9_of m c r h8).trans <| (V8_of m c r h7).trans <| (V7_of m c r h6).trans <| (V6_of m c r h5).trans <|
    (V5_of m c r h4).trans <| (V4_of m c r h3).trans <| (V3_of m c r h2).trans <| (V2_of m c r h1).trans <| (V1_of m c r h0).trans rfl

/-- An argument array is no window's array of either region, so it ends as launched. -/
theorem W17_arg (c : Dev nD) (r : Ref sig .tc) (hw1 : ∀ w, Pipeline.arrRef spec1 w ≠ r) (hw0 : ∀ w, Pipeline.arrRef spec0 w ≠ r)
    (hk : V15 m c r = m ((c : Thread nD τ).loc r)) : W17 m c (Proc.devRef .tc r) = m ((c : Thread nD τ).loc r) :=
  (W17_of_ne m c r hw1).trans ((W16_of_ne m c r hw0).trans hk)

theorem W17_main_arg0 (c : Dev nD) : W17 m c (Proc.devRef .tc main_arg0) = m ((c : Thread nD τ).loc main_arg0) :=
  W17_arg m c main_arg0 (by decide) (by decide) (V15_kept m c main_arg0 (by decide) (by decide) (by decide) (by decide) (by decide) (by decide) (by decide) (by decide) (by decide) (by decide) (by decide) (by decide) (by decide) (by decide) (by decide))
theorem W17_main_arg1 (c : Dev nD) : W17 m c (Proc.devRef .tc main_arg1) = m ((c : Thread nD τ).loc main_arg1) :=
  W17_arg m c main_arg1 (by decide) (by decide) (V15_kept m c main_arg1 (by decide) (by decide) (by decide) (by decide) (by decide) (by decide) (by decide) (by decide) (by decide) (by decide) (by decide) (by decide) (by decide) (by decide) (by decide))
theorem W17_main_arg2 (c : Dev nD) : W17 m c (Proc.devRef .tc main_arg2) = m ((c : Thread nD τ).loc main_arg2) :=
  W17_arg m c main_arg2 (by decide) (by decide) (V15_kept m c main_arg2 (by decide) (by decide) (by decide) (by decide) (by decide) (by decide) (by decide) (by decide) (by decide) (by decide) (by decide) (by decide) (by decide) (by decide) (by decide))
theorem W17_main_arg3 (c : Dev nD) : W17 m c (Proc.devRef .tc main_arg3) = m ((c : Thread nD τ).loc main_arg3) :=
  W17_arg m c main_arg3 (by decide) (by decide) (V15_kept m c main_arg3 (by decide) (by decide) (by decide) (by decide) (by decide) (by decide) (by decide) (by decide) (by decide) (by decide) (by decide) (by decide) (by decide) (by decide) (by decide))
theorem W17_main_arg4 (c : Dev nD) : W17 m c (Proc.devRef .tc main_arg4) = m ((c : Thread nD τ).loc main_arg4) :=
  W17_arg m c main_arg4 (by decide) (by decide) (V15_kept m c main_arg4 (by decide) (by decide) (by decide) (by decide) (by decide) (by decide) (by decide) (by decide) (by decide) (by decide) (by decide) (by decide) (by decide) (by decide) (by decide))
theorem W17_main_arg5 (c : Dev nD) : W17 m c (Proc.devRef .tc main_arg5) = m ((c : Thread nD τ).loc main_arg5) :=
  W17_arg m c main_arg5 (by decide) (by decide) (V15_kept m c main_arg5 (by decide) (by decide) (by decide) (by decide) (by decide) (by decide) (by decide) (by decide) (by decide) (by decide) (by decide) (by decide) (by decide) (by decide) (by decide))
theorem W17_main_arg6 (c : Dev nD) : W17 m c (Proc.devRef .tc main_arg6) = m ((c : Thread nD τ).loc main_arg6) :=
  W17_arg m c main_arg6 (by decide) (by decide) (V15_kept m c main_arg6 (by decide) (by decide) (by decide) (by decide) (by decide) (by decide) (by decide) (by decide) (by decide) (by decide) (by decide) (by decide) (by decide) (by decide) (by decide))

/-- The result array ends at what the second-order region's write-backs leave. -/
theorem W17_result (c : Dev nD) : W17 m c (Proc.devRef .tc main_v18) = (dat1 (U16 m) c).arrAt 6 cfg1.N :=
  W17_arr m c 6
/-- The second-order region reads the first-order region's result at what that region's write-backs leave. -/
theorem U16_first (c : Dev nD) : U16 m c main_v17 = (dat0 (U15 m) c).arrAt 4 cfg0.N :=
  W16_arr m c 4
/-- Every other buffer the second-order region reads is as the host stretches left it. -/
theorem U16_host (c : Dev nD) (b : Ref sig .tc) (hb : ∀ w, Pipeline.arrRef spec0 w ≠ b) : U16 m c b = U15 m c b :=
  W16_of_ne m c b hb

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U15 m) c
  | ⟨1, _⟩ => fun c => dat1 (U16 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's debt, at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The first-order region: entered from the host stretches' contents, left at `W16`. Its arrays are split out of the
    unscoped buffers and put back at the exit contents; the generator register goes into the region's invariant and
    comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U15 m) c).loose
  hwaits := Pipeline.hwaits_of_owed_zero _ _ _ _ L lv 0 fun _ _ => rfl
  pre c := iprop(StableHlo.held (c : Thread nD τ) (Pipeline.ucRefs τ sig) (V15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec0 c (U15 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (dat0 (U15 m) c).Φ 0 := by
      have h' := hin0 (U15 m) c; unfold Pipeline.ΦA at h'; exact h'
    rw [show (pdats m 0 c).Φ 0 = (dat0 (U15 m) c).Φ 0 from rfl]
    iintro ⟨Hp, -, Hr⟩
    iapply h
    isplitl [Hr]; · iexact Hr
    iexact Hp
  hout c := by
    have h : (dat0 (U15 m) c).Φ (Fin.last cfg0.N) ⊢ (iprop(Pipeline.scopedRest spec0 c ∗ ∃ r, prngReg c r) : sProp 𝕄) := by
      have h' := hout0 (U15 m) c; unfold Pipeline.ΦA at h'; exact h'
    rw [Pipeline.ownSems0_none, show (pdats m 0 c).Φ (Fin.last _) = (dat0 (U15 m) c).Φ (Fin.last cfg0.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U15 m c) (U16 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second-order region: entered from `W16`, left at `W17`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U16 m) c).loose
  hwaits := Pipeline.hwaits_of_owed_zero _ _ _ _ L lv 1 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec1 c (U16 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (dat1 (U16 m) c).Φ 0 := by
      have h' := hin1 (U16 m) c; unfold Pipeline.ΦA at h'; exact h'
    rw [show (pdats m 1 c).Φ 0 = (dat1 (U16 m) c).Φ 0 from rfl]
    iintro ⟨Hp, -, Hr⟩
    iapply h
    isplitl [Hr]; · iexact Hr
    iexact Hp
  hout c := by
    have h : (dat1 (U16 m) c).Φ (Fin.last cfg1.N) ⊢ (iprop(Pipeline.scopedRest spec1 c ∗ ∃ r, prngReg c r) : sProp 𝕄) := by
      have h' := hout1 (U16 m) c; unfold Pipeline.ΦA at h'; exact h'
    rw [Pipeline.ownSems0_none, show (pdats m 1 c).Φ (Fin.last _) = (dat1 (U16 m) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U16 m c) (U17 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- From any memory with zero counters every weakly fair execution of @main terminates, nothing faulting, and every
    final memory holds each unscoped buffer at the contents after the second-order region. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m c b) := by
  refine Pipeline.θ_run_regions_kit_dev (pcfgs (F := F)) adm (pdats m) () cellOf_inj emb₁ defs₀ 𝒱₀ L lv m ρ main
    (segs m 𝒱₀ L lv (E (F := F)) () (pdats m) (reg0 m) (reg1 m))
    (fun c Q => by
      rewrite [main_chain c, Seg.run_eq_chain,
        show (segs m 𝒱₀ L lv (E (F := F)) () (pdats m) (reg0 m) (reg1 m) c).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12, StableHlo.seq hostOps0_13, StableHlo.seq hostOps0_14,
          Prog.lift (.customCall (Pipeline.entry 0) ()), Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W17 m c) ∗ ∃ r, prngReg c r))
    (hch := fun c => ⟨.rfl, .rfl, .rfl, .rfl, .rfl, .rfl, .rfl, .rfl, .rfl, .rfl, .rfl, .rfl, .rfl, .rfl, .rfl, .rfl, .rfl,
      (show (iprop(StableHlo.held (c : Thread nD τ) (Pipeline.ucRefs τ sig) (W17 m c) ∗ R c) : sProp 𝕄)
          ⊢ iprop((StableHlo.held (c : Thread nD τ) (Pipeline.ucRefs τ sig) (W17 m c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := ?_)
    (QY := fun c s => ∀ b ∈ Pipeline.ucRefs τ sig, s.mem (((c : Thread nD τ)).1, b) = W17 m c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (W17 m c) s')
    isplitl [Hh] <;> iassumption

/-- The frame: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W17_main_arg0 m c),
    (h c _ (mem_uc main_arg1 (by decide))).trans (W17_main_arg1 m c),
    (h c _ (mem_uc main_arg2 (by decide))).trans (W17_main_arg2 m c),
    (h c _ (mem_uc main_arg3 (by decide))).trans (W17_main_arg3 m c),
    (h c _ (mem_uc main_arg4 (by decide))).trans (W17_main_arg4 m c),
    (h c _ (mem_uc main_arg5 (by decide))).trans (W17_main_arg5 m c),
    (h c _ (mem_uc main_arg6 (by decide))).trans (W17_main_arg6 m c)⟩) (run_all m ρ)

/-- The run with the result array named: what the second-order region's write-backs leave, beside the frame. -/
theorem run_result : θ_run defs (onTc (τ := τ) (main (F := F))) ⟨m, fun _ => 0, ρ⟩ (fun r => ∀ c : Dev nD,
      r.2.mem ((c.tc : Thread nD τ).loc main_v18) = (dat1 (U16 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v18 (by decide))).trans (W17_result m c),
    (h c _ (mem_uc main_arg0 (by decide))).trans (W17_main_arg0 m c),
    (h c _ (mem_uc main_arg1 (by decide))).trans (W17_main_arg1 m c),
    (h c _ (mem_uc main_arg2 (by decide))).trans (W17_main_arg2 m c),
    (h c _ (mem_uc main_arg3 (by decide))).trans (W17_main_arg3 m c),
    (h c _ (mem_uc main_arg4 (by decide))).trans (W17_main_arg4 m c),
    (h c _ (mem_uc main_arg5 (by decide))).trans (W17_main_arg5 m c),
    (h c _ (mem_uc main_arg6 (by decide))).trans (W17_main_arg6 m c)⟩) (run_all m ρ)

end Cert.KernelIdeal.Hand

end
-- ==== Proof.Spec.lean ====
/-
  The reaction term as one function of the argument arrays, entry by entry, on the extended reals.

  For a batch row p and a species q the result is the sum, over the first-order reactions j whose product species
  is q, of (abundance of j's reactant in row p) · (rate of j in row p), plus the sum, over the second-order
  reactions j whose product species is q, of (abundance of j's first reactant) · (abundance of its second
  reactant) · (rate of j), all in row p. A reaction whose product is another species contributes 0, so each
  sum is written over ALL reactions with the summand switched off by the test "product = q".
  Species are named by 32-bit index words; `col` reads a word as a column of the 2048 abundances (a word in
  range names itself, which is the only case the statement is used in).
-/
import Idealize.ShloMosaic.PureOps.Ideal
import Idealize.ShloMosaic.Lib.ValueIdx

noncomputable section

namespace Cert.Spec

open Idealize.ShloMosaic Idealize.ShloMosaic.ValueIdx
open scoped BigOperators

abbrev SY : Shape := ⟨2, ![1024, 2048]⟩
abbrev SR1 : Shape := ⟨2, ![1024, 20000]⟩
abbrev SR2 : Shape := ⟨2, ![1024, 40000]⟩
abbrev SI1 : Shape := ⟨1, ![20000]⟩
abbrev SI2 : Shape := ⟨1, ![40000]⟩
abbrev SI2x2 : Shape := ⟨2, ![40000, 2]⟩

/-- The column of the abundance table a species word names: the word itself when it lies in [0, 2048). -/
def col (w : BitVec 32) : Fin 2048 := ⟨w.toNat % 2048, Nat.mod_lt _ (by norm_num)⟩

theorem col_val_of_lt {w : BitVec 32} (h : w.toNat < 2048) : (col w).val = w.toNat := Nat.mod_eq_of_lt h

/-- First-order reactions into species q, in batch row p. -/
def first (Y : SY.Idx → EReal) (R1 : SR1.Idx → EReal) (i1r i1p : SI1.Idx → BitVec 32) (p : Fin 1024) (q : Fin 2048) : EReal :=
  ∑ j : Fin 20000, if col (i1p (ix1 j)) = q then Y (ix2 p (col (i1r (ix1 j)))) * R1 (ix2 p j) else 0

/-- Second-order reactions into species q, in batch row p: reaction j's two reactants are columns 0 and 1 of row j of the table. -/
def second (Y : SY.Idx → EReal) (R2 : SR2.Idx → EReal) (i2r : SI2x2.Idx → BitVec 32) (i2p : SI2.Idx → BitVec 32) (p : Fin 1024) (q : Fin 2048) : EReal :=
  ∑ j : Fin 40000, if col (i2p (ix1 j)) = q then
    Y (ix2 p (col (i2r (ix2 j (0 : Fin 2))))) * Y (ix2 p (col (i2r (ix2 j (1 : Fin 2))))) * R2 (ix2 p j) else 0

/-- The whole result array. -/
def G (Y : SY.Idx → EReal) (R1 : SR1.Idx → EReal) (R2 : SR2.Idx → EReal) (i1r i1p : SI1.Idx → BitVec 32)
    (i2r : SI2x2.Idx → BitVec 32) (i2p : SI2.Idx → BitVec 32) : SY.Idx → EReal :=
  fun i => first Y R1 i1r i1p (i 0) (i 1) + second Y R2 i2r i2p (i 0) (i 1)

/-- Every species word of the four index arrays lies in [0, 2048) (read unsigned: a signed word in that range is below 2^31). -/
structure InRange (i1r i1p : SI1.Idx → BitVec 32) (i2r : SI2x2.Idx → BitVec 32) (i2p : SI2.Idx → BitVec 32) : Prop where
  r1 : ∀ j, (i1r j).toNat < 2048
  p1 : ∀ j, (i1p j).toNat < 2048
  r2 : ∀ j, (i2r j).toNat < 2048
  p2 : ∀ j, (i2p j).toNat < 2048

end Cert.Spec

end
-- ==== Proof.KI.PayValue.lean ====
/-
  The arithmetic of the two kernel bodies at ONE entry, on the extended reals.

  Both bodies build 0/1 selector matrices by comparing a running species number with a row of species words, and use
  them in matrix products. A gather selector has, in the column of reaction j, a single 1, in the row that reaction's
  reactant word names (a word below 2048 equals the word of a species number s below 2048 exactly when it names s); so
  the product of the abundances with it, a sum over the 2048 species, collapses to the one abundance y(p, reactant of j).
  A scatter selector's entry (j, q) is 1 exactly when reaction j's product word names q; so the product of the terms
  with it keeps the term of j where its product is q and drops it elsewhere. Since x * 0 = 0 and x * 1 = x for every
  extended real, nothing is asked of the abundances or the rates.

  First the general facts (a one-hot sum, the selector word, the two column layouts, a plain matrix product into zero
  read as a sum, the two selectors at an entry, the two products against a selector), then the four statements about
  this kernel's payloads.
-/
import proofs.«420563_j88390426951972_1_alg».proof.Proof.Gen.KernelIdeal.Skeleton
import proofs.«420563_j88390426951972_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## One-hot weights in the extended reals -/

/-- A sum against a one-hot weight keeps the one term (`x * 0 = 0` and `x * 1 = x` hold for every extended real). -/
theorem sum_mul_onehot {n : ℕ} (f : Fin n → EReal) (k : Fin n) :
    ∑ s : Fin n, f s * (if s = k then (1 : EReal) else 0) = f k := by
  rw [Finset.sum_eq_single k]
  · rw [if_pos rfl, mul_one]
  · intro s _ hs; rw [if_neg hs, mul_zero]
  · intro h; exact absurd (Finset.mem_univ k) h

/-- The float read of a widened equality bit is 1 where the two words agree and 0 where they differ. -/
theorem sel_word (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · subst h; simp [IntOp.cmpi]
  · have hb : (a == b) = false := by simpa using h
    simp [IntOp.cmpi, hb, h]

/-- The word of a species number `s` below 2048 equals a word `w` in range exactly when `w` names column `s`. -/
theorem ofNat_eq_iff_col {w : BitVec 32} (hw : w.toNat < 2048) (s : Fin 2048) :
    BitVec.ofNat 32 s.val = w ↔ s = Cert.Spec.col w := by
  have hs := s.isLt
  constructor
  · intro h
    apply Fin.ext
    rw [Cert.Spec.col_val_of_lt hw, ← h, BitVec.toNat_ofNat]
    omega
  · intro h
    subst h
    apply BitVec.eq_of_toNat_eq
    rw [BitVec.toNat_ofNat, Cert.Spec.col_val_of_lt hw]
    omega

/-- The same with the word on the left, as the scatter selector compares. -/
theorem eq_ofNat_iff_col {w : BitVec 32} (hw : w.toNat < 2048) (q : Fin 2048) :
    w = BitVec.ofNat 32 q.val ↔ Cert.Spec.col w = q := by
  rw [eq_comm, ofNat_eq_iff_col hw, eq_comm]

/-! ## Column layouts read at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Layout

/-! ## A plain matrix product into the zero accumulator, read as a sum -/

section Plain
variable {m k n : ℕ}

theorem plain_lhs_0 (j : (⟨2, ![m, n]⟩ : Shape).Idx) (κ : (DotDims.plain m k n).contr.Idx) :
    ((DotDims.plain m k n).lhsIdx j κ 0).val = (j 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

theorem plain_lhs_1 (j : (⟨2, ![m, n]⟩ : Shape).Idx) (κ : (DotDims.plain m k n).contr.Idx) :
    ((DotDims.plain m k n).lhsIdx j κ 1).val = (κ ⟨0, Nat.one_pos⟩).val :=
  (DotDims.plain m k n).lhsIdx_val_of_single (cl := 1) rfl j κ

theorem plain_rhs_0 (j : (⟨2, ![m, n]⟩ : Shape).Idx) (κ : (DotDims.plain m k n).contr.Idx) :
    ((DotDims.plain m k n).rhsIdx j κ 0).val = (κ ⟨0, Nat.one_pos⟩).val :=
  (DotDims.plain m k n).rhsIdx_val_of_single (cr := 0) rfl j κ

theorem plain_rhs_1 (j : (⟨2, ![m, n]⟩ : Shape).Idx) (κ : (DotDims.plain m k n).contr.Idx) :
    ((DotDims.plain m k n).rhsIdx j κ 1).val = (j 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- The product of an m×k by a k×n matrix accumulated into zero, read at `(a, b)`: the sum over the contracted
    coordinate of the products of the entries. -/
theorem matmul_plain_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 (DotDims.plain m k n) k rfl rfl).symm c) = ix2 a c :=
    Shape.idx_ext₂ (plain_lhs_0 _ _) ((plain_lhs_1 _ _).trans hc)
  have hr : (DotDims.plain m k n).rhsIdx (ix2 a b) ((contrEquiv1 (DotDims.plain m k n) k rfl rfl).symm c) = ix2 c b :=
    Shape.idx_ext₂ ((plain_rhs_0 _ _).trans hc) (plain_rhs_1 _ _)
  rw [hl, hr]

end Plain

/-! ## The two selectors at an entry -/

section Selectors
variable {N R : ℕ}

/-- The gather selector: the species numbers down the rows compared with the row of reactant words, read as a float.
    Entry `(s, j)` is 1 when the word of `s` is reaction `j`'s word, else 0. -/
theorem gatherSel_apply (ir : IVec ⟨2, ![1, R]⟩ 32)
    (h1 : (⟨2, ![1, R]⟩ : Shape).ShapeCasts ⟨1, ![R]⟩) (h2 : (⟨1, ![R]⟩ : Shape).ShapeCasts ⟨2, ![1, R]⟩)
    (h3 : (⟨2, ![1, R]⟩ : Shape).Broadcasts ⟨2, ![N, R]⟩) (hio : (⟨2, ![N, R]⟩ : Shape).Iotas .tc 32 [0])
    (hlt : 1 < 32) (hb : FTy.bits .bf16 < FTy.bits .f32) (s : Fin N) (j : Fin R) :
    (truncf .bf16 (sitofp .f32 (extui 32 (cmpi .eq (iota .tc ⟨2, ![N, R]⟩ 32 [0] hio)
        (broadcastTo ⟨2, ![N, R]⟩ (shapeCast ⟨2, ![1, R]⟩ (shapeCast ⟨1, ![R]⟩ ir h1) h2) h3)) hlt) : FVec Ideal ⟨2, ![N, R]⟩ .f32) hb
      : FVec Ideal ⟨2, ![N, R]⟩ .bf16) (ix2 s j)
      = if BitVec.ofNat 32 s.val = ir (ix2 (0 : Fin 1) j) then (1 : EReal) else 0 := by
  rw [truncf_apply, sitofp_apply, extui_apply]
  show FloatOps.sitofp (F := Ideal) .f32 ((IntOp.cmpi .eq (iota .tc ⟨2, ![N, R]⟩ 32 [0] hio (ix2 s j))
      (broadcastTo ⟨2, ![N, R]⟩ (shapeCast ⟨2, ![1, R]⟩ (shapeCast ⟨1, ![R]⟩ ir h1) h2) h3 (ix2 s j))).setWidth 32) = _
  rw [iota_single_apply, broadcastTo_1b_ab_apply, shapeCast_a_1a_apply, shapeCast_1a_a_apply, sel_word]
  rfl

/-- The scatter selector: the column of product words compared with the species numbers along the rows, read as a
    float. Entry `(j, q)` is 1 when reaction `j`'s word is the word of `q`, else 0. -/
theorem scatterSel_apply (ip : IVec ⟨2, ![1, R]⟩ 32)
    (h1 : (⟨2, ![1, R]⟩ : Shape).ShapeCasts ⟨1, ![R]⟩) (h2 : (⟨1, ![R]⟩ : Shape).ShapeCasts ⟨2, ![R, 1]⟩)
    (h3 : (⟨2, ![R, 1]⟩ : Shape).Broadcasts ⟨2, ![R, N]⟩) (hio : (⟨2, ![R, N]⟩ : Shape).Iotas .tc 32 [1])
    (hlt : 1 < 32) (hb : FTy.bits .bf16 < FTy.bits .f32) (j : Fin R) (q : Fin N) :
    (truncf .bf16 (sitofp .f32 (extui 32 (cmpi .eq
        (broadcastTo ⟨2, ![R, N]⟩ (shapeCast ⟨2, ![R, 1]⟩ (shapeCast ⟨1, ![R]⟩ ip h1) h2) h3)
        (iota .tc ⟨2, ![R, N]⟩ 32 [1] hio)) hlt) : FVec Ideal ⟨2, ![R, N]⟩ .f32) hb
      : FVec Ideal ⟨2, ![R, N]⟩ .bf16) (ix2 j q)
      = if ip (ix2 (0 : Fin 1) j) = BitVec.ofNat 32 q.val then (1 : EReal) else 0 := by
  rw [truncf_apply, sitofp_apply, extui_apply]
  show FloatOps.sitofp (F := Ideal) .f32 ((IntOp.cmpi .eq
      (broadcastTo ⟨2, ![R, N]⟩ (shapeCast ⟨2, ![R, 1]⟩ (shapeCast ⟨1, ![R]⟩ ip h1) h2) h3 (ix2 j q))
      (iota .tc ⟨2, ![R, N]⟩ 32 [1] hio (ix2 j q))).setWidth 32) = _
  rw [iota_single_apply, broadcastTo_a1_ab_apply, shapeCast_a_a1_apply, shapeCast_1a_a_apply, sel_word]
  rfl

end Selectors

/-! ## The two products against a selector -/

section Products
variable {M R : ℕ} {φ₁ φ₂ : FTy}

/-- Gathering columns: the abundances times a selector whose column `j` has its one 1 in the row reaction `j`'s word
    names. The sum over the 2048 species collapses to the one abundance. -/
theorem gather_apply (prec : Option ContractPrecision) (y : FVec Ideal ⟨2, ![M, 2048]⟩ φ₁) (sel : FVec Ideal ⟨2, ![2048, R]⟩ φ₂)
    (w : Fin R → BitVec 32) (hw : ∀ j, (w j).toNat < 2048)
    (hsel : ∀ (s : Fin 2048) (j : Fin R), sel (ix2 s j) = if BitVec.ofNat 32 s.val = w j then (1 : EReal) else 0)
    (p : Fin M) (j : Fin R) :
    FloatOps.matmul (DotDims.plain M 2048 R) prec y sel (constant (F := Ideal) ⟨2, ![M, R]⟩ .f32 0x00000000#32) (ix2 p j)
      = y (ix2 p (Cert.Spec.col (w j))) := by
  rw [matmul_plain_zero_apply]
  rw [← sum_mul_onehot (fun s => y (ix2 p s)) (Cert.Spec.col (w j))]
  refine Finset.sum_congr rfl fun s _ => ?_
  rw [hsel s j]
  congr 1
  exact if_congr (ofNat_eq_iff_col (hw j) s) rfl rfl

/-- Scattering into columns: the terms times a selector whose entry `(j, q)` is 1 exactly when reaction `j`'s word
    names `q`. Each term is kept where its product is `q` and dropped elsewhere. -/
theorem scatter_apply (prec : Option ContractPrecision) (t : FVec Ideal ⟨2, ![M, R]⟩ φ₁) (sel : FVec Ideal ⟨2, ![R, 2048]⟩ φ₂)
    (w : Fin R → BitVec 32) (hw : ∀ j, (w j).toNat < 2048)
    (hsel : ∀ (j : Fin R) (q : Fin 2048), sel (ix2 j q) = if w j = BitVec.ofNat 32 q.val then (1 : EReal) else 0)
    (p : Fin M) (q : Fin 2048) :
    FloatOps.matmul (DotDims.plain M R 2048) prec t sel (constant (F := Ideal) ⟨2, ![M, 2048]⟩ .f32 0x00000000#32) (ix2 p q)
      = ∑ j : Fin R, if Cert.Spec.col (w j) = q then t (ix2 p j) else 0 := by
  rw [matmul_plain_zero_apply]
  refine Finset.sum_congr rfl fun j _ => ?_
  rw [hsel j q, if_congr (eq_ofNat_iff_col (hw j) q) rfl rfl]
  split
  · rw [mul_one]
  · rw [mul_zero]

end Products

/-! ## The payloads of the two kernel bodies at one entry -/

/-- The first-order body's initial store writes the zero splat. -/
theorem k0_pay1_apply (i : S512x2048.Idx) : k0_pay1 (F := Ideal) i = 0 := by
  unfold k0_pay1
  simp only [shapeCast_self]
  exact Ideal.ofBits_zero_f32

/-- The second-order body's initial store copies what it read. -/
theorem k1_pay2_eq (x : Vec Ideal S512x2048 .f32) : k1_pay2 (F := Ideal) x = x := by
  unfold k1_pay2
  simp only [shapeCast_self]

/-- One tile of first-order reactions: the accumulator plus, over the tile's reactions whose product is `q`, the
    reactant's abundance times the rate. -/
theorem k0_pay2_apply (y : Vec Ideal S512x2048 .bf16) (ir : Vec Ideal S1x1024 .i32) (rt : Vec Ideal S512x1024 .f32)
    (ip : Vec Ideal S1x1024 .i32) (acc : Vec Ideal S512x2048 .f32)
    (hir : ∀ j : Fin 1024, (ir (ix2 (0 : Fin 1) j)).toNat < 2048) (hip : ∀ j : Fin 1024, (ip (ix2 (0 : Fin 1) j)).toNat < 2048)
    (p : Fin 512) (q : Fin 2048) :
    k0_pay2 (F := Ideal) y ir rt ip acc (ix2 p q)
      = acc (ix2 p q) + ∑ j : Fin 1024, if Cert.Spec.col (ip (ix2 (0 : Fin 1) j)) = q then
          y (ix2 p (Cert.Spec.col (ir (ix2 (0 : Fin 1) j)))) * rt (ix2 p j) else 0 := by
  unfold k0_pay2
  simp only [shapeCast_self, matmul]
  rw [addf_apply]
  congr 1
  rw [show dot_S512x1024_S1024x2048_S512x2048_1_0_0_1_n_n = DotDims.plain 512 1024 2048 from rfl,
    scatter_apply none _ _ (fun j => ip (ix2 (0 : Fin 1) j)) hip (fun j q => scatterSel_apply ip _ _ _ _ _ _ j q) p q]
  refine Finset.sum_congr rfl fun j _ => ?_
  congr 1
  rw [truncf_apply, mulf_apply]
  congr 1
  rw [show dot_S512x2048_S2048x1024_S512x1024_1_0_0_1_n_n = DotDims.plain 512 2048 1024 from rfl]
  exact gather_apply none _ _ (fun j => ir (ix2 (0 : Fin 1) j)) hir (fun s j => gatherSel_apply ir _ _ _ _ _ _ s j) p j

/-- One tile of second-order reactions: the accumulator plus, over the tile's reactions whose product is `q`, the
    product of the two reactants' abundances times the rate. -/
theorem k1_pay13_apply (y : Vec Ideal S512x2048 .bf16) (ia ib : Vec Ideal S1x512 .i32) (rt : Vec Ideal S512x512 .f32)
    (ip : Vec Ideal S1x512 .i32) (acc : Vec Ideal S512x2048 .f32)
    (hia : ∀ j : Fin 512, (ia (ix2 (0 : Fin 1) j)).toNat < 2048) (hib : ∀ j : Fin 512, (ib (ix2 (0 : Fin 1) j)).toNat < 2048)
    (hip : ∀ j : Fin 512, (ip (ix2 (0 : Fin 1) j)).toNat < 2048) (p : Fin 512) (q : Fin 2048) :
    k1_pay1 (F := Ideal) (k1_pay3 (F := Ideal) y ia ib rt ip) acc (ix2 p q)
      = acc (ix2 p q) + ∑ j : Fin 512, if Cert.Spec.col (ip (ix2 (0 : Fin 1) j)) = q then
          y (ix2 p (Cert.Spec.col (ia (ix2 (0 : Fin 1) j)))) * y (ix2 p (Cert.Spec.col (ib (ix2 (0 : Fin 1) j)))) * rt (ix2 p j) else 0 := by
  unfold k1_pay1 k1_pay3
  simp only [shapeCast_self, matmul]
  rw [addf_apply]
  congr 1
  rw [show dot_S512x512_S512x2048_S512x2048_1_0_0_1_n_n = DotDims.plain 512 512 2048 from rfl,
    scatter_apply none _ _ (fun j => ip (ix2 (0 : Fin 1) j)) hip (fun j q => scatterSel_apply ip _ _ _ _ _ _ j q) p q]
  refine Finset.sum_congr rfl fun j _ => ?_
  congr 1
  rw [truncf_apply, mulf_apply, mulf_apply]
  rw [show dot_S512x2048_S2048x512_S512x512_1_0_0_1_n_n = DotDims.plain 512 2048 512 from rfl]
  rw [gather_apply none _ _ (fun j => ia (ix2 (0 : Fin 1) j)) hia (fun s j => gatherSel_apply ia _ _ _ _ _ _ s j) p j,
    gather_apply none _ _ (fun j => ib (ix2 (0 : Fin 1) j)) hib (fun s j => gatherSel_apply ib _ _ _ _ _ _ s j) p j]

end Cert.KernelIdeal.Hand

end
-- ==== Proof.LibSumBlocks.lean ====
/-
  A sum over `a · b` consecutive positions, regrouped into `a` blocks of `b`: position `r + b · q` is entry `r` of
  block `q`. Twice, a sum over `a · b · c` positions as blocks of blocks. In any commutative monoid, so also where
  the summands are extended reals.
-/
import Mathlib.Algebra.BigOperators.Fin
import Mathlib.Logic.Equiv.Fin.Basic

namespace Cert.Lib

open scoped BigOperators

/-- The positions below `a · b`, block by block. -/
theorem sum_blocks {M : Type*} [AddCommMonoid M] (a b : ℕ) (f : ℕ → M) :
    ∑ q : Fin a, ∑ r : Fin b, f (r.val + b * q.val) = ∑ x : Fin (a * b), f x.val := by
  rw [← Fintype.sum_prod_type']
  exact Equiv.sum_comp finProdFinEquiv fun x => f x.val

/-- The positions below `a · b · c`, as `a` groups of `b` blocks of `c`. -/
theorem sum_blocks_blocks {M : Type*} [AddCommMonoid M] (a b c : ℕ) (f : ℕ → M) :
    ∑ p : Fin a, ∑ s : Fin b, ∑ r : Fin c, f (r.val + c * (s.val + b * p.val)) = ∑ x : Fin (a * b * c), f x.val := by
  rw [← sum_blocks (a * b) c f, ← sum_blocks a b fun t => ∑ r : Fin c, f (r.val + c * t)]

end Cert.Lib
-- ==== Proof.KI.R0Sum.lean ====
/-
  The first-order reaction sum over the PADDED reaction axis — 20480 reactions, 20 tiles of 1024 —, entry by entry on
  the extended reals, and its two regroupings.

  For a batch row p and a species q, `sum0` is the sum over ALL 20480 reactions j of the switched summand
  "product of j is q ? (abundance of j's reactant in row p) · (rate of j in row p) : 0". The reaction axis is cut into
  20 consecutive tiles of 1024: reaction `j + 1024 · s` is entry j of tile s, so the sum is the sum over the tiles of
  each tile's 1024 summands (`sum0_tiles`). A running total that starts at z plus the first addend and adds one addend
  per step is z plus the addends so far (`run_total`), in any commutative monoid — no finiteness is asked of the
  extended reals.
-/
import proofs.«420563_j88390426951972_1_alg».proof.KernelIdeal
import proofs.«420563_j88390426951972_1_alg».proof.Proof.Spec
import proofs.«420563_j88390426951972_1_alg».proof.Proof.LibSumBlocks
import Mathlib.Algebra.BigOperators.Fin
import Mathlib.Algebra.BigOperators.Intervals

noncomputable section

namespace Cert.KernelIdeal.Hand

open Cert.KernelIdeal
open Idealize.ShloMosaic Idealize.ShloMosaic.ValueIdx
open scoped BigOperators

/-- The first-order sum into species `q`, in batch row `p`, over the padded reaction axis. -/
def sum0 (Y : S1024x2048.Idx → EReal) (Rt : S1024x20480.Idx → EReal) (Ir Ip : S1x20480.Idx → BitVec 32) (p : Fin 1024) (q : Fin 2048) : EReal :=
  ∑ j : Fin 20480, if Cert.Spec.col (Ip (ix2 (0 : Fin 1) j)) = q then Y (ix2 p (Cert.Spec.col (Ir (ix2 (0 : Fin 1) j)))) * Rt (ix2 p j) else 0

/-- Reaction `x`'s summand, for every natural `x` (0 past the axis): what lets a tile's reactions be named `j + 1024 · s`. -/
def term0 (Y : S1024x2048.Idx → EReal) (Rt : S1024x20480.Idx → EReal) (Ir Ip : S1x20480.Idx → BitVec 32) (p : Fin 1024) (q : Fin 2048) (x : ℕ) : EReal :=
  if h : x < 20480 then
    (if Cert.Spec.col (Ip (ix2 (0 : Fin 1) (⟨x, h⟩ : Fin 20480))) = q then
      Y (ix2 p (Cert.Spec.col (Ir (ix2 (0 : Fin 1) (⟨x, h⟩ : Fin 20480))))) * Rt (ix2 p (⟨x, h⟩ : Fin 20480)) else 0)
  else 0

/-- A reaction of the axis has its own summand. -/
theorem term0_of_lt (Y : S1024x2048.Idx → EReal) (Rt : S1024x20480.Idx → EReal) (Ir Ip : S1x20480.Idx → BitVec 32) (p : Fin 1024) (q : Fin 2048)
    (x : ℕ) (h : x < 20480) :
    term0 Y Rt Ir Ip p q x = if Cert.Spec.col (Ip (ix2 (0 : Fin 1) (⟨x, h⟩ : Fin 20480))) = q then
      Y (ix2 p (Cert.Spec.col (Ir (ix2 (0 : Fin 1) (⟨x, h⟩ : Fin 20480))))) * Rt (ix2 p (⟨x, h⟩ : Fin 20480)) else 0 := by
  unfold term0; rw [dif_pos h]

/-- The sum is the sum of the summands of the reactions below 20480. -/
theorem sum0_eq_sum_term0 (Y : S1024x2048.Idx → EReal) (Rt : S1024x20480.Idx → EReal) (Ir Ip : S1x20480.Idx → BitVec 32) (p : Fin 1024) (q : Fin 2048) :
    sum0 Y Rt Ir Ip p q = ∑ x : Fin 20480, term0 Y Rt Ir Ip p q x.val := by
  unfold sum0
  refine Finset.sum_congr rfl fun x _ => ?_
  rw [term0_of_lt Y Rt Ir Ip p q x.val x.isLt]

/-- TILE BY TILE: the 20 tiles' sums of their 1024 summands add up to the whole sum. -/
theorem sum0_tiles (Y : S1024x2048.Idx → EReal) (Rt : S1024x20480.Idx → EReal) (Ir Ip : S1x20480.Idx → BitVec 32) (p : Fin 1024) (q : Fin 2048) :
    ∑ s ∈ Finset.range 20, ∑ j : Fin 1024, term0 Y Rt Ir Ip p q (j.val + 1024 * s) = sum0 Y Rt Ir Ip p q := by
  rw [sum0_eq_sum_term0, Finset.sum_range]
  exact Cert.Lib.sum_blocks 20 1024 (term0 Y Rt Ir Ip p q)

/-- A RUNNING TOTAL: `a 0 = z + d 0` and `a (r + 1) = a r + d (r + 1)` up to step `n` give `a r = z + ∑_{s ≤ r} d s` up to `n`. -/
theorem run_total {M : Type*} [AddCommMonoid M] (a d : ℕ → M) (z : M) (n : ℕ) (h0 : a 0 = z + d 0)
    (hs : ∀ r, r + 1 ≤ n → a (r + 1) = a r + d (r + 1)) : ∀ r, r ≤ n → a r = z + ∑ s ∈ Finset.range (r + 1), d s
  | 0, _ => by rw [Finset.sum_range_one]; exact h0
  | r + 1, hr => by
    rw [hs r hr, run_total a d z n h0 hs r (Nat.le_of_succ_le hr), Finset.sum_range_succ _ (r + 1), add_assoc]

end Cert.KernelIdeal.Hand

end
-- ==== Proof.KI.R0Value.lean ====
/-
  Region 0 (the first-order reaction kernel), its VALUE: what the region's result array holds when the region ends, as
  one function of the arrays the region is entered with, on the extended reals.

  The grid is 2 batch tiles × 20 reaction tiles; point t is batch tile t / 20, reaction tile t % 20. Each window's
  block at a point is the array read at (block index) · (block size) + (offset in the block): the abundances' rows
  512 b …, the rates' rows 512 b … and reactions 1024 r …, the two index rows' reactions 1024 r …. The accumulator
  after point 20 b + r holds, at (p, q), the tiles 0 … r of the switched first-order sum of row 512 b + p into species
  q (by induction on r: zero plus the first tile, then one tile more per point). At r = 19 that is the whole sum, the
  result window's buffer is the accumulator, and the block is written back to rows [512 b, 512 b + 512): the two
  batch tiles' blocks cover the array, so it ends holding the sum everywhere.
-/
import proofs.«420563_j88390426951972_1_alg».proof.Proof.KI.R0Frame
import proofs.«420563_j88390426951972_1_alg».proof.Proof.KI.PayValue
import proofs.«420563_j88390426951972_1_alg».proof.Proof.KI.R0Sum
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The windows' blocks as entries of the arrays (any float instance) -/

section Blocks

variable {F : FTy → Type} [FloatOps F]
variable (V : (c : Dev nD) → (b : Ref sig .tc) → Buf (Elt F) ((c : Thread nD τ).loc b))

/-- The printed index maps over the grid: the batch tile is the point over 20, the reaction tile the point modulo 20. -/
theorem idx_facts0 : ∀ t : Fin cfg0.N,
    win0_0.index t (0 : Fin 2) = t.val / 20 ∧ win0_0.index t (1 : Fin 2) = 0
    ∧ win0_1.index t (0 : Fin 2) = t.val / 20 ∧ win0_1.index t (1 : Fin 2) = t.val % 20
    ∧ win0_2.index t (0 : Fin 2) = 0 ∧ win0_2.index t (1 : Fin 2) = t.val % 20
    ∧ win0_3.index t (0 : Fin 2) = 0 ∧ win0_3.index t (1 : Fin 2) = t.val % 20
    ∧ win0_4.index t (0 : Fin 2) = t.val / 20 ∧ win0_4.index t (1 : Fin 2) = 0 :=
  (by decide +kernel : ∀ t : Fin grid0.N, _)

/-- The abundance block at a point of batch tile `b`: rows `512 b …` of the abundances, every species. -/
theorem yblk_apply (c : Dev nD) (t : Fin cfg0.N) (b : ℕ) (hb : t.val / 20 = b) (p : Fin 512) (k : Fin 2048) (P : Fin 1024)
    (hP : P.val = 512 * b + p.val) :
    (iblk0 V c 0 t : Vec F S512x2048 .bf16) (ix2 p k) = (V c main_v0 : S1024x2048.Idx → Elt F .bf16) (ix2 P k) := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 512 + 1 * p.val = P.val; rw [e0, hP, hb]; omega
  | ⟨1, _⟩ => show win0_0.index t (1 : Fin 2) * 2048 + 1 * k.val = k.val; rw [e1]; omega

/-- The rate block at batch tile `b`, reaction tile `r`: rows `512 b …`, reactions `1024 r …`. -/
theorem rblk_apply (c : Dev nD) (t : Fin cfg0.N) (b r : ℕ) (hb : t.val / 20 = b) (hr : t.val % 20 = r) (p : Fin 512) (j : Fin 1024)
    (P : Fin 1024) (J : Fin 20480) (hP : P.val = 512 * b + p.val) (hJ : J.val = j.val + 1024 * r) :
    (iblk0 V c 1 t : Vec F S512x1024 .f32) (ix2 p j) = (V c main_v1 : S1024x20480.Idx → Elt F .f32) (ix2 P J) := by
  obtain ⟨-, -, e0, e1, -⟩ := idx_facts0 t
  unfold iblk0
  rw [View.read_apply]
  show V c main_v1 _ = V c main_v1 _
  congr 1
  funext a
  apply Fin.ext
  match a with
  | ⟨0, _⟩ => show win0_1.index t (0 : Fin 2) * 512 + 1 * p.val = P.val; rw [e0, hP, hb]; omega
  | ⟨1, _⟩ => show win0_1.index t (1 : Fin 2) * 1024 + 1 * j.val = J.val; rw [e1, hJ, hr]; omega

/-- The reactant-index block at reaction tile `r`: reactions `1024 r …` of the one row. -/
theorem irblk_apply (c : Dev nD) (t : Fin cfg0.N) (r : ℕ) (hr : t.val % 20 = r) (j : Fin 1024) (J : Fin 20480)
    (hJ : J.val = j.val + 1024 * r) :
    (iblk0 V c 2 t : Vec F S1x1024 .i32) (ix2 (0 : Fin 1) j) = (V c main_v3 : S1x20480.Idx → Elt F .i32) (ix2 (0 : Fin 1) J) := by
  obtain ⟨-, -, -, -, e0, e1, -⟩ := idx_facts0 t
  unfold iblk0
  rw [View.read_apply]
  show V c main_v3 _ = V c main_v3 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * j.val = J.val; rw [e1, hJ, hr]; omega

/-- The product-index block at reaction tile `r`: reactions `1024 r …` of the one row. -/
theorem ipblk_apply (c : Dev nD) (t : Fin cfg0.N) (r : ℕ) (hr : t.val % 20 = r) (j : Fin 1024) (J : Fin 20480)
    (hJ : J.val = j.val + 1024 * r) :
    (iblk0 V c 3 t : Vec F S1x1024 .i32) (ix2 (0 : Fin 1) j) = (V c main_v5 : S1x20480.Idx → Elt F .i32) (ix2 (0 : Fin 1) J) := by
  obtain ⟨-, -, -, -, -, -, e0, e1, -⟩ := idx_facts0 t
  unfold iblk0
  rw [View.read_apply]
  show V c main_v5 _ = V c main_v5 _
  congr 1
  funext a
  apply Fin.ext
  match a with
  | ⟨0, _⟩ => show win0_3.index t (0 : Fin 2) * 1 + 1 * 0 = 0; rw [e0]
  | ⟨1, _⟩ => show win0_3.index t (1 : Fin 2) * 1024 + 1 * j.val = J.val; rw [e1, hJ, hr]; omega

/-- The accumulator after a point does not depend on how the point is written. -/
theorem outsAt0_congr (c : Dev nD) (n n' : ℕ) (h : n < cfg0.N) (h' : n' < cfg0.N) (e : n = n') :
    outsAt0 V c n h = outsAt0 V c n' h' := by
  subst e; rfl

end Blocks

/-! ## The accumulator, tile by tile (extended reals) -/

section Value

variable (V : (c : Dev nD) → (b : Ref sig .tc) → Buf (Elt Ideal) ((c : Thread nD τ).loc b))

/-- ONE TILE over the arrays. With blocks that read the arrays at row `P` and reactions `j + 1024 r`, the tile's 1024
    switched summands are the summands of those reactions. -/
theorem tile_sum_eq (y : Vec Ideal S512x2048 .bf16) (ir : Vec Ideal S1x1024 .i32) (rt : Vec Ideal S512x1024 .f32) (ip : Vec Ideal S1x1024 .i32)
    (Y : S1024x2048.Idx → EReal) (Rt : S1024x20480.Idx → EReal) (Ir Ip : S1x20480.Idx → BitVec 32)
    (p : Fin 512) (q : Fin 2048) (P : Fin 1024) (r : ℕ) (hr : r < 20)
    (hy : ∀ k : Fin 2048, y (ix2 p k) = Y (ix2 P k))
    (hrt : ∀ (j : Fin 1024) (J : Fin 20480), J.val = j.val + 1024 * r → rt (ix2 p j) = Rt (ix2 P J))
    (hirb : ∀ (j : Fin 1024) (J : Fin 20480), J.val = j.val + 1024 * r → ir (ix2 (0 : Fin 1) j) = Ir (ix2 (0 : Fin 1) J))
    (hipb : ∀ (j : Fin 1024) (J : Fin 20480), J.val = j.val + 1024 * r → ip (ix2 (0 : Fin 1) j) = Ip (ix2 (0 : Fin 1) J)) :
    (∑ j : Fin 1024, if Cert.Spec.col (ip (ix2 (0 : Fin 1) j)) = q then
        y (ix2 p (Cert.Spec.col (ir (ix2 (0 : Fin 1) j)))) * rt (ix2 p j) else 0)
      = ∑ j : Fin 1024, term0 Y Rt Ir Ip P q (j.val + 1024 * r) := by
  refine Finset.sum_congr rfl fun j _ => ?_
  have hJ : j.val + 1024 * r < 20480 := by have := j.isLt; omega
  rw [term0_of_lt Y Rt Ir Ip P q _ hJ, hipb j ⟨_, hJ⟩ rfl, hirb j ⟨_, hJ⟩ rfl, hrt j ⟨_, hJ⟩ rfl, hy]

/-- ONE POINT'S UPDATE at an entry: at a point of batch tile `b` and reaction tile `r` the body adds to the accumulator's
    entry (p, q) reaction tile `r`'s summands of row `512 b + p` into species `q`. -/
theorem step0 (c : Dev nD)
    (hir : ∀ j : Fin 20480, (V c main_v3 (ix2 (0 : Fin 1) j)).toNat < 2048) (hip : ∀ j : Fin 20480, (V c main_v5 (ix2 (0 : Fin 1) j)).toNat < 2048)
    (t : Fin cfg0.N) (b r : ℕ) (hb : t.val / 20 = b) (hr : t.val % 20 = r) (acc : Vec Ideal S512x2048 .f32)
    (p : Fin 512) (q : Fin 2048) (P : Fin 1024) (hP : P.val = 512 * b + p.val) :
    k0_pay2 (F := Ideal) (iblk0 V c 0 t) (iblk0 V c 2 t) (iblk0 V c 1 t) (iblk0 V c 3 t) acc (ix2 p q)
      = acc (ix2 p q) + ∑ j : Fin 1024, term0 (V c main_v0) (V c main_v1) (V c main_v3) (V c main_v5) P q (j.val + 1024 * r) := by
  have hr20 : r < 20 := by omega
  have hJ : ∀ j : Fin 1024, j.val + 1024 * r < 20480 := fun j => by have := j.isLt; omega
  refine (k0_pay2_apply (iblk0 V c 0 t) (iblk0 V c 2 t) (iblk0 V c 1 t) (iblk0 V c 3 t) acc
    (fun j => by rw [irblk_apply V c t r hr j ⟨_, hJ j⟩ rfl]; exact hir _)
    (fun j => by rw [ipblk_apply V c t r hr j ⟨_, hJ j⟩ rfl]; exact hip _) p q).trans ?_
  refine congrArg (fun s => acc (ix2 p q) + s) ?_
  exact tile_sum_eq (iblk0 V c 0 t) (iblk0 V c 2 t) (iblk0 V c 1 t) (iblk0 V c 3 t)
    (V c main_v0) (V c main_v1) (V c main_v3) (V c main_v5) p q P r hr20
    (fun k => yblk_apply V c t b hb p k P hP)
    (fun j J hJ' => rblk_apply V c t b r hb hr p j P J hP hJ')
    (fun j J hJ' => irblk_apply V c t r hr j J hJ')
    (fun j J hJ' => ipblk_apply V c t r hr j J hJ')

/-- THE ACCUMULATOR after point `20 b + r`, at (p, q): the reaction tiles `0 … r` of row `512 b + p` into species `q`. -/
theorem acc0_value (c : Dev nD)
    (hir : ∀ j : Fin 20480, (V c main_v3 (ix2 (0 : Fin 1) j)).toNat < 2048) (hip : ∀ j : Fin 20480, (V c main_v5 (ix2 (0 : Fin 1) j)).toNat < 2048)
    (b : ℕ) (p : Fin 512) (q : Fin 2048) (P : Fin 1024) (hP : P.val = 512 * b + p.val) :
    ∀ (r : ℕ) (_ : r < 20) (h : 20 * b + r < cfg0.N),
      (outsAt0 V c (20 * b + r) h).2 (ix2 p q)
        = ∑ s ∈ Finset.range (r + 1), ∑ j : Fin 1024, term0 (V c main_v0) (V c main_v1) (V c main_v3) (V c main_v5) P q (j.val + 1024 * s)
  | 0, _, h => by
    have e := acc0_first V c ⟨20 * b + 0, h⟩ (by show (20 * b + 0) % 20 = 0; omega)
    rw [Finset.sum_range_one]
    refine (congrFun e (ix2 p q)).trans ?_
    refine (step0 V c hir hip ⟨20 * b + 0, h⟩ b 0 (by show (20 * b + 0) / 20 = b; omega) (by show (20 * b + 0) % 20 = 0; omega)
      (k0_pay1 (F := Ideal)) p q P hP).trans ?_
    rw [k0_pay1_apply, zero_add]
  | r + 1, hr, h => by
    have e := acc0_next V c ⟨20 * b + (r + 1), h⟩ (by show (20 * b + (r + 1)) % 20 ≠ 0; omega)
    refine (congrFun e (ix2 p q)).trans ?_
    refine (step0 V c hir hip ⟨20 * b + (r + 1), h⟩ b (r + 1) (by show (20 * b + (r + 1)) / 20 = b; omega)
      (by show (20 * b + (r + 1)) % 20 = r + 1; omega) _ p q P hP).trans ?_
    rw [Finset.sum_range_succ _ (r + 1)]
    refine congrArg (fun s => s + ∑ j : Fin 1024, term0 (V c main_v0) (V c main_v1) (V c main_v3) (V c main_v5) P q (j.val + 1024 * (r + 1))) ?_
    rw [outsAt0_congr V c _ (20 * b + r) _ (by omega) (by show 20 * b + (r + 1) - 1 = 20 * b + r; omega)]
    exact acc0_value c hir hip b p q P hP r (by omega) (by omega)

/-! ## From the blocks to the array -/

/-- What the result array ends holding: the first-order sum, entry by entry. -/
abbrev G0 (c : Dev nD) : S1024x2048.Idx → EReal :=
  fun i => sum0 (V c main_v0) (V c main_v1) (V c main_v3) (V c main_v5) (i 0) (i 1)

/-- A BLOCK OF THE RESULT WINDOW read through its rectangle: contents `X` of the window's buffer at a point of batch tile
    `t / 20` are the block of an array `G` there as soon as entry (p, q) of `X` is entry (512 (t / 20) + p, q) of `G`. -/
theorem cut_eq_read_of_entries (t : Fin cfg0.N) (X : Vec Ideal S512x2048 .f32) (G : S1024x2048.Idx → EReal)
    (h : ∀ (p : Fin 512) (q : Fin 2048) (P : Fin 1024), P.val = 512 * (t.val / 20) + p.val → X (ix2 p q) = G (ix2 P q)) :
    (cfg0.win 4).cut (grid0.coords t) X = ((cfg0.win 4).blk t).view.read (Elt Ideal) G := by
  have hN : cfg0.N = 40 := N_0
  have ht : t.val < 40 := hN ▸ t.isLt
  funext y
  show X y = G (((cfg0.win 4).blk t).view.emb y)
  obtain ⟨p, q, rfl⟩ : ∃ (p : Fin 512) (q : Fin 2048), y = ix2 p q := ⟨y 0, y 1, eq_ix2 y⟩
  obtain ⟨-, -, -, -, -, -, -, -, e0, e1⟩ := idx_facts0 t
  have hP : 512 * (t.val / 20) + p.val < 1024 := by have := p.isLt; omega
  have hemb : ((cfg0.win 4).blk t).view.emb (ix2 p q) = (ix2 (⟨512 * (t.val / 20) + p.val, hP⟩ : Fin 1024) q : S1024x2048.Idx) := by
    funext a
    apply Fin.ext
    match a with
    | ⟨0, _⟩ => show win0_4.index t (0 : Fin 2) * 512 + 1 * p.val = 512 * (t.val / 20) + p.val; rw [e0]; omega
    | ⟨1, _⟩ => show win0_4.index t (1 : Fin 2) * 2048 + 1 * q.val = q.val; rw [e1]; omega
  rw [hemb]
  exact h p q ⟨512 * (t.val / 20) + p.val, hP⟩ rfl

/-- WHAT A WRITING POINT WRITES BACK is its block of `G0`: at reaction tile 19 the buffer is the accumulator, all 20 tiles. -/
theorem flushed0_eq (c : Dev nD)
    (hir : ∀ j : Fin 20480, (V c main_v3 (ix2 (0 : Fin 1) j)).toNat < 2048) (hip : ∀ j : Fin 20480, (V c main_v5 (ix2 (0 : Fin 1) j)).toNat < 2048)
    (t : Fin cfg0.N) (hf : (cfg0.win 4).flush t = true) :
    (dat0 V c).flushed 4 t = ((cfg0.win 4).blk t).view.read (Elt Ideal) (G0 V c) := by
  have h19 : t.val % 20 = 19 := (flush0_4 t).mp hf
  have hN : cfg0.N = 40 := N_0
  have ht : t.val < 40 := hN ▸ t.isLt
  show (cfg0.win 4).cut (grid0.coords t) ((dat0 V c).after 4 t) = _
  rw [after0_4, out0_last V c t h19]
  have hlt : 20 * (t.val / 20) + 19 < cfg0.N := Nat.lt_of_lt_of_eq (by omega) hN.symm
  refine cut_eq_read_of_entries t (outsAt0 V c t.val t.isLt).2 (G0 V c) fun p q P hP => ?_
  show _ = sum0 (V c main_v0) (V c main_v1) (V c main_v3) (V c main_v5) P q
  rw [← sum0_tiles, outsAt0_congr V c t.val (20 * (t.val / 20) + 19) t.isLt hlt (by omega)]
  exact acc0_value V c hir hip (t.val / 20) p q P hP 19 (by omega) hlt

/-- An entry of the array is in point `t`'s block iff each coordinate is in the block's range on its axis. -/
theorem mem_blk4 (t : Fin cfg0.N) (i : S1024x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v17).slice (win0_4.rect t)).set ↔ _
  rw [View.set_slice_whole, Rect.mem_set_unit]
  exact Iff.rfl

/-- THE COVER: row `i₀` is in the block the last point of batch tile `i₀ / 512` writes back. -/
theorem cover0 (i : S1024x2048.Idx) : ∃ t : Fin cfg0.N, (cfg0.win 4).flush t = true ∧ i ∈ ((cfg0.win 4).blk t).view.set := by
  have hN : cfg0.N = 40 := N_0
  have hi0 : (i 0).val < 1024 := (i 0).isLt
  have hi1 : (i 1).val < 2048 := (i 1).isLt
  have hlt : 20 * ((i 0).val / 512) + 19 < cfg0.N := by rw [hN]; omega
  refine ⟨⟨20 * ((i 0).val / 512) + 19, hlt⟩, (flush0_4 _).mpr (by show (20 * ((i 0).val / 512) + 19) % 20 = 19; omega), ?_⟩
  rw [mem_blk4]
  obtain ⟨-, -, -, -, -, -, -, -, e0, e1⟩ := idx_facts0 ⟨20 * ((i 0).val / 512) + 19, hlt⟩
  intro a
  match a with
  | ⟨0, _⟩ =>
    show win0_4.index ⟨20 * ((i 0).val / 512) + 19, hlt⟩ (0 : Fin 2) * 512 ≤ (i 0).val
      ∧ (i 0).val < win0_4.index ⟨20 * ((i 0).val / 512) + 19, hlt⟩ (0 : Fin 2) * 512 + 512
    rw [e0]; show (20 * ((i 0).val / 512) + 19) / 20 * 512 ≤ (i 0).val ∧ (i 0).val < (20 * ((i 0).val / 512) + 19) / 20 * 512 + 512
    omega
  | ⟨1, _⟩ =>
    show win0_4.index ⟨20 * ((i 0).val / 512) + 19, hlt⟩ (1 : Fin 2) * 2048 ≤ (i 1).val
      ∧ (i 1).val < win0_4.index ⟨20 * ((i 0).val / 512) + 19, hlt⟩ (1 : Fin 2) * 2048 + 2048
    rw [e1]; omega

/-- THE RESULT ARRAY when the region ends: the first-order sum of the arrays the region is entered with. -/
theorem final0 (c : Dev nD)
    (hir : ∀ j : Fin 20480, (V c main_v3 (ix2 (0 : Fin 1) j)).toNat < 2048) (hip : ∀ j : Fin 20480, (V c main_v5 (ix2 (0 : Fin 1) j)).toNat < 2048) :
    (dat0 (F := Ideal) V c).arrAt 4 cfg0.N = fun i => sum0 (V c main_v0) (V c main_v1) (V c main_v3) (V c main_v5) (i 0) (i 1) :=
  (dat0 V c).arrAt_eq_of_cover 4 (G0 V c) (fun t hf => flushed0_eq V c hir hip t hf) cover0

end Value

end Cert.KernelIdeal.Hand

end
-- ==== Proof.KI.R1Sum.lean ====
/-
  The second-order term over the padded reaction table (40448 reactions: the 40000 of the argument and 448 of padding),
  as ONE sum per batch row and species, and the same sum taken tile by tile: 79 reaction tiles of 512 reactions each
  (79 · 512 = 40448). Over the extended reals, where addition is commutative and associative, so the order in which the
  tiles are added does not matter.

  For a batch row P and a species q the sum runs over ALL reactions x, the summand switched off unless x's product is q:
  (abundance of x's first reactant) · (abundance of its second reactant) · (rate of x), all in row P.
-/
import proofs.«420563_j88390426951972_1_alg».proof.KernelIdeal
import proofs.«420563_j88390426951972_1_alg».proof.Proof.Spec
import proofs.«420563_j88390426951972_1_alg».proof.Proof.LibSumBlocks
import Idealize.ShloMosaic.Lib.ValueIdx

noncomputable section

namespace Cert.KernelIdeal.Hand

open Cert.KernelIdeal
open Idealize.ShloMosaic Idealize.ShloMosaic.ValueIdx
open scoped BigOperators

/-- The second-order term into species q, in batch row p, over the padded table: abundances Y [1024, 2048], rates Rt
    [1024, 40448], the two reactant rows Ia, Ib and the product row Ip [1, 40448] of species words. -/
def sum1 (Y : S1024x2048.Idx → EReal) (Rt : S1024x40448.Idx → EReal) (Ia Ib Ip : S1x40448.Idx → BitVec 32)
    (p : Fin 1024) (q : Fin 2048) : EReal :=
  ∑ j : Fin 40448, if Cert.Spec.col (Ip (ix2 (0 : Fin 1) j)) = q then
    Y (ix2 p (Cert.Spec.col (Ia (ix2 (0 : Fin 1) j)))) * Y (ix2 p (Cert.Spec.col (Ib (ix2 (0 : Fin 1) j)))) * Rt (ix2 p j) else 0

/-- Position x of the padded table, for every natural x: x itself when x < 40448, which is the only case used. -/
def rx (x : ℕ) : Fin 40448 := ⟨x % 40448, Nat.mod_lt _ (by norm_num)⟩

theorem rx_val_of_lt {x : ℕ} (h : x < 40448) : (rx x).val = x := Nat.mod_eq_of_lt h

theorem rx_val (x : Fin 40448) : rx x.val = x := Fin.ext (Nat.mod_eq_of_lt x.isLt)

/-- Reaction x's contribution to row P, species q. -/
def term1 (Y : S1024x2048.Idx → EReal) (Rt : S1024x40448.Idx → EReal) (Ia Ib Ip : S1x40448.Idx → BitVec 32)
    (P : Fin 1024) (q : Fin 2048) (x : ℕ) : EReal :=
  if Cert.Spec.col (Ip (ix2 (0 : Fin 1) (rx x))) = q then
    Y (ix2 P (Cert.Spec.col (Ia (ix2 (0 : Fin 1) (rx x))))) * Y (ix2 P (Cert.Spec.col (Ib (ix2 (0 : Fin 1) (rx x))))) * Rt (ix2 P (rx x)) else 0

/-- Reaction tile r's contribution to row P, species q: its 512 reactions, reaction j of the tile being reaction
    j + 512 · r of the table. -/
def tile1 (Y : S1024x2048.Idx → EReal) (Rt : S1024x40448.Idx → EReal) (Ia Ib Ip : S1x40448.Idx → BitVec 32)
    (P : Fin 1024) (q : Fin 2048) (r : ℕ) : EReal :=
  ∑ j : Fin 512, term1 Y Rt Ia Ib Ip P q (j.val + 512 * r)

/-- The sum, reaction by reaction. -/
theorem sum1_eq_terms (Y : S1024x2048.Idx → EReal) (Rt : S1024x40448.Idx → EReal) (Ia Ib Ip : S1x40448.Idx → BitVec 32)
    (P : Fin 1024) (q : Fin 2048) : sum1 Y Rt Ia Ib Ip P q = ∑ x : Fin 40448, term1 Y Rt Ia Ib Ip P q x.val := by
  unfold sum1 term1
  refine Finset.sum_congr rfl fun x _ => ?_
  rw [rx_val]

/-- The sum, tile by tile: the 79 tiles' contributions added. -/
theorem sum1_eq_tiles (Y : S1024x2048.Idx → EReal) (Rt : S1024x40448.Idx → EReal) (Ia Ib Ip : S1x40448.Idx → BitVec 32)
    (P : Fin 1024) (q : Fin 2048) : sum1 Y Rt Ia Ib Ip P q = ∑ r ∈ Finset.range 79, tile1 Y Rt Ia Ib Ip P q r := by
  rw [sum1_eq_terms, Finset.sum_range]
  unfold tile1
  exact (Cert.Lib.sum_blocks 79 512 (term1 Y Rt Ia Ib Ip P q)).symm

end Cert.KernelIdeal.Hand

end
-- ==== Proof.KI.R1Blocks.lean ====
/-
  Region 1's blocks as entries of the arrays. The grid point t is batch tile t / 79, reaction tile t % 79. The abundances',
  region 0's result's and the output's block at t is rows [512 (t / 79), 512 (t / 79) + 512) of a [1024, 2048] array; the
  rates' block is those rows and columns [512 (t % 79), 512 (t % 79) + 512) of the [1024, 40448] array; the three index
  rows' block is columns [512 (t % 79), 512 (t % 79) + 512) of a [1, 40448] array. An entry of a block is the array's entry
  at block index · block size + the coordinate inside the block, axis by axis.
-/
import proofs.«420563_j88390426951972_1_alg».proof.Proof.KI.R1Shared
import proofs.«420563_j88390426951972_1_alg».proof.Proof.KI.R1Sum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The printed index maps over the grid: each window's block index at point t, axis by axis. -/
theorem idx_facts1 : ∀ t : Fin cfg1.N,
    win1_0.index t (0 : Fin 2) = t.val / 79 ∧ win1_0.index t (1 : Fin 2) = 0
    ∧ win1_1.index t (0 : Fin 2) = t.val / 79 ∧ win1_1.index t (1 : Fin 2) = t.val % 79
    ∧ win1_2.index t (0 : Fin 2) = 0 ∧ win1_2.index t (1 : Fin 2) = t.val % 79
    ∧ win1_3.index t (0 : Fin 2) = 0 ∧ win1_3.index t (1 : Fin 2) = t.val % 79
    ∧ win1_4.index t (0 : Fin 2) = 0 ∧ win1_4.index t (1 : Fin 2) = t.val % 79
    ∧ win1_5.index t (0 : Fin 2) = t.val / 79 ∧ win1_5.index t (1 : Fin 2) = 0
    ∧ win1_6.index t (0 : Fin 2) = t.val / 79 ∧ win1_6.index t (1 : Fin 2) = 0 :=
  (by decide +kernel : ∀ t : Fin grid1.N, _)

/-- Row p of batch tile b, for every natural b: row 512 b + p when b < 2, which is the only case used. -/
def row1 (b : ℕ) (p : Fin 512) : Fin 1024 := ⟨(512 * b + p.val) % 1024, Nat.mod_lt _ (by norm_num)⟩

theorem row1_val_of_lt {b : ℕ} (h : b < 2) (p : Fin 512) : (row1 b p).val = 512 * b + p.val := by
  have := p.isLt
  show (512 * b + p.val) % 1024 = _
  omega

/-- The abundances' block at point t: rows of batch tile t / 79 of the array. -/
theorem iblk1_0_apply (c : Dev nD) (t : Fin cfg1.N) (p : Fin 512) (q : Fin 2048) :
    (iblk1 V c 0 t : Vec F S512x2048 .bf16) (ix2 p q) = (V c main_v0 : Vec F S1024x2048 .bf16) (ix2 (row1 (t.val / 79) p) q) := by
  obtain ⟨e0, e1, -⟩ := idx_facts1 t
  have hN : cfg1.N = 158 := N_1
  have ht := t.isLt
  unfold iblk1
  rw [View.read_apply]
  show (V c main_v0 : Vec F S1024x2048 .bf16) _ = V c main_v0 _
  congr 1
  funext a
  apply Fin.ext
  match a with
  | ⟨0, _⟩ =>
    show win1_0.index t (0 : Fin 2) * 512 + 1 * p.val = (row1 (t.val / 79) p).val
    rw [e0, row1_val_of_lt (by omega)]; omega
  | ⟨1, _⟩ =>
    show win1_0.index t (1 : Fin 2) * 2048 + 1 * q.val = q.val
    rw [e1]; omega

/-- The rates' block at point t: rows of batch tile t / 79, reactions of reaction tile t % 79. -/
theorem iblk1_1_apply (c : Dev nD) (t : Fin cfg1.N) (p : Fin 512) (j : Fin 512) :
    (iblk1 V c 1 t : Vec F S512x512 .f32) (ix2 p j)
      = (V c main_v6 : Vec F S1024x40448 .f32) (ix2 (row1 (t.val / 79) p) (rx (j.val + 512 * (t.val % 79)))) := by
  obtain ⟨-, -, e0, e1, -⟩ := idx_facts1 t
  have hN : cfg1.N = 158 := N_1
  have ht := t.isLt
  have hj := j.isLt
  unfold iblk1
  rw [View.read_apply]
  show (V c main_v6 : Vec F S1024x40448 .f32) _ = V c main_v6 _
  congr 1
  funext a
  apply Fin.ext
  match a with
  | ⟨0, _⟩ =>
    show win1_1.index t (0 : Fin 2) * 512 + 1 * p.val = (row1 (t.val / 79) p).val
    rw [e0, row1_val_of_lt (by omega)]; omega
  | ⟨1, _⟩ =>
    show win1_1.index t (1 : Fin 2) * 512 + 1 * j.val = (rx (j.val + 512 * (t.val % 79))).val
    rw [e1, rx_val_of_lt (by omega)]; omega

/-- The first reactants' block at point t: reactions of reaction tile t % 79. -/
theorem iblk1_2_apply (c : Dev nD) (t : Fin cfg1.N) (j : Fin 512) :
    (iblk1 V c 2 t : Vec F S1x512 .i32) (ix2 (0 : Fin 1) j)
      = (V c main_v10 : Vec F S1x40448 .i32) (ix2 (0 : Fin 1) (rx (j.val + 512 * (t.val % 79)))) := by
  obtain ⟨-, -, -, -, e0, e1, -⟩ := idx_facts1 t
  have hN : cfg1.N = 158 := N_1
  have ht := t.isLt
  have hj := j.isLt
  unfold iblk1
  rw [View.read_apply]
  show (V c main_v10 : Vec F S1x40448 .i32) _ = V c main_v10 _
  congr 1
  funext a
  apply Fin.ext
  match a with
  | ⟨0, _⟩ =>
    show win1_2.index t (0 : Fin 2) * 1 + 1 * 0 = 0
    rw [e0]
  | ⟨1, _⟩ =>
    show win1_2.index t (1 : Fin 2) * 512 + 1 * j.val = (rx (j.val + 512 * (t.val % 79))).val
    rw [e1, rx_val_of_lt (by omega)]; omega

/-- The second reactants' block at point t: reactions of reaction tile t % 79. -/
theorem iblk1_3_apply (c : Dev nD) (t : Fin cfg1.N) (j : Fin 512) :
    (iblk1 V c 3 t : Vec F S1x512 .i32) (ix2 (0 : Fin 1) j)
      = (V c main_v14 : Vec F S1x40448 .i32) (ix2 (0 : Fin 1) (rx (j.val + 512 * (t.val % 79)))) := by
  obtain ⟨-, -, -, -, -, -, e0, e1, -⟩ := idx_facts1 t
  have hN : cfg1.N = 158 := N_1
  have ht := t.isLt
  have hj := j.isLt
  unfold iblk1
  rw [View.read_apply]
  show (V c main_v14 : Vec F S1x40448 .i32) _ = V c main_v14 _
  congr 1
  funext a
  apply Fin.ext
  match a with
  | ⟨0, _⟩ =>
    show win1_3.index t (0 : Fin 2) * 1 + 1 * 0 = 0
    rw [e0]
  | ⟨1, _⟩ =>
    show win1_3.index t (1 : Fin 2) * 512 + 1 * j.val = (rx (j.val + 512 * (t.val % 79))).val
    rw [e1, rx_val_of_lt (by omega)]; omega

/-- The products' block at point t: reactions of reaction tile t % 79. -/
theorem iblk1_4_apply (c : Dev nD) (t : Fin cfg1.N) (j : Fin 512) :
    (iblk1 V c 4 t : Vec F S1x512 .i32) (ix2 (0 : Fin 1) j)
      = (V c main_v16 : Vec F S1x40448 .i32) (ix2 (0 : Fin 1) (rx (j.val + 512 * (t.val % 79)))) := by
  obtain ⟨-, -, -, -, -, -, -, -, e0, e1, -⟩ := idx_facts1 t
  have hN : cfg1.N = 158 := N_1
  have ht := t.isLt
  have hj := j.isLt
  unfold iblk1
  rw [View.read_apply]
  show (V c main_v16 : Vec F S1x40448 .i32) _ = V c main_v16 _
  congr 1
  funext a
  apply Fin.ext
  match a with
  | ⟨0, _⟩ =>
    show win1_4.index t (0 : Fin 2) * 1 + 1 * 0 = 0
    rw [e0]
  | ⟨1, _⟩ =>
    show win1_4.index t (1 : Fin 2) * 512 + 1 * j.val = (rx (j.val + 512 * (t.val % 79))).val
    rw [e1, rx_val_of_lt (by omega)]; omega

/-- Region 0's result's block at point t: rows of batch tile t / 79 of the array. -/
theorem iblk1_5_apply (c : Dev nD) (t : Fin cfg1.N) (p : Fin 512) (q : Fin 2048) :
    (iblk1 V c 5 t : Vec F S512x2048 .f32) (ix2 p q) = (V c main_v17 : Vec F S1024x2048 .f32) (ix2 (row1 (t.val / 79) p) q) := by
  obtain ⟨-, -, -, -, -, -, -, -, -, -, e0, e1, -⟩ := idx_facts1 t
  have hN : cfg1.N = 158 := N_1
  have ht := t.isLt
  unfold iblk1
  rw [View.read_apply]
  show (V c main_v17 : Vec F S1024x2048 .f32) _ = V c main_v17 _
  congr 1
  funext a
  apply Fin.ext
  match a with
  | ⟨0, _⟩ =>
    show win1_5.index t (0 : Fin 2) * 512 + 1 * p.val = (row1 (t.val / 79) p).val
    rw [e0, row1_val_of_lt (by omega)]; omega
  | ⟨1, _⟩ =>
    show win1_5.index t (1 : Fin 2) * 2048 + 1 * q.val = q.val
    rw [e1]; omega

/-- The output's block at point t, read off any contents G of the output array: rows of batch tile t / 79 of G. -/
theorem oblk1_6_apply (t : Fin cfg1.N) (G : Vec F S1024x2048 .f32) (p : Fin 512) (q : Fin 2048) :
    (((cfg1.win 6).blk t).view.read (Elt F) G : Vec F S512x2048 .f32) (ix2 p q) = G (ix2 (row1 (t.val / 79) p) q) := by
  obtain ⟨-, -, -, -, -, -, -, -, -, -, -, -, e0, e1⟩ := idx_facts1 t
  have hN : cfg1.N = 158 := N_1
  have ht := t.isLt
  rw [View.read_apply]
  show G _ = G _
  congr 1
  funext a
  apply Fin.ext
  match a with
  | ⟨0, _⟩ =>
    show win1_6.index t (0 : Fin 2) * 512 + 1 * p.val = (row1 (t.val / 79) p).val
    rw [e0, row1_val_of_lt (by omega)]; omega
  | ⟨1, _⟩ =>
    show win1_6.index t (1 : Fin 2) * 2048 + 1 * q.val = q.val
    rw [e1]; omega

/-- An entry of the output array lies in point t's block exactly when each coordinate lies in the block's range. -/
theorem mem_blk1_6 (t : Fin cfg1.N) (i : S1024x2048.Idx) :
    i ∈ ((cfg1.win 6).blk t).view.set ↔ ∀ a : Fin 2, win1_6.index t a * S512x2048.size a ≤ (i a).val
      ∧ (i a).val < win1_6.index t a * S512x2048.size a + S512x2048.size a := by
  show i ∈ ((View.whole main_v18).slice (win1_6.rect t)).set ↔ _
  rw [View.set_slice_whole, Rect.mem_set_unit]
  exact Iff.rfl

/-- Every entry of the output array lies in the block of a point that writes it back: row i lies in batch tile
    i / 512, whose last reaction tile's point is 79 (i / 512) + 78. -/
theorem cover1_6 (i : S1024x2048.Idx) :
    ∃ t : Fin cfg1.N, (cfg1.win 6).flush t = true ∧ i ∈ ((cfg1.win 6).blk t).view.set := by
  have hi0 : (i 0).val < 1024 := idx2_lt0 i
  have hi1 : (i 1).val < 2048 := idx2_lt1 i
  have hN : cfg1.N = 158 := N_1
  have hlt : 79 * ((i 0).val / 512) + 78 < cfg1.N := by rw [hN]; omega
  refine ⟨⟨79 * ((i 0).val / 512) + 78, hlt⟩, (flush1_6 _).mpr (by show (79 * ((i 0).val / 512) + 78) % 79 = 78; omega), ?_⟩
  rw [mem_blk1_6]
  obtain ⟨-, -, -, -, -, -, -, -, -, -, -, -, e0, e1⟩ := idx_facts1 ⟨79 * ((i 0).val / 512) + 78, hlt⟩
  intro a
  match a with
  | ⟨0, _⟩ =>
    show win1_6.index ⟨79 * ((i 0).val / 512) + 78, hlt⟩ (0 : Fin 2) * 512 ≤ (i 0).val
      ∧ (i 0).val < win1_6.index ⟨79 * ((i 0).val / 512) + 78, hlt⟩ (0 : Fin 2) * 512 + 512
    rw [e0]
    show (79 * ((i 0).val / 512) + 78) / 79 * 512 ≤ (i 0).val ∧ (i 0).val < (79 * ((i 0).val / 512) + 78) / 79 * 512 + 512
    omega
  | ⟨1, _⟩ =>
    show win1_6.index ⟨79 * ((i 0).val / 512) + 78, hlt⟩ (1 : Fin 2) * 2048 ≤ (i 1).val
      ∧ (i 1).val < win1_6.index ⟨79 * ((i 0).val / 512) + 78, hlt⟩ (1 : Fin 2) * 2048 + 2048
    rw [e1]; omega

end Cert.KernelIdeal.Hand

end
-- ==== Proof.KI.R1Value.lean ====
/-
  What region 1 leaves in its output array: entry (i, q) is region 0's result there plus the second-order term of batch
  row i into species q, summed over the whole padded reaction table.

  Fix a batch tile. Its 79 points run the body once each over one reaction tile. The scratch accumulator is set at the
  tile's first point to region 0's block with the first reaction tile's contribution added, and every later point adds
  its own reaction tile's contribution; so after the point of reaction tile r the scratch holds, at (p, q), region 0's
  entry in row 512 · (batch tile) + p plus the contributions of reaction tiles 0, …, r. One run of the body adds, at
  (p, q), the sum over the tile's 512 reactions whose product is q of (first reactant's abundance) · (second reactant's
  abundance) · rate in that row — the payload at an entry, with each input block read as entries of its array. At the
  last reaction tile the output's staging buffer is the scratch and is written back to the batch tile's rows; the two
  batch tiles' blocks cover the array, and the 79 tiles of 512 reactions are the table's 40448 reactions.
-/
import proofs.«420563_j88390426951972_1_alg».proof.Proof.KI.R1Frame
import proofs.«420563_j88390426951972_1_alg».proof.Proof.KI.R1Blocks
import proofs.«420563_j88390426951972_1_alg».proof.Proof.KI.PayValue
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered, at the ideal instance: arbitrary
variable (V : (c : Dev nD) → (b : Ref sig .tc) → Buf (Elt Ideal) ((c : Thread nD τ).loc b))

/-- Region 0's result as the region finds it, at its literal type (so that its entries can be added to). -/
abbrev r0Arr (c : Dev nD) : S1024x2048.Idx → EReal := V c main_v17

/-- One run of the body at point t over an accumulator: entry (p, q) gains reaction tile t % 79's contribution to
    row p of batch tile t / 79. -/
theorem step1_apply (c : Dev nD)
    (hia : ∀ j : Fin 40448, (V c main_v10 (ix2 (0 : Fin 1) j)).toNat < 2048)
    (hib : ∀ j : Fin 40448, (V c main_v14 (ix2 (0 : Fin 1) j)).toNat < 2048)
    (hip : ∀ j : Fin 40448, (V c main_v16 (ix2 (0 : Fin 1) j)).toNat < 2048)
    (t : Fin cfg1.N) (acc : Vec Ideal S512x2048 .f32) (p : Fin 512) (q : Fin 2048) :
    k1_pay1 (F := Ideal) (k1_pay3 (F := Ideal) (iblk1 V c 0 t) (iblk1 V c 2 t) (iblk1 V c 3 t) (iblk1 V c 1 t) (iblk1 V c 4 t)) acc (ix2 p q)
      = acc (ix2 p q) + tile1 (V c main_v0) (V c main_v6) (V c main_v10) (V c main_v14) (V c main_v16) (row1 (t.val / 79) p) q (t.val % 79) := by
  refine (k1_pay13_apply (iblk1 V c 0 t) (iblk1 V c 2 t) (iblk1 V c 3 t) (iblk1 V c 1 t) (iblk1 V c 4 t) acc
    (fun j => by rw [iblk1_2_apply]; exact hia _) (fun j => by rw [iblk1_3_apply]; exact hib _)
    (fun j => by rw [iblk1_4_apply]; exact hip _) p q).trans ?_
  congr 1
  unfold tile1 term1
  refine Finset.sum_congr rfl fun j _ => ?_
  rw [iblk1_4_apply, iblk1_2_apply, iblk1_3_apply, iblk1_1_apply, iblk1_0_apply, iblk1_0_apply]

/-- The scratch after a batch tile's first point: the body run over region 0's block. -/
abbrev reset1 (c : Dev nD) (n : ℕ) (h : n < cfg1.N) : Vec Ideal S512x2048 .f32 :=
  k1_pay1 (F := Ideal) (k1_pay3 (F := Ideal) (iblk1 V c 0 ⟨n, h⟩) (iblk1 V c 2 ⟨n, h⟩) (iblk1 V c 3 ⟨n, h⟩) (iblk1 V c 1 ⟨n, h⟩) (iblk1 V c 4 ⟨n, h⟩))
    (k1_pay2 (F := Ideal) (iblk1 V c 5 ⟨n, h⟩))

/-- The scratch after any later point: the body run over what the point before left. -/
abbrev next1 (c : Dev nD) (n : ℕ) (h : n < cfg1.N) (acc : Vec Ideal S512x2048 .f32) : Vec Ideal S512x2048 .f32 :=
  k1_pay1 (F := Ideal) (k1_pay3 (F := Ideal) (iblk1 V c 0 ⟨n, h⟩) (iblk1 V c 2 ⟨n, h⟩) (iblk1 V c 3 ⟨n, h⟩) (iblk1 V c 1 ⟨n, h⟩) (iblk1 V c 4 ⟨n, h⟩)) acc

/-- The scratch after point t is the fold over the points of t's batch tile up to t. -/
theorem scratch1_fold (c : Dev nD) (t : Fin cfg1.N) (h' : 79 * (t.val / 79) + t.val % 79 < cfg1.N) :
    (outsAt1 V c t.val t.isLt).2 = Pipeline.accAt (reset1 V c) (next1 V c) (79 * (t.val / 79)) (t.val % 79) h' :=
  Pipeline.eq_accAt_of_mod (fun n h => (outsAt1 V c n h).2) 79 (reset1 V c) (next1 V c)
    (fun n h hn => acc1_first V c ⟨n, h⟩ hn)
    (fun n h hn => acc1_next V c ⟨n + 1, h⟩ hn)
    (by norm_num) t.val t.isLt h'

/-- The scratch after point t, entry by entry: region 0's result in row p of t's batch tile, plus the contributions
    of the reaction tiles 0, …, t % 79. -/
theorem scratch1_apply (c : Dev nD)
    (hia : ∀ j : Fin 40448, (V c main_v10 (ix2 (0 : Fin 1) j)).toNat < 2048)
    (hib : ∀ j : Fin 40448, (V c main_v14 (ix2 (0 : Fin 1) j)).toNat < 2048)
    (hip : ∀ j : Fin 40448, (V c main_v16 (ix2 (0 : Fin 1) j)).toNat < 2048)
    (t : Fin cfg1.N) (p : Fin 512) (q : Fin 2048) :
    (outsAt1 V c t.val t.isLt).2 (ix2 p q)
      = r0Arr V c (ix2 (row1 (t.val / 79) p) q)
        + ∑ s ∈ Finset.range (t.val % 79 + 1), tile1 (V c main_v0) (V c main_v6) (V c main_v10) (V c main_v14) (V c main_v16) (row1 (t.val / 79) p) q s := by
  have hN : cfg1.N = 158 := N_1
  have ht := t.isLt
  have h' : 79 * (t.val / 79) + t.val % 79 < cfg1.N := by rw [Nat.div_add_mod]; exact t.isLt
  rw [scratch1_fold V c t h']
  have key := Pipeline.accAt_add_apply (ι := S512x2048.Idx) (β := EReal) (reset1 V c) (next1 V c)
    (fun i => r0Arr V c (ix2 (row1 (t.val / 79) ⟨(i 0).val, idx2_lt0 i⟩) ⟨(i 1).val, idx2_lt1 i⟩))
    (fun n i => tile1 (V c main_v0) (V c main_v6) (V c main_v10) (V c main_v14) (V c main_v16) (row1 (n / 79) ⟨(i 0).val, idx2_lt0 i⟩) ⟨(i 1).val, idx2_lt1 i⟩ (n % 79))
    (79 * (t.val / 79)) 78
    (fun h i => by
      obtain ⟨p', q', rfl⟩ : ∃ (p' : Fin 512) (q' : Fin 2048), i = ix2 p' q' := ⟨i 0, i 1, eq_ix2 i⟩
      refine (step1_apply V c hia hib hip ⟨79 * (t.val / 79), h⟩ (k1_pay2 (F := Ideal) (iblk1 V c 5 ⟨79 * (t.val / 79), h⟩)) p' q').trans ?_
      rw [k1_pay2_eq, iblk1_5_apply]
      show _ + tile1 _ _ _ _ _ (row1 (79 * (t.val / 79) / 79) p') q' _ = _ + tile1 _ _ _ _ _ (row1 (79 * (t.val / 79) / 79) p') q' _
      rw [Nat.mul_div_cancel_left _ (by norm_num : 0 < 79)])
    (fun n h acc i _ _ => by
      obtain ⟨p', q', rfl⟩ : ∃ (p' : Fin 512) (q' : Fin 2048), i = ix2 p' q' := ⟨i 0, i 1, eq_ix2 i⟩
      exact step1_apply V c hia hib hip ⟨n, h⟩ acc p' q')
    (t.val % 79) (by omega) h' (ix2 p q)
  refine key.trans ?_
  congr 1
  refine Finset.sum_congr rfl fun s hs => ?_
  have hs' : s < 79 := by have := Finset.mem_range.mp hs; omega
  show tile1 _ _ _ _ _ (row1 ((79 * (t.val / 79) + s) / 79) p) q ((79 * (t.val / 79) + s) % 79) = _
  rw [show (79 * (t.val / 79) + s) / 79 = t.val / 79 by omega, show (79 * (t.val / 79) + s) % 79 = s by omega]

/-- What the output array ends holding: region 0's result plus the second-order term, entry by entry. -/
def G1 (c : Dev nD) : Vec Ideal S1024x2048 .f32 :=
  fun i => r0Arr V c i + sum1 (V c main_v0) (V c main_v6) (V c main_v10) (V c main_v14) (V c main_v16) (i 0) (i 1)

/-- What a point that writes back writes: its block of that array. -/
theorem flushed1_eq (c : Dev nD)
    (hia : ∀ j : Fin 40448, (V c main_v10 (ix2 (0 : Fin 1) j)).toNat < 2048)
    (hib : ∀ j : Fin 40448, (V c main_v14 (ix2 (0 : Fin 1) j)).toNat < 2048)
    (hip : ∀ j : Fin 40448, (V c main_v16 (ix2 (0 : Fin 1) j)).toNat < 2048)
    (t : Fin cfg1.N) (hf : (cfg1.win 6).flush t = true) :
    (dat1 (F := Ideal) V c).flushed 6 t = ((cfg1.win 6).blk t).view.read (Elt Ideal) (G1 V c) := by
  have h78 : t.val % 79 = 78 := (flush1_6 t).mp hf
  show (cfg1.win 6).cut (cfg1.grid.coords t) ((dat1 (F := Ideal) V c).after 6 t) = _
  rw [after1_6, out1_last V c t h78]
  funext y
  obtain ⟨p, q, rfl⟩ : ∃ (p : Fin 512) (q : Fin 2048), y = ix2 p q := ⟨y 0, y 1, eq_ix2 y⟩
  show (outsAt1 V c t.val t.isLt).2 (ix2 p q) = (((cfg1.win 6).blk t).view.read (Elt Ideal) (G1 V c) : Vec Ideal S512x2048 .f32) (ix2 p q)
  rw [oblk1_6_apply, scratch1_apply V c hia hib hip t p q, h78]
  unfold G1
  rw [sum1_eq_tiles]

/-- The output array after the region: region 0's result plus the second-order term over the padded table. -/
theorem final1 (c : Dev nD)
    (hia : ∀ j : Fin 40448, (V c main_v10 (ix2 (0 : Fin 1) j)).toNat < 2048)
    (hib : ∀ j : Fin 40448, (V c main_v14 (ix2 (0 : Fin 1) j)).toNat < 2048)
    (hip : ∀ j : Fin 40448, (V c main_v16 (ix2 (0 : Fin 1) j)).toNat < 2048) :
    (dat1 (F := Ideal) V c).arrAt 6 cfg1.N
      = fun i => r0Arr V c i + sum1 (V c main_v0) (V c main_v6) (V c main_v10) (V c main_v14) (V c main_v16) (i 0) (i 1) :=
  (dat1 (F := Ideal) V c).arrAt_eq_of_cover 6 (G1 V c) (flushed1_eq V c hia hib hip) cover1_6

end Cert.KernelIdeal.Hand

end
-- ==== Proof.KI.HostValue.lean ====
/-
  What @main's host operations leave, entry by entry at the ideal instance, in the buffers the two kernel regions
  read: the abundances narrowed to bf16 (the identity on extended reals), the two rate matrices padded with zero
  columns up to a whole number of reaction tiles, and the five index vectors — the second-order reactants cut out of
  the two columns of the index pairs — padded with the index zero and laid out as one row.
-/
import proofs.«420563_j88390426951972_1_alg».proof.Proof.Gen.KernelIdeal.Regions
import Idealize.ShloMosaic.Lib.ValueLayout
import Idealize.ShloMosaic.Lib.KernelVsHost

noncomputable section

namespace Cert.KernelIdeal.Hand

open Idealize.ShloMosaic Idealize.ShloMosaic.TcCoe
open Cert.KernelIdeal Cert.KernelIdeal.Gen
open Idealize.ShloMosaic.ValueIdx

variable (m : (ℓ : Loc nD τ sig) → Buf (Elt Ideal) ℓ) (c : Dev nD)

/-! ## The host's layout operations read at an index -/

section Layout
variable {α : Type}

/-- A matrix padded behind its columns reads the matrix inside it and the padding value behind it. -/
theorem pad_cols_apply {n0 n1 N hi : Nat} (x : (⟨2, ![n0, n1]⟩ : Shape).Idx → α) {u : Shape} (v : u.Idx → α)
    (h : (⟨2, ![n0, n1]⟩ : Shape).Pads (![0, 0] : Fin 2 → Nat) ![0, hi] ![0, 0] ⟨2, ![n0, N]⟩) (hu : 0 < u.numel)
    (p : Fin n0) (j : Fin N) :
    pad ⟨2, ![n0, N]⟩ ![0, 0] ![0, hi] ![0, 0] x v h hu (ix2 p j)
      = if hj : j.val < n1 then x (ix2 p ⟨j.val, hj⟩) else v (Shape.Idx.first hu) := by
  by_cases hj : j.val < n1
  · rw [dif_pos hj]
    exact pad_apply_of_inside _ _ _ x v h hu _ (ix2 p ⟨j.val, hj⟩) (fun a => by
      match a with
      | ⟨0, _⟩ => show p.val = 0 + p.val * (0 + 1); omega
      | ⟨1, _⟩ => show j.val = 0 + j.val * (0 + 1); omega)
  · rw [dif_neg hj]
    exact pad_apply_of_not_inside _ _ _ x v h hu _ (1 : Fin 2) (by
      show ¬(0 ≤ j.val ∧ (j.val - 0) % (0 + 1) = 0 ∧ (j.val - 0) / (0 + 1) < n1)
      omega)

/-- A vector padded behind reads the vector inside it and the padding value behind it. -/
theorem pad_vec_apply {n N hi : Nat} (x : (⟨1, ![n]⟩ : Shape).Idx → α) {u : Shape} (v : u.Idx → α)
    (h : (⟨1, ![n]⟩ : Shape).Pads (![0] : Fin 1 → Nat) ![hi] ![0] ⟨1, ![N]⟩) (hu : 0 < u.numel) (j : Fin N) :
    pad ⟨1, ![N]⟩ ![0] ![hi] ![0] x v h hu (ix1 j)
      = if hj : j.val < n then x (ix1 ⟨j.val, hj⟩) else v (Shape.Idx.first hu) := by
  by_cases hj : j.val < n
  · rw [dif_pos hj]
    exact pad_apply_of_inside _ _ _ x v h hu _ (ix1 ⟨j.val, hj⟩) (fun a => by
      match a with
      | ⟨0, _⟩ => show j.val = 0 + j.val * (0 + 1); omega)
  · rw [dif_neg hj]
    exact pad_apply_of_not_inside _ _ _ x v h hu _ (0 : Fin 1) (by
      show ¬(0 ≤ j.val ∧ (j.val - 0) % (0 + 1) = 0 ∧ (j.val - 0) / (0 + 1) < n)
      omega)

/-- A one-column matrix cast to a vector reads, at `i`, the matrix at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Layout

/-! ## The abundances -/

/-- The abundances the regions read are the launch abundances: the narrowing to bf16 is the identity on extended reals. -/
theorem V15_abund (i : S1024x2048.Idx) :
    V15 m c main_v0 i = m ((c : Thread nD τ).loc main_arg0) i := by
  rw [V15_of m c main_v0 (by decide), V14_of m c main_v0 (by decide), V13_of m c main_v0 (by decide),
    V12_of m c main_v0 (by decide), V11_of m c main_v0 (by decide), V10_of m c main_v0 (by decide),
    V9_of m c main_v0 (by decide), V8_of m c main_v0 (by decide), V7_of m c main_v0 (by decide),
    V6_of m c main_v0 (by decide), V5_of m c main_v0 (by decide), V4_of m c main_v0 (by decide),
    V3_of m c main_v0 (by decide), V2_of m c main_v0 (by decide)]
  have e : (V1 m c main_v0 : S1024x2048.Idx → EReal) = m ((c : Thread nD τ).loc main_arg0) := by
    show StableHlo.after hostOps0 (V0 m c) (Proc.devRef .tc main_v0) = _
    after_results
    rfl
  exact congrFun e i

/-! ## The padding constants

Each padding value is the integer zero, written by a constant just before the padding that reads it. -/

theorem V1_zero : (V1 m c main_c : S_.Idx → BitVec 32) = constantI S_ 32 0#32 := by
  show StableHlo.after hostOps0 (V0 m c) (Proc.devRef .tc main_c) = _
  generalize V0 m c = W
  after_results

theorem V3_zero : (V3 m c main_c_0 : S_.Idx → BitVec 32) = constantI S_ 32 0#32 := by
  show StableHlo.after hostOps0_2 (V2 m c) (Proc.devRef .tc main_c_0) = _
  generalize V2 m c = W
  after_results

theorem V5_zero : (V5 m c main_c_1 : S_.Idx → BitVec 32) = constantI S_ 32 0#32 := by
  show StableHlo.after hostOps0_4 (V4 m c) (Proc.devRef .tc main_c_1) = _
  generalize V4 m c = W
  after_results

/-! ## The arguments, still as launched when the host operations read them -/

theorem V1_arg1 : V1 m c main_arg1 = m ((c : Thread nD τ).loc main_arg1) :=
  (V1_of m c main_arg1 (by decide)).trans <| rfl
theorem V3_arg3 : V3 m c main_arg3 = m ((c : Thread nD τ).loc main_arg3) :=
  (V3_of m c main_arg3 (by decide)).trans <| (V2_of m c main_arg3 (by decide)).trans <| (V1_of m c main_arg3 (by decide)).trans <| rfl
theorem V5_arg4 : V5 m c main_arg4 = m ((c : Thread nD τ).loc main_arg4) :=
  (V5_of m c main_arg4 (by decide)).trans <| (V4_of m c main_arg4 (by decide)).trans <| (V3_of m c main_arg4 (by decide)).trans <| (V2_of m c main_arg4 (by decide)).trans <| (V1_of m c main_arg4 (by decide)).trans <| rfl

/-! ## The first-order rates: padded with zero columns -/

/-- The padding writes the launch rates inside the first 20000 columns and the converted padding constant behind. -/
theorem V2_rates1_pad (p : Fin 1024) (j : Fin 20480) :
    V2 m c main_v1 (ix2 p j)
      = if h : j.val < 20000 then V1 m c main_arg1 (ix2 p ⟨j.val, h⟩)
        else (sitofp (F := Ideal) .f32 (V1 m c main_c) : FVec Ideal S_ .f32) (Shape.Idx.first h_S_) := by
  show StableHlo.after hostOps0_1 (V1 m c) (Proc.devRef .tc main_v1) (ix2 p j) = _
  generalize V1 m c = W
  after_results
  exact pad_cols_apply (hi := 480) _ _ pads_S1024x20000_S1024x20480_000_04800 h_S_ p j

/-- The first-order rates the first region reads: the launch rates, then zeros. -/
theorem V15_rates1 (p : Fin 1024) (j : Fin 20480) :
    V15 m c main_v1 (ix2 p j)
      = if h : j.val < 20000 then m ((c : Thread nD τ).loc main_arg1) (ix2 p ⟨j.val, h⟩) else (0 : EReal) := by
  rw [V15_of m c main_v1 (by decide), V14_of m c main_v1 (by decide), V13_of m c main_v1 (by decide),
    V12_of m c main_v1 (by decide), V11_of m c main_v1 (by decide), V10_of m c main_v1 (by decide),
    V9_of m c main_v1 (by decide), V8_of m c main_v1 (by decide), V7_of m c main_v1 (by decide),
    V6_of m c main_v1 (by decide), V5_of m c main_v1 (by decide), V4_of m c main_v1 (by decide),
    V3_of m c main_v1 (by decide),
    V2_rates1_pad m c p j, V1_zero m c, V1_arg1 m c]
  by_cases h : j.val < 20000
  · rw [dif_pos h, dif_pos h]
  · rw [dif_neg h, dif_neg h]
    exact sitofp_zero (φ := .f32)

/-! ## The first-order reactant indices: padded with zeros, laid out as one row -/

theorem V4_react1_pad (j : Fin 20480) :
    V4 m c main_v2 (ix1 j)
      = if h : j.val < 20000 then V3 m c main_arg3 (ix1 ⟨j.val, h⟩) else V3 m c main_c_0 (Shape.Idx.first h_S_) := by
  show StableHlo.after hostOps0_3 (V3 m c) (Proc.devRef .tc main_v2) (ix1 j) = _
  generalize V3 m c = W
  after_results
  exact pad_vec_apply (hi := 480) _ _ pads_S20000_S20480_04800 h_S_ j

theorem V5_react1_row (j : Fin 20480) : V5 m c main_v3 (ix2 (0 : Fin 1) j) = V4 m c main_v2 (ix1 j) := by
  show StableHlo.after hostOps0_4 (V4 m c) (Proc.devRef .tc main_v3) (ix2 (0 : Fin 1) j) = _
  generalize V4 m c = W
  after_results
  exact shapeCast_a_1a_apply _ shapeCasts_S20480_S1x20480 0 j

/-- The first-order reactant indices the first region reads: the launch indices, then zeros. -/
theorem V15_react1 (j : Fin 20480) :
    V15 m c main_v3 (ix2 (0 : Fin 1) j)
      = if h : j.val < 20000 then m ((c : Thread nD τ).loc main_arg3) (ix1 ⟨j.val, h⟩) else 0#32 := by
  rw [V15_of m c main_v3 (by decide), V14_of m c main_v3 (by decide), V13_of m c main_v3 (by decide),
    V12_of m c main_v3 (by decide), V11_of m c main_v3 (by decide), V10_of m c main_v3 (by decide),
    V9_of m c main_v3 (by decide), V8_of m c main_v3 (by decide), V7_of m c main_v3 (by decide),
    V6_of m c main_v3 (by decide),
    V5_react1_row m c j, V4_react1_pad m c j, V3_zero m c, V3_arg3 m c]
  rfl

/-! ## The first-order product indices: padded with zeros, laid out as one row -/

theorem V6_prod1_pad (j : Fin 20480) :
    V6 m c main_v4 (ix1 j)
      = if h : j.val < 20000 then V5 m c main_arg4 (ix1 ⟨j.val, h⟩) else V5 m c main_c_1 (Shape.Idx.first h_S_) := by
  show StableHlo.after hostOps0_5 (V5 m c) (Proc.devRef .tc main_v4) (ix1 j) = _
  generalize V5 m c = W
  after_results
  exact pad_vec_apply (hi := 480) _ _ pads_S20000_S20480_04800 h_S_ j

theorem V7_prod1_row (j : Fin 20480) : V7 m c main_v5 (ix2 (0 : Fin 1) j) = V6 m c main_v4 (ix1 j) := by
  show StableHlo.after hostOps0_6 (V6 m c) (Proc.devRef .tc main_v5) (ix2 (0 : Fin 1) j) = _
  generalize V6 m c = W
  after_results
  exact shapeCast_a_1a_apply _ shapeCasts_S20480_S1x20480 0 j

/-- The first-order product indices the first region reads: the launch indices, then zeros. -/
theorem V15_prod1 (j : Fin 20480) :
    V15 m c main_v5 (ix2 (0 : Fin 1) j)
      = if h : j.val < 20000 then m ((c : Thread nD τ).loc main_arg4) (ix1 ⟨j.val, h⟩) else 0#32 := by
  rw [V15_of m c main_v5 (by decide), V14_of m c main_v5 (by decide), V13_of m c main_v5 (by decide),
    V12_of m c main_v5 (by decide), V11_of m c main_v5 (by decide), V10_of m c main_v5 (by decide),
    V9_of m c main_v5 (by decide), V8_of m c main_v5 (by decide),
    V7_prod1_row m c j, V6_prod1_pad m c j, V5_zero m c, V5_arg4 m c]
  rfl

/-! ## The second-order buffers -/

theorem V7_zero : (V7 m c main_c_2 : S_.Idx → BitVec 32) = constantI S_ 32 0#32 := by
  show StableHlo.after hostOps0_6 (V6 m c) (Proc.devRef .tc main_c_2) = _
  generalize V6 m c = W
  after_results

theorem V9_zero : (V9 m c main_c_3 : S_.Idx → BitVec 32) = constantI S_ 32 0#32 := by
  show StableHlo.after hostOps0_8 (V8 m c) (Proc.devRef .tc main_c_3) = _
  generalize V8 m c = W
  after_results

theorem V11_zero : (V11 m c main_c_4 : S_.Idx → BitVec 32) = constantI S_ 32 0#32 := by
  show StableHlo.after hostOps0_10 (V10 m c) (Proc.devRef .tc main_c_4) = _
  generalize V10 m c = W
  after_results

theorem V13_zero : (V13 m c main_c_5 : S_.Idx → BitVec 32) = constantI S_ 32 0#32 := by
  show StableHlo.after hostOps0_12 (V12 m c) (Proc.devRef .tc main_c_5) = _
  generalize V12 m c = W
  after_results

theorem V7_arg2 : V7 m c main_arg2 = m ((c : Thread nD τ).loc main_arg2) :=
  (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl
theorem V8_arg5 : V8 m c main_arg5 = m ((c : Thread nD τ).loc main_arg5) :=
  (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl
theorem V10_arg5 : V10 m c main_arg5 = m ((c : Thread nD τ).loc main_arg5) :=
  (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl
theorem V13_arg6 : V13 m c main_arg6 = m ((c : Thread nD τ).loc main_arg6) :=
  (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl

/-! ## The second-order rates: padded with zero columns -/

/-- The padding writes the launch rates inside the first 40000 columns and the converted padding constant behind. -/
theorem V8_rates2_pad (p : Fin 1024) (j : Fin 40448) :
    V8 m c main_v6 (ix2 p j)
      = if h : j.val < 40000 then V7 m c main_arg2 (ix2 p ⟨j.val, h⟩)
        else (sitofp (F := Ideal) .f32 (V7 m c main_c_2) : FVec Ideal S_ .f32) (Shape.Idx.first h_S_) := by
  show StableHlo.after hostOps0_7 (V7 m c) (Proc.devRef .tc main_v6) (ix2 p j) = _
  generalize V7 m c = W
  after_results
  exact pad_cols_apply (hi := 448) _ _ pads_S1024x40000_S1024x40448_000_04480 h_S_ p j

/-- The second-order rates the second region reads: the launch rates, then zeros. -/
theorem V15_rates2 (p : Fin 1024) (j : Fin 40448) :
    V15 m c main_v6 (ix2 p j)
      = if h : j.val < 40000 then m ((c : Thread nD τ).loc main_arg2) (ix2 p ⟨j.val, h⟩) else (0 : EReal) := by
  rw [V15_of m c main_v6 (by decide), V14_of m c main_v6 (by decide), V13_of m c main_v6 (by decide),
    V12_of m c main_v6 (by decide), V11_of m c main_v6 (by decide), V10_of m c main_v6 (by decide),
    V9_of m c main_v6 (by decide),
    V8_rates2_pad m c p j, V7_zero m c, V7_arg2 m c]
  by_cases h : j.val < 40000
  · rw [dif_pos h, dif_pos h]
  · rw [dif_neg h, dif_neg h]
    exact sitofp_zero (φ := .f32)

/-! ## The first reactant of each second-order reaction: column 0 of the index pairs, padded, one row -/

theorem V9_reactA_col (i : Fin 40000) : V9 m c main_v8 (ix1 i) = V8 m c main_arg5 (ix2 i (0 : Fin 2)) := by
  show StableHlo.after hostOps0_8 (V8 m c) (Proc.devRef .tc main_v8) (ix1 i) = _
  generalize V8 m c = W
  after_results
  refine (shapeCast_a1_a_apply _ shapeCasts_S40000x1_S40000 i).trans ?_
  exact slice2_axis1_apply 0 _ slices_S40000x2_S40000x1_0_0 i (0 : Fin 1) (0 : Fin 2) rfl

theorem V10_reactA_pad (j : Fin 40448) :
    V10 m c main_v9 (ix1 j)
      = if h : j.val < 40000 then V9 m c main_v8 (ix1 ⟨j.val, h⟩) else V9 m c main_c_3 (Shape.Idx.first h_S_) := by
  show StableHlo.after hostOps0_9 (V9 m c) (Proc.devRef .tc main_v9) (ix1 j) = _
  generalize V9 m c = W
  after_results
  exact pad_vec_apply (hi := 448) _ _ pads_S40000_S40448_04480 h_S_ j

theorem V11_reactA_row (j : Fin 40448) : V11 m c main_v10 (ix2 (0 : Fin 1) j) = V10 m c main_v9 (ix1 j) := by
  show StableHlo.after hostOps0_10 (V10 m c) (Proc.devRef .tc main_v10) (ix2 (0 : Fin 1) j) = _
  generalize V10 m c = W
  after_results
  exact shapeCast_a_1a_apply _ shapeCasts_S40448_S1x40448 0 j

/-- The first reactant indices the second region reads: column 0 of the launch pairs, then zeros. -/
theorem V15_reactA (j : Fin 40448) :
    V15 m c main_v10 (ix2 (0 : Fin 1) j)
      = if h : j.val < 40000 then m ((c : Thread nD τ).loc main_arg5) (ix2 ⟨j.val, h⟩ (0 : Fin 2)) else 0#32 := by
  rw [V15_of m c main_v10 (by decide), V14_of m c main_v10 (by decide), V13_of m c main_v10 (by decide),
    V12_of m c main_v10 (by decide),
    V11_reactA_row m c j, V10_reactA_pad m c j, V9_zero m c]
  by_cases h : j.val < 40000
  · rw [dif_pos h, dif_pos h, V9_reactA_col m c ⟨j.val, h⟩, V8_arg5 m c]
  · rw [dif_neg h, dif_neg h]
    rfl

/-! ## The second reactant of each second-order reaction: column 1 of the index pairs, padded, one row -/

theorem V11_reactB_col (i : Fin 40000) : V11 m c main_v12 (ix1 i) = V10 m c main_arg5 (ix2 i (1 : Fin 2)) := by
  show StableHlo.after hostOps0_10 (V10 m c) (Proc.devRef .tc main_v12) (ix1 i) = _
  generalize V10 m c = W
  after_results
  refine (shapeCast_a1_a_apply _ shapeCasts_S40000x1_S40000 i).trans ?_
  exact slice2_axis1_apply 1 _ slices_S40000x2_S40000x1_0_1 i (0 : Fin 1) (1 : Fin 2) rfl

theorem V12_reactB_pad (j : Fin 40448) :
    V12 m c main_v13 (ix1 j)
      = if h : j.val < 40000 then V11 m c main_v12 (ix1 ⟨j.val, h⟩) else V11 m c main_c_4 (Shape.Idx.first h_S_) := by
  show StableHlo.after hostOps0_11 (V11 m c) (Proc.devRef .tc main_v13) (ix1 j) = _
  generalize V11 m c = W
  after_results
  exact pad_vec_apply (hi := 448) _ _ pads_S40000_S40448_04480 h_S_ j

theorem V13_reactB_row (j : Fin 40448) : V13 m c main_v14 (ix2 (0 : Fin 1) j) = V12 m c main_v13 (ix1 j) := by
  show StableHlo.after hostOps0_12 (V12 m c) (Proc.devRef .tc main_v14) (ix2 (0 : Fin 1) j) = _
  generalize V12 m c = W
  after_results
  exact shapeCast_a_1a_apply _ shapeCasts_S40448_S1x40448 0 j

/-- The second reactant indices the second region reads: column 1 of the launch pairs, then zeros. -/
theorem V15_reactB (j : Fin 40448) :
    V15 m c main_v14 (ix2 (0 : Fin 1) j)
      = if h : j.val < 40000 then m ((c : Thread nD τ).loc main_arg5) (ix2 ⟨j.val, h⟩ (1 : Fin 2)) else 0#32 := by
  rw [V15_of m c main_v14 (by decide), V14_of m c main_v14 (by decide),
    V13_reactB_row m c j, V12_reactB_pad m c j, V11_zero m c]
  by_cases h : j.val < 40000
  · rw [dif_pos h, dif_pos h, V11_reactB_col m c ⟨j.val, h⟩, V10_arg5 m c]
  · rw [dif_neg h, dif_neg h]
    rfl

/-! ## The second-order product indices: padded with zeros, laid out as one row -/

theorem V14_prod2_pad (j : Fin 40448) :
    V14 m c main_v15 (ix1 j)
      = if h : j.val < 40000 then V13 m c main_arg6 (ix1 ⟨j.val, h⟩) else V13 m c main_c_5 (Shape.Idx.first h_S_) := by
  show StableHlo.after hostOps0_13 (V13 m c) (Proc.devRef .tc main_v15) (ix1 j) = _
  generalize V13 m c = W
  after_results
  exact pad_vec_apply (hi := 448) _ _ pads_S40000_S40448_04480 h_S_ j

theorem V15_prod2_row (j : Fin 40448) : V15 m c main_v16 (ix2 (0 : Fin 1) j) = V14 m c main_v15 (ix1 j) := by
  show StableHlo.after hostOps0_14 (V14 m c) (Proc.devRef .tc main_v16) (ix2 (0 : Fin 1) j) = _
  generalize V14 m c = W
  after_results
  exact shapeCast_a_1a_apply _ shapeCasts_S40448_S1x40448 0 j

/-- The second-order product indices the second region reads: the launch indices, then zeros. -/
theorem V15_prod2 (j : Fin 40448) :
    V15 m c main_v16 (ix2 (0 : Fin 1) j)
      = if h : j.val < 40000 then m ((c : Thread nD τ).loc main_arg6) (ix1 ⟨j.val, h⟩) else 0#32 := by
  rw [V15_prod2_row m c j, V14_prod2_pad m c j, V13_zero m c, V13_arg6 m c]
  rfl

end Cert.KernelIdeal.Hand

end
-- ==== Proof.KI.SumTrim.lean ====
/-
  A sum over N positions whose summand vanishes from position n on is the sum over the first n positions.
  Used to drop the zero-padded reactions: a padded reaction has rate 0, so its summand is 0.
-/
import Idealize.ShloMosaic.PureOps.Ideal

namespace Cert.KernelIdeal.Hand

open scoped BigOperators

/-- The tail of the sum vanishes, so only the first `n` positions count. -/
theorem sum_trim {n N : ℕ} (h : n ≤ N) (f : Fin N → EReal) (hz : ∀ j : Fin N, n ≤ j.val → f j = 0) :
    ∑ j, f j = ∑ i : Fin n, f (Fin.castLE h i) := by
  have e : ∑ i : Fin n, f (Fin.castLE h i) = ∑ x ∈ Finset.univ.map (Fin.castLEEmb h), f x := by
    rw [Finset.sum_map]; rfl
  rw [e]
  symm
  apply Finset.sum_subset (Finset.subset_univ _)
  intro j _ hj
  apply hz
  by_contra hlt
  exact hj (Finset.mem_map.2 ⟨⟨j.val, Nat.lt_of_not_le hlt⟩, Finset.mem_univ _, Fin.ext rfl⟩)

end Cert.KernelIdeal.Hand
-- ==== Proof.KI.KernelValue.lean ====
/-
  The kernel program's result is the specification's array. The second-order region leaves, at entry (p, q), the
  first-order region's result plus the sum over all PADDED second-order reactions of the switched product
  abundance · abundance · rate; the first-order region leaves the sum over all padded first-order reactions of the
  switched product abundance · rate. The host stretches cast the abundances (the identity on extended reals),
  zero-pad the rates and pad the index vectors with the word 0: a padded reaction has rate 0, so its summand is 0
  whatever abundance its index names, and each sum over the padded reactions is the sum over the true ones.
  A padded index word is 0 and a true one is in range by hypothesis, so every word the regions read names a species.
-/
import proofs.«420563_j88390426951972_1_alg».proof.Proof.KI.Assemble
import proofs.«420563_j88390426951972_1_alg».proof.Proof.KI.R0Value
import proofs.«420563_j88390426951972_1_alg».proof.Proof.KI.R1Value
import proofs.«420563_j88390426951972_1_alg».proof.Proof.KI.HostValue
import proofs.«420563_j88390426951972_1_alg».proof.Proof.KI.SumTrim
import proofs.«420563_j88390426951972_1_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ) (c : Dev nD)

section
variable (hr : Cert.Spec.InRange (m ((c : Thread nD τ).loc main_arg3)) (m ((c : Thread nD τ).loc main_arg4)) (m ((c : Thread nD τ).loc main_arg5)) (m ((c : Thread nD τ).loc main_arg6)))
include hr

/-! ## Every index word the regions read names a species -/

theorem react1_lt (j : Fin 20480) : (V15 m c main_v3 (ix2 (0 : Fin 1) j)).toNat < 2048 := by
  rw [V15_react1]; split
  · exact hr.r1 _
  · decide
theorem prod1_lt (j : Fin 20480) : (V15 m c main_v5 (ix2 (0 : Fin 1) j)).toNat < 2048 := by
  rw [V15_prod1]; split
  · exact hr.p1 _
  · decide
theorem reactA_lt (j : Fin 40448) : (V15 m c main_v10 (ix2 (0 : Fin 1) j)).toNat < 2048 := by
  rw [V15_reactA]; split
  · exact hr.r2 _
  · decide
theorem reactB_lt (j : Fin 40448) : (V15 m c main_v14 (ix2 (0 : Fin 1) j)).toNat < 2048 := by
  rw [V15_reactB]; split
  · exact hr.r2 _
  · decide
theorem prod2_lt (j : Fin 40448) : (V15 m c main_v16 (ix2 (0 : Fin 1) j)).toNat < 2048 := by
  rw [V15_prod2]; split
  · exact hr.p2 _
  · decide

end

/-! ## The padded sums are the true sums -/

/-- First order: the 480 padded reactions have rate 0. -/
theorem sum0_eq (p : Fin 1024) (q : Fin 2048) :
    sum0 (V15 m c main_v0) (V15 m c main_v1) (V15 m c main_v3) (V15 m c main_v5) p q
      = Cert.Spec.first (m ((c : Thread nD τ).loc main_arg0)) (m ((c : Thread nD τ).loc main_arg1)) (m ((c : Thread nD τ).loc main_arg3)) (m ((c : Thread nD τ).loc main_arg4)) p q := by
  unfold sum0 Cert.Spec.first
  rw [sum_trim (show 20000 ≤ 20480 by norm_num) _ (fun j hj => by
    rw [V15_rates1, dif_neg (by omega), mul_zero, ite_self])]
  refine Finset.sum_congr rfl fun i _ => ?_
  have hi : (Fin.castLE (show 20000 ≤ 20480 by norm_num) i).val < 20000 := i.isLt
  rw [V15_prod1, V15_react1, V15_rates1, dif_pos hi, dif_pos hi, dif_pos hi, V15_abund]
  rfl

/-- Second order: the 448 padded reactions have rate 0. -/
theorem sum1_eq (p : Fin 1024) (q : Fin 2048) :
    sum1 (V15 m c main_v0) (V15 m c main_v6) (V15 m c main_v10) (V15 m c main_v14) (V15 m c main_v16) p q
      = Cert.Spec.second (m ((c : Thread nD τ).loc main_arg0)) (m ((c : Thread nD τ).loc main_arg2)) (m ((c : Thread nD τ).loc main_arg5)) (m ((c : Thread nD τ).loc main_arg6)) p q := by
  unfold sum1 Cert.Spec.second
  rw [sum_trim (show 40000 ≤ 40448 by norm_num) _ (fun j hj => by
    rw [V15_rates2, dif_neg (by omega), mul_zero, ite_self])]
  refine Finset.sum_congr rfl fun i _ => ?_
  have hi : (Fin.castLE (show 40000 ≤ 40448 by norm_num) i).val < 40000 := i.isLt
  rw [V15_prod2, V15_reactA, V15_reactB, V15_rates2, dif_pos hi, dif_pos hi, dif_pos hi, dif_pos hi, V15_abund, V15_abund]
  rfl

/-! ## What the second-order region reads is what the host stretches left -/

/-- The abundances reach the second-order region unchanged: they are an INPUT window's array of the first-order region. -/
theorem U16_abund : U16 m c main_v0 = U15 m c main_v0 :=
  (W16_arr m c 0).trans (((dat0 (U15 m) c).arrAt_in 0 rfl _).trans (A_eq0 (U15 m) c 0))

/-! ## The result -/

/-- The result array is the specification's, when every species word of the arguments is in range. -/
theorem result_eq (hr : Cert.Spec.InRange (m ((c : Thread nD τ).loc main_arg3)) (m ((c : Thread nD τ).loc main_arg4)) (m ((c : Thread nD τ).loc main_arg5)) (m ((c : Thread nD τ).loc main_arg6))) :
    (dat1 (F := Ideal) (U16 m) c).arrAt 6 cfg1.N
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e6 : U16 m c main_v6 = U15 m c main_v6 := U16_host m c main_v6 (by decide)
  have e10 : U16 m c main_v10 = U15 m c main_v10 := U16_host m c main_v10 (by decide)
  have e14 : U16 m c main_v14 = U15 m c main_v14 := U16_host m c main_v14 (by decide)
  have e16 : U16 m c main_v16 = U15 m c main_v16 := U16_host m c main_v16 (by decide)
  rw [final1 (U16 m) c (fun j => by rw [e10]; exact reactA_lt m c hr j) (fun j => by rw [e14]; exact reactB_lt m c hr j)
    (fun j => by rw [e16]; exact prod2_lt m c hr j)]
  have e17 : r0Arr (U16 m) c = (dat0 (F := Ideal) (U15 m) c).arrAt 4 cfg0.N := U16_first m c
  funext i
  rw [e17, final0 (U15 m) c (react1_lt m c hr) (prod1_lt m c hr), U16_abund, e6, e10, e14, e16]
  exact congrArg₂ (· + ·) (sum0_eq m c (i 0) (i 1)) (sum1_eq m c (i 0) (i 1))

/-- THE KERNEL'S RUN: every weakly fair execution terminates with the result at the specification's array and the
    arguments unchanged, when every species word of the arguments is in range. -/
theorem run_spec (ρ : Dev nD → PrngReg)
    (hr : ∀ c : Dev nD, Cert.Spec.InRange (m ((c : Thread nD τ).loc main_arg3)) (m ((c : Thread nD τ).loc main_arg4)) (m ((c : Thread nD τ).loc main_arg5)) (m ((c : Thread nD τ).loc main_arg6))) :
    θ_run (defs (F := Ideal)) (onTc (τ := τ) (main (F := Ideal))) ⟨m, fun _ => 0, ρ⟩ (fun r => ∀ c : Dev nD,
      r.2.mem ((c.tc : Thread nD τ).loc main_v18)
        = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m c (hr c)), (h c).2⟩) (run_result (F := Ideal) m ρ)

end Cert.KernelIdeal.Hand

end
-- ==== Proof.LibColGather.lean ====
/-
  Columns of a table gathered by a column of integer indices, read at one element.

  The table has `C` rows of `N` entries; the indices are an `E × 1` column of machine integers. The gather of
  columns (what a take along the second axis lowers to: the first axis an offset axis kept whole, the second axis
  collapsed, the start index naming a column) reads, at `(k, e)`, the table's entry in row `k` of the column the
  index `e` names — the index read as a signed integer and clamped into `[0, N - 1]`.
-/
import Idealize.ShloMosaic.PureOps.Ideal
import Idealize.ShloMosaic.Lib.ValueIdx

noncomputable section

namespace Cert.ColGather

open Idealize.ShloMosaic Idealize.ShloMosaic.ValueIdx

/-- The dimension numbers of a column gather: operand `C × N`, start indices `E × 1`, result `C × E`. -/
abbrev colGatherDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- THE COLUMN GATHER READ AT `(k, e)`: row `k` of the column that index `e` names, read signed and clamped into
    `[0, N - 1]`. -/
theorem gather_cols_apply {α : Type} {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (k : Fin C) (e : Fin E) :
    Host.gather (colGatherDims C N E wf) x idx (ix2 k e)
      = x (ix2 k ⟨min (idx (ix2 e (0 : Fin 1))).toInt.toNat (N - 1), by omega⟩) := by
  unfold Host.gather
  congr 1
  funext a
  refine Fin.ext ?_
  show (colGatherDims C N E wf).start (ix2 k e) idx a + (colGatherDims C N E wf).batchCoord (ix2 k e) a
      + (colGatherDims C N E wf).offCoord (ix2 k e) a = _
  rw [GatherDims.batchCoord_eq_zero _ _ _ List.not_mem_nil]
  match a with
  | ⟨0, _⟩ =>
    show (colGatherDims C N E wf).start (ix2 k e) idx (0 : Fin 2) + 0
        + (colGatherDims C N E wf).offCoord (ix2 k e) (0 : Fin 2) = k.val
    have hs : (colGatherDims C N E wf).start (ix2 k e) idx (0 : Fin 2) = 0 := by
      unfold GatherDims.start
      rw [dif_neg (show (0 : Fin 2) ∉ ([1] : List (Fin 2)) from by decide)]
    have hm : (0 : Fin 2) ∈ (colGatherDims C N E wf).sKept :=
      (GatherDims.mem_sKept _ _).mpr ⟨show (0 : Fin 2) ∉ ([1] : List (Fin 2)) from by decide, List.not_mem_nil⟩
    rw [hs]
    unfold GatherDims.offCoord
    rw [dif_pos hm]
    simp only [Nat.zero_add]
    rfl
  | ⟨1, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (colGatherDims C N E wf).startIndexMap from List.mem_singleton.mpr rfl)]
    have hsi : (colGatherDims C N E wf).siIdx (ix2 k e) ⟨List.idxOf (⟨1, by decide⟩ : Fin 2) (colGatherDims C N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.ColGather

end
-- ==== Proof.RefLemmas.lean ====
/-
  Columns of a table scattered-and-added at a column of integer index words, read at one entry; and an index word
  in range read as a signed integer.

  The table has `C` rows of `N` entries; the index words are an `E × 1` column of machine integers; the updates
  are a `C × E` table, one column per index word.

  * The accumulating scatter of columns (what `.at[:, idx].add` lowers to: the first axis a window axis kept whole,
    the second axis inserted, the index word naming a column), at the ideal values, leaves at `(p, q)` the operand's
    entry plus the sum of the updates' entries `(p, e)` over the `e` whose index word, read as a signed integer and NOT
    clamped, is `q`; an index word that names no column contributes nowhere. Written over ALL `e`, the summand is
    switched off where the index word is not `q`.
  * A 32-bit word below `2^31` read as a signed integer is itself, is not negative, and so passes unchanged through
    the wrap "add the extent when negative"; below the extent it also passes unchanged through a clamp to the extent.
-/
import Idealize.ShloMosaic.PureOps.Ideal
import Idealize.ShloMosaic.Lib.ValueIdx

noncomputable section

namespace Cert.ColScatter

open Idealize.ShloMosaic Idealize.ShloMosaic.ValueIdx
open scoped BigOperators

/-! ## Index words in range -/

/-- A word below `2^31` read as a signed integer is its unsigned value. -/
theorem toInt_of_small (w : BitVec 32) (h : w.toNat < 2 ^ 31) : w.toInt = (w.toNat : ℤ) := by
  rw [BitVec.toInt_eq_toNat_cond, if_pos (by omega)]

/-- The wrap "add `n` when negative" leaves a word below `2^31` as it is. -/
theorem wrap_of_small (w n : BitVec 32) (h : w.toNat < 2 ^ 31) :
    Scalar.select (IntOp.cmpi .slt w 0#32) (IntOp.addi w n) w = w := by
  have hs : IntOp.cmpi .slt w 0#32 = 0#1 := by
    have : w.slt 0#32 = false := by
      rw [BitVec.slt, toInt_of_small w h]
      simp
    simp [IntOp.cmpi, this]
  rw [hs]
  exact select_zero _ _

/-- A word below `N`, itself below `2^31`, read signed and clamped into `[0, N - 1]` is its unsigned value. -/
theorem clamp_of_lt (w : BitVec 32) (N : Nat) (hN : N ≤ 2 ^ 31) (h : w.toNat < N) :
    min w.toInt.toNat (N - 1) = w.toNat := by
  rw [toInt_of_small w (by omega)]
  simp only [Int.toNat_natCast]
  omega

/-! ## The accumulating scatter of columns -/

/-- The dimension numbers of a column scatter: operand `C × N`, scatter indices `E × 1`, updates `C × E`. -/
abbrev colScatterDims (C N E : Nat)
    (wf : ScatterDims.WF ⟨2, ![C, N]⟩ ⟨2, ![E, 1]⟩ ⟨2, ![C, E]⟩ [0] [1] [1] 1) :
    ScatterDims ⟨2, ![C, N]⟩ ⟨2, ![E, 1]⟩ ⟨2, ![C, E]⟩ where
  updateWindowDims := [0]
  insertedWindowDims := [1]
  scatterDimsToOperandDims := [1]
  indexVectorDim := 1
  wf := wf

section
variable {C N E w : Nat} (wf : ScatterDims.WF ⟨2, ![C, N]⟩ ⟨2, ![E, 1]⟩ ⟨2, ![C, E]⟩ [0] [1] [1] 1)
  (idx : IVec ⟨2, ![E, 1]⟩ w) (p : Fin C) (e : Fin E)

/-- On the row axis the update `(p, e)` lands at `p`: no start component, the window coordinate is the update's row. -/
theorem colScatter_pos0 :
    (colScatterDims C N E wf).start (ix2 p e) idx (0 : Fin 2) + ((colScatterDims C N E wf).window (ix2 p e) (0 : Fin 2) : ℤ)
      = (p.val : ℤ) := by
  have hs : (colScatterDims C N E wf).start (ix2 p e) idx (0 : Fin 2) = 0 := by
    unfold ScatterDims.start
    rw [dif_neg (show (0 : Fin 2) ∉ ([1] : List (Fin 2)) from by decide)]
  have hw : (colScatterDims C N E wf).window (ix2 p e) (0 : Fin 2) = p.val := by
    have h0 : (0 : Fin 2) ∈ (colScatterDims C N E wf).sKept := show (0 : Fin 2) ∈ ([0] : List (Fin 2)) from by decide
    unfold ScatterDims.window
    rw [dif_pos h0]
    rfl
  rw [hs, hw, zero_add]

/-- On the column axis the update `(p, e)` lands at the signed value of index word `e`: the axis is inserted, so
    there is no window coordinate. -/
theorem colScatter_pos1 :
    (colScatterDims C N E wf).start (ix2 p e) idx (1 : Fin 2) + ((colScatterDims C N E wf).window (ix2 p e) (1 : Fin 2) : ℤ)
      = (idx (ix2 e (0 : Fin 1))).toInt := by
  have hw : (colScatterDims C N E wf).window (ix2 p e) (1 : Fin 2) = 0 := by
    have h1 : (1 : Fin 2) ∉ (colScatterDims C N E wf).sKept := show (1 : Fin 2) ∉ ([0] : List (Fin 2)) from by decide
    unfold ScatterDims.window
    rw [dif_neg h1]
  rw [hw]
  unfold ScatterDims.start
  rw [dif_pos (show (1 : Fin 2) ∈ ([1] : List (Fin 2)) from by decide)]
  have hsi : (colScatterDims C N E wf).siIdx (ix2 p e) ⟨List.idxOf (1 : Fin 2) (colScatterDims C N E wf).scatterDimsToOperandDims,
      List.idxOf_lt_length_iff.2 (show (1 : Fin 2) ∈ ([1] : List (Fin 2)) from by decide)⟩ = ix2 e (0 : Fin 1) := by
    funext b; refine Fin.ext ?_
    match b with
    | ⟨0, _⟩ => rfl
    | ⟨1, _⟩ => rfl
  rw [hsi]
  simp

end

section
variable {C N E w : Nat} (wf : ScatterDims.WF ⟨2, ![C, N]⟩ ⟨2, ![E, 1]⟩ ⟨2, ![C, E]⟩ [0] [1] [1] 1)
  (idx : IVec ⟨2, ![E, 1]⟩ w)

/-- The update `(p', e)` lands on `(p, q)` exactly when `p' = p` and index word `e`, read signed, is `q`. -/
theorem colScatter_resultIdx (p' : Fin C) (e : Fin E) (p : Fin C) (q : Fin N) :
    (colScatterDims C N E wf).resultIdx? (ix2 p' e) idx = some (ix2 p q)
      ↔ p' = p ∧ (idx (ix2 e (0 : Fin 1))).toInt = (q.val : ℤ) := by
  have p0 := colScatter_pos0 (N := N) wf idx p' e
  have p1 := colScatter_pos1 (N := N) wf idx p' e
  unfold ScatterDims.resultIdx?
  constructor
  · intro h
    split at h
    · rename_i hb
      have hf := Option.some.inj h
      have h0 : ((colScatterDims C N E wf).start (ix2 p' e) idx (0 : Fin 2)
          + ((colScatterDims C N E wf).window (ix2 p' e) (0 : Fin 2) : ℤ)).toNat = p.val :=
        congrArg (fun f => (f (0 : Fin 2)).val) hf
      have h1 : ((colScatterDims C N E wf).start (ix2 p' e) idx (1 : Fin 2)
          + ((colScatterDims C N E wf).window (ix2 p' e) (1 : Fin 2) : ℤ)).toNat = q.val :=
        congrArg (fun f => (f (1 : Fin 2)).val) hf
      have b1 := (hb (1 : Fin 2)).1
      rw [p0] at h0
      rw [p1] at h1 b1
      exact ⟨Fin.ext (by omega), by omega⟩
    · exact absurd h (by simp)
  · rintro ⟨rfl, h1⟩
    have hb : ∀ a : Fin 2, 0 ≤ (colScatterDims C N E wf).start (ix2 p' e) idx a + ((colScatterDims C N E wf).window (ix2 p' e) a : ℤ)
        ∧ (colScatterDims C N E wf).start (ix2 p' e) idx a + ((colScatterDims C N E wf).window (ix2 p' e) a : ℤ)
          < (((⟨2, ![C, N]⟩ : Shape).size a : ℕ) : ℤ) := by
      intro a
      match a with
      | ⟨0, _⟩ =>
        show 0 ≤ (colScatterDims C N E wf).start (ix2 p' e) idx (0 : Fin 2) + ((colScatterDims C N E wf).window (ix2 p' e) (0 : Fin 2) : ℤ)
          ∧ (colScatterDims C N E wf).start (ix2 p' e) idx (0 : Fin 2) + ((colScatterDims C N E wf).window (ix2 p' e) (0 : Fin 2) : ℤ) < ((C : ℕ) : ℤ)
        rw [p0]
        exact ⟨by omega, by exact_mod_cast p'.isLt⟩
      | ⟨1, _⟩ =>
        show 0 ≤ (colScatterDims C N E wf).start (ix2 p' e) idx (1 : Fin 2) + ((colScatterDims C N E wf).window (ix2 p' e) (1 : Fin 2) : ℤ)
          ∧ (colScatterDims C N E wf).start (ix2 p' e) idx (1 : Fin 2) + ((colScatterDims C N E wf).window (ix2 p' e) (1 : Fin 2) : ℤ) < ((N : ℕ) : ℤ)
        rw [p1, h1]
        exact ⟨by omega, by exact_mod_cast q.isLt⟩
    rw [dif_pos hb]
    congr 1
    funext a
    refine Fin.ext ?_
    match a with
    | ⟨0, _⟩ =>
      show ((colScatterDims C N E wf).start (ix2 p' e) idx (0 : Fin 2) + ((colScatterDims C N E wf).window (ix2 p' e) (0 : Fin 2) : ℤ)).toNat = p'.val
      rw [p0]; simp
    | ⟨1, _⟩ =>
      show ((colScatterDims C N E wf).start (ix2 p' e) idx (1 : Fin 2) + ((colScatterDims C N E wf).window (ix2 p' e) (1 : Fin 2) : ℤ)).toNat = q.val
      rw [p1, h1]; simp

/-- THE ACCUMULATING COLUMN SCATTER READ AT `(p, q)`, at the ideal values: the operand's entry plus the sum, over ALL
    index words `e`, of the update's entry `(p, e)` where word `e`, read signed, is `q`, and of nothing where it is not. -/
theorem scatterAdd_cols_apply (x : (⟨2, ![C, N]⟩ : Shape).Idx → EReal) (upd : (⟨2, ![C, E]⟩ : Shape).Idx → EReal)
    (p : Fin C) (q : Fin N) :
    Ideal.hostScatterAdd (colScatterDims C N E wf) x idx upd (ix2 p q)
      = x (ix2 p q) + ∑ e : Fin E, if (idx (ix2 e (0 : Fin 1))).toInt = (q.val : ℤ) then upd (ix2 p e) else 0 := by
  unfold Ideal.hostScatterAdd
  congr 1
  rw [Finset.sum_filter, sum_idx2]
  simp only [colScatter_resultIdx wf idx _ _ p q]
  -- only the updates of row `p` can land in row `p`
  rw [Finset.sum_eq_single p]
  · refine Finset.sum_congr rfl fun e _ => ?_
    by_cases h : (idx (ix2 e (0 : Fin 1))).toInt = (q.val : ℤ)
    · simp [h]
    · simp [h]
  · intro p' _ hp'
    refine Finset.sum_eq_zero fun e _ => ?_
    rw [if_neg]
    rintro ⟨h, _⟩
    exact hp' h
  · intro h
    exact absurd (Finset.mem_univ _) h

end

end Cert.ColScatter

end
-- ==== Proof.RefValue.lean ====
/-
  The reference's result, read entry by entry: the two column gathers, the products, and the two accumulating
  column scatters into a zero table are the reaction sums of the specification when every species word is in range.

  A species word in [0, 2048) is not negative as a signed number, so the normalising wrap "add 2048 when negative"
  leaves it as it is; it names a column inside the table, so the gather's clamp leaves it too. Entry (p, j) of a
  gathered table is therefore the abundance in row p of the column word j names. A scatter sends update (p, j) to
  entry (p, word j) of the result, so entry (p, q) of the result is the operand's entry plus the sum, over all
  reactions j, of update (p, j) where word j is q and of nothing where it is not: the specification's switched sums.
  The first scatter starts from the zero table, which contributes 0.
-/
import proofs.«420563_j88390426951972_1_alg».proof.Proof.Gen.ReferenceIdeal.Read
import proofs.«420563_j88390426951972_1_alg».proof.Proof.Spec
import proofs.«420563_j88390426951972_1_alg».proof.Proof.LibColGather
import proofs.«420563_j88390426951972_1_alg».proof.Proof.RefLemmas
import Idealize.ShloMosaic.PureOps.Ideal.Laws

noncomputable section

namespace Cert.ReferenceIdeal.RefValue

open Cert.ReferenceIdeal Cert.ReferenceIdeal.Gen Cert.ReferenceIdeal.Read Idealize.ShloMosaic Idealize.SL.Sem
open Idealize.ShloMosaic.ValueIdx
open scoped BigOperators

/-! ## Species words in range -/

/-- A species word in range, read as a signed integer, is `q` exactly when the column it names is `q`. -/
theorem toInt_eq_iff_col (w : BitVec 32) (h : w.toNat < 2048) (q : Fin 2048) :
    w.toInt = (q.val : ℤ) ↔ Cert.Spec.col w = q := by
  rw [Cert.ColScatter.toInt_of_small w (by omega), Fin.ext_iff, Cert.Spec.col_val_of_lt h]
  exact Int.natCast_inj

/-! ## The normalised index vectors, at an entry: the wrap is the identity on words in range -/

/-- The first-order reactant words, normalised and laid out as a column: entry `e` is word `e`. -/
theorem norm_v5 (x3 : IVec S20000 32) (h : ∀ j, (x3 j).toNat < 2048) (e : Fin 20000) :
    val_main_v5 (F := Ideal) x3 (ix2 e (0 : Fin 1)) = x3 (ix1 e) := by
  have hi : idx_main_v5 (ix2 e (0 : Fin 1)) = ix1 e := funext fun a => match a with | ⟨0, _⟩ => rfl
  rw [val_main_v5_apply, hi, val_main_v4_apply, val_main_v1_apply, val_main_v3_apply, val_main_v0_apply, val_main_c_apply,
    val_main_v2_apply, val_main_c_0_apply]
  exact Cert.ColScatter.wrap_of_small _ _ (by have := h (ix1 e); omega)

/-- The first-order product words, normalised and laid out as a column: entry `e` is word `e`. -/
theorem norm_v34 (x4 : IVec S20000 32) (h : ∀ j, (x4 j).toNat < 2048) (e : Fin 20000) :
    val_main_v34 (F := Ideal) x4 (ix2 e (0 : Fin 1)) = x4 (ix1 e) := by
  have hi : idx_main_v34 (ix2 e (0 : Fin 1)) = ix1 e := funext fun a => match a with | ⟨0, _⟩ => rfl
  rw [val_main_v34_apply, hi, val_main_v33_apply, val_main_v30_apply, val_main_v32_apply, val_main_v29_apply, val_main_c_5_apply,
    val_main_v31_apply, val_main_c_6_apply]
  exact Cert.ColScatter.wrap_of_small _ _ (by have := h (ix1 e); omega)

/-- The second-order product words, normalised and laid out as a column: entry `e` is word `e`. -/
theorem norm_v41 (x6 : IVec S40000 32) (h : ∀ j, (x6 j).toNat < 2048) (e : Fin 40000) :
    val_main_v41 (F := Ideal) x6 (ix2 e (0 : Fin 1)) = x6 (ix1 e) := by
  have hi : idx_main_v41 (ix2 e (0 : Fin 1)) = ix1 e := funext fun a => match a with | ⟨0, _⟩ => rfl
  rw [val_main_v41_apply, hi, val_main_v40_apply, val_main_v37_apply, val_main_v39_apply, val_main_v36_apply, val_main_c_7_apply,
    val_main_v38_apply, val_main_c_8_apply]
  exact Cert.ColScatter.wrap_of_small _ _ (by have := h (ix1 e); omega)

/-- Column 0 of the reactant table, as a vector: entry `e` is the table's `(e, 0)`. -/
theorem col0_v9 (x5 : IVec S40000x2 32) (e : Fin 40000) :
    val_main_v9 (F := Ideal) x5 (ix1 e) = x5 (ix2 e (0 : Fin 2)) := by
  have h9 : idx_main_v9 (ix1 e) = ix2 e (0 : Fin 1) :=
    funext fun a => match a with | ⟨0, _⟩ => Fin.ext (Nat.div_one _) | ⟨1, _⟩ => rfl
  have h8 : idx_main_v8 (ix2 e (0 : Fin 1)) = ix2 e (0 : Fin 2) :=
    funext fun a => match a with | ⟨0, _⟩ => rfl | ⟨1, _⟩ => rfl
  rw [val_main_v9_apply, h9, val_main_v8_apply, h8]

/-- Column 1 of the reactant table, as a vector: entry `e` is the table's `(e, 1)`. -/
theorem col1_v18 (x5 : IVec S40000x2 32) (e : Fin 40000) :
    val_main_v18 (F := Ideal) x5 (ix1 e) = x5 (ix2 e (1 : Fin 2)) := by
  have h18 : idx_main_v18 (ix1 e) = ix2 e (0 : Fin 1) :=
    funext fun a => match a with | ⟨0, _⟩ => Fin.ext (Nat.div_one _) | ⟨1, _⟩ => rfl
  have h17 : idx_main_v17 (ix2 e (0 : Fin 1)) = ix2 e (1 : Fin 2) :=
    funext fun a => match a with | ⟨0, _⟩ => rfl | ⟨1, _⟩ => rfl
  rw [val_main_v18_apply, h18, val_main_v17_apply, h17]

/-- The first reactants of the second-order reactions, normalised and laid out as a column. -/
theorem norm_v15 (x5 : IVec S40000x2 32) (h : ∀ j, (x5 j).toNat < 2048) (e : Fin 40000) :
    val_main_v15 (F := Ideal) x5 (ix2 e (0 : Fin 1)) = x5 (ix2 e (0 : Fin 2)) := by
  have hi : idx_main_v15 (ix2 e (0 : Fin 1)) = ix1 e := funext fun a => match a with | ⟨0, _⟩ => rfl
  rw [val_main_v15_apply, hi, val_main_v14_apply, val_main_v11_apply, val_main_v13_apply, val_main_v10_apply, val_main_c_1_apply,
    val_main_v12_apply, val_main_c_2_apply, col0_v9]
  exact Cert.ColScatter.wrap_of_small _ _ (by have := h (ix2 e (0 : Fin 2)); omega)

/-- The second reactants of the second-order reactions, normalised and laid out as a column. -/
theorem norm_v24 (x5 : IVec S40000x2 32) (h : ∀ j, (x5 j).toNat < 2048) (e : Fin 40000) :
    val_main_v24 (F := Ideal) x5 (ix2 e (0 : Fin 1)) = x5 (ix2 e (1 : Fin 2)) := by
  have hi : idx_main_v24 (ix2 e (0 : Fin 1)) = ix1 e := funext fun a => match a with | ⟨0, _⟩ => rfl
  rw [val_main_v24_apply, hi, val_main_v23_apply, val_main_v20_apply, val_main_v22_apply, val_main_v19_apply, val_main_c_3_apply,
    val_main_v21_apply, val_main_c_4_apply, col1_v18]
  exact Cert.ColScatter.wrap_of_small _ _ (by have := h (ix2 e (1 : Fin 2)); omega)

/-! ## The gathers, at an entry: nothing is clamped -/

/-- A column gather of the abundance table at a column of words whose entry `e` is a word `w` in range: entry
    `(p, e)` is the abundance in row `p` of the column `w` names. -/
theorem gather_in_range {E : Nat}
    (wf : GatherDims.WF ⟨2, ![1024, 2048]⟩ ⟨2, ![E, 1]⟩ ⟨2, ![1024, E]⟩ [0] [1] [] [1] [] 1 ![1024, 1])
    (Y : Cert.Spec.SY.Idx → EReal) (idx : IVec ⟨2, ![E, 1]⟩ 32) (p : Fin 1024) (e : Fin E) (w : BitVec 32)
    (hw : idx (ix2 e (0 : Fin 1)) = w) (h : w.toNat < 2048) :
    Host.gather (Cert.ColGather.colGatherDims 1024 2048 E wf) Y idx (ix2 p e) = Y (ix2 p (Cert.Spec.col w)) := by
  refine (Cert.ColGather.gather_cols_apply (by norm_num) wf Y idx p e).trans ?_
  refine congrArg (fun c : Fin 2048 => Y (ix2 p c)) (Fin.ext ?_)
  show min (idx (ix2 e (0 : Fin 1))).toInt.toNat (2048 - 1) = (Cert.Spec.col w).val
  rw [hw, Cert.ColScatter.clamp_of_lt w 2048 (by norm_num) h, Cert.Spec.col_val_of_lt h]

/-- The abundances of the first-order reactants. -/
theorem gather_v6 (Y : Cert.Spec.SY.Idx → EReal) (x3 : IVec S20000 32) (h : ∀ j, (x3 j).toNat < 2048)
    (p : Fin 1024) (e : Fin 20000) :
    val_main_v6 (F := Ideal) Y x3 (ix2 p e) = Y (ix2 p (Cert.Spec.col (x3 (ix1 e)))) :=
  gather_in_range gather_S1024x2048_S20000x1_S1024x20000_0_1_n_n_1_1_10241_wf Y (val_main_v5 (F := Ideal) x3) p e _
    (norm_v5 x3 h e) (h _)

/-- The abundances of the second-order reactions' first reactants. -/
theorem gather_v16 (Y : Cert.Spec.SY.Idx → EReal) (x5 : IVec S40000x2 32) (h : ∀ j, (x5 j).toNat < 2048)
    (p : Fin 1024) (e : Fin 40000) :
    val_main_v16 (F := Ideal) Y x5 (ix2 p e) = Y (ix2 p (Cert.Spec.col (x5 (ix2 e (0 : Fin 2))))) :=
  gather_in_range gather_S1024x2048_S40000x1_S1024x40000_0_1_n_n_1_1_10241_wf Y (val_main_v15 (F := Ideal) x5) p e _
    (norm_v15 x5 h e) (h _)

/-- The abundances of the second-order reactions' second reactants. -/
theorem gather_v25 (Y : Cert.Spec.SY.Idx → EReal) (x5 : IVec S40000x2 32) (h : ∀ j, (x5 j).toNat < 2048)
    (p : Fin 1024) (e : Fin 40000) :
    val_main_v25 (F := Ideal) Y x5 (ix2 p e) = Y (ix2 p (Cert.Spec.col (x5 (ix2 e (1 : Fin 2))))) :=
  gather_in_range gather_S1024x2048_S40000x1_S1024x40000_0_1_n_n_1_1_10241_wf Y (val_main_v24 (F := Ideal) x5) p e _
    (norm_v24 x5 h e) (h _)

/-! ## The two switched sums -/

/-- The first scatter's updates, summed into entry `(p, q)`, are the first-order reactions into species `q`. -/
theorem first_sum (Y : Cert.Spec.SY.Idx → EReal) (R1 : Cert.Spec.SR1.Idx → EReal) (i1r i1p : Cert.Spec.SI1.Idx → BitVec 32)
    (hr : ∀ j, (i1r j).toNat < 2048) (hp : ∀ j, (i1p j).toNat < 2048) (p : Fin 1024) (q : Fin 2048) :
    (∑ e : Fin 20000, if (val_main_v34 (F := Ideal) i1p (ix2 e (0 : Fin 1))).toInt = (q.val : ℤ)
        then val_main_v7 (F := Ideal) Y R1 i1r (ix2 p e) else 0)
      = Cert.Spec.first Y R1 i1r i1p p q := by
  unfold Cert.Spec.first
  refine Finset.sum_congr rfl fun e _ => ?_
  rw [norm_v34 i1p hp e, val_main_v7_apply, gather_v6 Y i1r hr p e]
  exact if_congr (toInt_eq_iff_col _ (hp _) q) rfl rfl

/-- The second scatter's updates, summed into entry `(p, q)`, are the second-order reactions into species `q`. -/
theorem second_sum (Y : Cert.Spec.SY.Idx → EReal) (R2 : Cert.Spec.SR2.Idx → EReal) (i2r : Cert.Spec.SI2x2.Idx → BitVec 32)
    (i2p : Cert.Spec.SI2.Idx → BitVec 32)
    (hr : ∀ j, (i2r j).toNat < 2048) (hp : ∀ j, (i2p j).toNat < 2048) (p : Fin 1024) (q : Fin 2048) :
    (∑ e : Fin 40000, if (val_main_v41 (F := Ideal) i2p (ix2 e (0 : Fin 1))).toInt = (q.val : ℤ)
        then val_main_v27 (F := Ideal) Y R2 i2r (ix2 p e) else 0)
      = Cert.Spec.second Y R2 i2r i2p p q := by
  unfold Cert.Spec.second
  refine Finset.sum_congr rfl fun e _ => ?_
  rw [norm_v41 i2p hp e, val_main_v27_apply, val_main_v26_apply, gather_v16 Y i2r hr p e, gather_v25 Y i2r hr p e]
  exact if_congr (toInt_eq_iff_col _ (hp _) q) rfl rfl

/-! ## The reference's result is the specification -/

/-- The table the first scatter starts from is zero. -/
theorem zero_v28 (p : Fin 1024) (q : Fin 2048) : val_main_v28 (F := Ideal) (ix2 p q) = 0 := by
  rw [val_main_v28_apply, val_main_cst_apply]
  exact Ideal.ofBits_zero_f32

/-- THE REFERENCE'S RESULT: with every species word in range, the last scatter's table is the reaction term. -/
theorem result_eq_G (Y : Cert.Spec.SY.Idx → EReal) (R1 : Cert.Spec.SR1.Idx → EReal) (R2 : Cert.Spec.SR2.Idx → EReal)
    (i1r i1p : Cert.Spec.SI1.Idx → BitVec 32) (i2r : Cert.Spec.SI2x2.Idx → BitVec 32) (i2p : Cert.Spec.SI2.Idx → BitVec 32)
    (hr : Cert.Spec.InRange i1r i1p i2r i2p) :
    val_main_v42 (F := Ideal) Y R1 R2 i1r i1p i2r i2p = Cert.Spec.G Y R1 R2 i1r i1p i2r i2p := by
  funext i
  obtain ⟨p, q, rfl⟩ : ∃ (p : Fin 1024) (q : Fin 2048), i = ix2 p q := ⟨i 0, i 1, eq_ix2 i⟩
  show Ideal.hostScatterAdd (Cert.ColScatter.colScatterDims 1024 2048 40000 scatter_S1024x2048_S40000x1_S1024x40000_0_1_1_1_wf)
      (val_main_v35 (F := Ideal) Y R1 i1r i1p) (val_main_v41 (F := Ideal) i2p) (val_main_v27 (F := Ideal) Y R2 i2r) (ix2 p q)
    = Cert.Spec.first Y R1 i1r i1p p q + Cert.Spec.second Y R2 i2r i2p p q
  rw [Cert.ColScatter.scatterAdd_cols_apply, second_sum Y R2 i2r i2p hr.r2 hr.p2 p q]
  refine congrArg (fun a => a + Cert.Spec.second Y R2 i2r i2p p q) ?_
  show Ideal.hostScatterAdd (Cert.ColScatter.colScatterDims 1024 2048 20000 scatter_S1024x2048_S20000x1_S1024x20000_0_1_1_1_wf)
      (val_main_v28 (F := Ideal)) (val_main_v34 (F := Ideal) i1p) (val_main_v7 (F := Ideal) Y R1 i1r) (ix2 p q)
    = Cert.Spec.first Y R1 i1r i1p p q
  rw [Cert.ColScatter.scatterAdd_cols_apply, first_sum Y R1 i1r i1p hr.r1 hr.p1 p q, zero_v28, zero_add]

/-! ## The run -/

/-- THE REFERENCE'S RUN: from any memory whose species words are in range, every weakly fair execution terminates with
    the result buffer at the reaction term of the arguments, the arguments unchanged. -/
theorem run_spec [Cert.ReferenceIdeal.Facts]
    (m' : (ℓ : Loc Cert.ReferenceIdeal.nD Cert.ReferenceIdeal.τ Cert.ReferenceIdeal.sig) → Buf (Elt Ideal) ℓ)
    (g' : Dev Cert.ReferenceIdeal.nD → PrngReg)
    (hr : ∀ c : Dev Cert.ReferenceIdeal.nD, Cert.Spec.InRange
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v42)
        = Cert.Spec.G
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run Cert.ReferenceIdeal.defs _ _).mono
    (fun _ h c => ⟨(h c).1.trans ((Cert.ReferenceIdeal.Read.val_main_v42_eq _ _ _ _ _ _ _).trans
      (result_eq_G _ _ _ _ _ _ _ (hr c))), (h c).2⟩)
    (Cert.ReferenceIdeal.Value.run (F := Ideal) m' g')

/-- The reference runs and leaves its seven arguments unchanged: the run above with the result dropped (no hypothesis
    on the words is needed for this part). -/
theorem frame [Cert.ReferenceIdeal.Facts]
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run Cert.ReferenceIdeal.defs _ _).mono (fun _ h c => (h c).2) (Cert.ReferenceIdeal.Value.run (F := Ideal) m' g')

end Cert.ReferenceIdeal.RefValue

end
-- ==== Proof.PreRange.lean ====
/-
  The precondition, read at the four species index arrays.

  The printed precondition is one conjunction of seven "all entries pass" tests. The last four say, of each index
  array, that every word w has 0 ≤ w and w < 2048 as SIGNED 32-bit numbers. A signed word that is at least 0 has its
  top bit clear, so it reads the same unsigned, and the unsigned reading is then below 2048: that is the range
  statement the specification asks for. The three tests on the floating-point arrays are split off and not used.
-/
import proofs.«420563_j88390426951972_1_alg».proof.Pre_finite_inputs
import proofs.«420563_j88390426951972_1_alg».proof.Proof.Gen.Pre_finite_inputs
import proofs.«420563_j88390426951972_1_alg».proof.Proof.Spec
import Idealize.ShloMosaic.Lib.ReduceAll
import Idealize.ShloMosaic.Lib.StableHlo.Predicate

namespace Cert.Proof

open Idealize.ShloMosaic Idealize.ShloMosaic.ValueIdx

/-- A 32-bit word that is ≥ 0 and < 2048 read signed is < 2048 read unsigned. -/
theorem toNat_lt_of_signed_range (w : BitVec 32) (h0 : IntOp.cmpi .sge w (0#32) = 1#1)
    (h1 : IntOp.cmpi .slt w (2048#32) = 1#1) : w.toNat < 2048 := by
  rw [IntOp.cmpi_sge] at h0
  rw [IntOp.cmpi_slt] at h1
  have e0 : (0#32 : BitVec 32).toInt = 0 := by decide
  have e1 : (2048#32 : BitVec 32).toInt = 2048 := by decide
  rw [e0] at h0
  rw [e1] at h1
  rw [BitVec.toInt_eq_toNat_cond] at h0 h1
  split at h0 <;> omega

/-- The scalar shape has one index. -/
instance subsingleton_scalar_idx : Subsingleton Cert.Pre_finite_inputs.S_.Idx := ⟨fun a b => funext fun d => d.elim0⟩

/-- One "all entries pass" test of the precondition, read at an entry: when the test over an index array came out 1,
    every word of the array is at least 0 and below 2048 signed, hence below 2048 unsigned. -/
theorem word_lt_of_all {s : Shape} {axes : List (Fin s.rank)} (a : IVec s 32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (andi (cmpi .sge a (broadcastInDim s ![] hb (constantI Cert.Pre_finite_inputs.S_ 32 0#32)))
            (cmpi .slt a (broadcastInDim s ![] hb (constantI Cert.Pre_finite_inputs.S_ 32 2048#32))))
          init hr hu ix0 = 1#1) (j : s.Idx) : (a j).toNat < 2048 := by
  have hj := Host.reduce_andi_all _ init hr hu ix0 e j
  obtain ⟨h0, h1⟩ := IntOp.andi_eq_one.1 hj
  exact toNat_lt_of_signed_range (a j) h0 h1

/-- The precondition gives the range statement: the conjunction is split from the right, the four tests on the index
    arrays are read entry by entry, and the three tests on the floating-point arrays are dropped. -/
theorem inRange_of_pre {F : FTy → Type} [FloatOps F] [Cert.Pre_finite_inputs.Facts]
    (a0 : FVec F Cert.Pre_finite_inputs.S1024x2048 .f32) (a1 : FVec F Cert.Pre_finite_inputs.S1024x20000 .f32) (a2 : FVec F Cert.Pre_finite_inputs.S1024x40000 .f32)
    (a3 a4 : IVec Cert.Pre_finite_inputs.S20000 32) (a5 : IVec Cert.Pre_finite_inputs.S40000x2 32) (a6 : IVec Cert.Pre_finite_inputs.S40000 32)
    (h : Cert.Pre_finite_inputs.fn (F := F) a0 a1 a2 a3 a4 a5 a6 = fun _ => 1#1) : Cert.Spec.InRange a3 a4 a5 a6 := by
  have h' := congrFun h ix0
  dsimp only [Cert.Pre_finite_inputs.fn, Cert.Pre_finite_inputs.fn_part1, Cert.Pre_finite_inputs.fn_part2] at h'
  obtain ⟨h', e6⟩ := IntOp.andi_eq_one.1 h'
  obtain ⟨h', e5⟩ := IntOp.andi_eq_one.1 h'
  obtain ⟨h', e4⟩ := IntOp.andi_eq_one.1 h'
  obtain ⟨_, e3⟩ := IntOp.andi_eq_one.1 h'
  exact ⟨word_lt_of_all a3 _ _ _ _ e3, word_lt_of_all a4 _ _ _ _ e4, word_lt_of_all a5 _ _ _ _ e5,
    word_lt_of_all a6 _ _ _ _ e6⟩

end Cert.Proof
-- ==== Proof.lean ====
/-
  The reaction term: gather species abundances, multiply by per-reaction rates, add into the product species.

  The kernel program computes it on the matrix unit. Gathering column `idx j` of the abundance table is the product
  with a one-hot selector (entry (s, j) is 1 exactly when s = idx j), and adding reaction j's term into column
  `idx' j` is the product with the transposed kind of selector; both are exact when every index names a column,
  which is the precondition: every species index lies in [0, 2048). The reactions are zero-padded to a multiple of
  the tile (rate 0, index 0: a padded reaction adds 0) and summed tile by tile into an accumulator, first the
  first-order reactions into a zero table, then the second-order ones on top of that result. The reference gathers
  and scatter-adds directly. On the extended reals both are, at batch row p and species q, the sum over the
  first-order reactions into q of abundance · rate plus the sum over the second-order reactions into q of
  abundance · abundance · rate (`Cert.Spec.G`): sums of the same summands, in another grouping and order.

  The frames: each program terminates without a fault and leaves its arguments as launched. The kernel's, at both
  instances, from its two regions' runs; the reference's from its run. The ideal pass rewrote nothing, so the
  idealized kernel is the kernel's own text read on the extended reals, and that conjunct is `True`.
-/
import proofs.«420563_j88390426951972_1_alg».proof.Defs
import proofs.«420563_j88390426951972_1_alg».proof.Proof.Gen.Kernel
import proofs.«420563_j88390426951972_1_alg».proof.Proof.Gen.KernelIdeal
import proofs.«420563_j88390426951972_1_alg».proof.Proof.Gen.ReferenceIdeal
import proofs.«420563_j88390426951972_1_alg».proof.Proof.Gen.Pre_finite_inputs
import proofs.«420563_j88390426951972_1_alg».proof.Proof.K.Assemble
import proofs.«420563_j88390426951972_1_alg».proof.Proof.KI.KernelValue
import proofs.«420563_j88390426951972_1_alg».proof.Proof.RefValue
import proofs.«420563_j88390426951972_1_alg».proof.Proof.PreRange
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m g _ => Cert.Kernel.Hand.frame (F := Bits) m g

/-- So does the kernel read on the extended reals. -/
theorem frame_kernelIdeal : Cert.frame_KernelIdeal := fun m g _ => Cert.KernelIdeal.Hand.frame (F := Ideal) m g

/-- So does the reference. -/
theorem frame_reference : Cert.frame_ReferenceIdeal := fun m g _ => Cert.ReferenceIdeal.RefValue.frame m g

/-- From memories agreeing on the arguments both programs end with the specification's array of those arguments. -/
theorem algebraic : Cert.algebraic_KernelIdeal_ReferenceIdeal := by
  intro m g m' g' hpre hagree
  have hr : ∀ c : Dev Cert.KernelIdeal.nD, Cert.Spec.InRange (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
    fun c => Cert.Proof.inRange_of_pre _ _ _ _ _ _ _ (hpre c)
  have hr' : ∀ c : Dev Cert.ReferenceIdeal.nD, Cert.Spec.InRange (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) := fun c => by
    obtain ⟨_, _, _, h3, h4, h5, h6⟩ := hagree c
    rw [h3, h4, h5, h6]; exact hr c
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Hand.run_spec m g hr, ?_⟩
  refine (θ_run (Cert.ReferenceIdeal.defs (F := Ideal)) _ _).mono (fun r h c => ?_) (Cert.ReferenceIdeal.RefValue.run_spec m' g' hr')
  obtain ⟨h0, h1, h2, h3, h4, h5, h6⟩ := hagree c
  refine ⟨(h c).1.trans ?_, (h c).2⟩
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
